-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x2048 : Shape := ⟨3, ![32, 2048, 2048]⟩
abbrev S1x32x1024 : Shape := ⟨3, ![1, 32, 1024]⟩
abbrev S2048x1024 : Shape := ⟨2, ![2048, 1024]⟩
abbrev S1024 : Shape := ⟨1, ![1024]⟩
abbrev S_ : Shape := ⟨0, ![]⟩

class Facts : Prop where
  bcast_S_S32x2048x2048 : S_.BroadcastsInDim S32x2048x2048 (![] : Fin 0 → Fin S32x2048x2048.rank)
  reducesTo_S32x2048x2048_S_d0_1_2 : S32x2048x2048.ReducesTo [0, 1, 2] S_
  h_S_ : 0 < S_.numel
  bcast_S_S1x32x1024 : S_.BroadcastsInDim S1x32x1024 (![] : Fin 0 → Fin S1x32x1024.rank)
  reducesTo_S1x32x1024_S_d0_1_2 : S1x32x1024.ReducesTo [0, 1, 2] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S32x2048x2048 .f32) (main_arg1 : FVec F S1x32x1024 .f32) (main_arg2 : FVec F S2048x1024 .f32) (main_arg3 : FVec F S1024 .f32) (main_arg4 : FVec F S2048x1024 .f32) (main_arg5 : FVec F S1024 .f32) : IVec S_ 1 :=
  let main_v0 : FVec F S32x2048x2048 .f32 := Host.absf main_arg0
  let main_cst : FVec F S_ .f32 := constant S_ .f32 0x7F800000#32
  let main_v1 : FVec F S32x2048x2048 .f32 := broadcastInDim S32x2048x2048 ![] bcast_S_S32x2048x2048 main_cst
  let main_v2 : IVec S32x2048x2048 1 := cmpf .olt main_v0 main_v1
  let main_c : IVec S_ 1 := constantI S_ 1 1#1
  let main_v3 : IVec S_ 1 := (fun x v => Host.reduce IntOp.andi x v reducesTo_S32x2048x2048_S_d0_1_2 h_S_) main_v2 main_c
  let main_v4 : FVec F S1x32x1024 .f32 := Host.absf main_arg1
  let main_cst_0 : FVec F S_ .f32 := constant S_ .f32 0x7F800000#32
  let main_v5 : FVec F S1x32x1024 .f32 := broadcastInDim S1x32x1024 ![] bcast_S_S1x32x1024 main_cst_0
  let main_v6 : IVec S1x32x1024 1 := cmpf .olt main_v4 main_v5
  let main_c_1 : IVec S_ 1 := constantI S_ 1 1#1
  let main_v7 : IVec S_ 1 := (fun x v => Host.reduce IntOp.andi x v reducesTo_S1x32x1024_S_d0_1_2 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S32x2048x2048 : Shape := ⟨3, ![32, 2048, 2048]⟩
abbrev S1x32x1024 : Shape := ⟨3, ![1, 32, 1024]⟩
abbrev S2048x1024 : Shape := ⟨2, ![2048, 1024]⟩
abbrev S1024 : Shape := ⟨1, ![1024]⟩
abbrev S32x1x1024 : Shape := ⟨3, ![32, 1, 1024]⟩
abbrev S32x1x2048 : Shape := ⟨3, ![32, 1, 2048]⟩
abbrev S1x512x2048 : Shape := ⟨3, ![1, 512, 2048]⟩
abbrev S1x1x1024 : Shape := ⟨3, ![1, 1, 1024]⟩
abbrev S1x1x2048 : Shape := ⟨3, ![1, 1, 2048]⟩
abbrev S1x2048 : Shape := ⟨2, ![1, 2048]⟩
abbrev S1x1 : Shape := ⟨2, ![1, 1]⟩
abbrev S1x1024 : Shape := ⟨2, ![1, 1024]⟩
abbrev S512x2048 : Shape := ⟨2, ![512, 2048]⟩
abbrev S512x1024 : Shape := ⟨2, ![512, 1024]⟩
abbrev S1x512 : Shape := ⟨2, ![1, 512]⟩
abbrev S1 : Shape := ⟨1, ![1]⟩
abbrev S32x2048x1 : Shape := ⟨3, ![32, 2048, 1]⟩

abbrev nBuf : Space → Nat
  | .hbm => 12
  | .vmem => 16
  | .smem => 0
  | _ => 0

abbrev bufTy : (tb : Table) → Fin (tcTables nBuf tb) → BufTy
  | .hbm, ⟨0, _⟩ => ⟨S32x2048x2048, .f32⟩
  | .hbm, ⟨1, _⟩ => ⟨S1x32x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024, .f32⟩
  | .hbm, ⟨6, _⟩ => ⟨S32x1x1024, .f32⟩
  | .hbm, ⟨7, _⟩ => ⟨S2048x1024, .bf16⟩
  | .hbm, ⟨8, _⟩ => ⟨S2048x1024, .bf16⟩
  | .hbm, ⟨9, _⟩ => ⟨S32x1x1024, .f32⟩
  | .hbm, ⟨10, _⟩ => ⟨S32x1x2048, .f32⟩
  | .hbm, ⟨11, _⟩ => ⟨S32x2048x1, .f32⟩
  | .local _ .vmem, ⟨0, _⟩ => ⟨S1x512x2048, .f32⟩
  | .local _ .vmem, ⟨1, _⟩ => ⟨S1x512x2048, .f32⟩
  | .local _ .vmem, ⟨2, _⟩ => ⟨S1x1x1024, .f32⟩
  | .local _ .vmem, ⟨3, _⟩ => ⟨S1x1x1024, .f32⟩
  | .local _ .vmem, ⟨4, _⟩ => ⟨S2048x1024, .bf16⟩
  | .local _ .vmem, ⟨5, _⟩ => ⟨S1024, .f32⟩
  | .local _ .vmem, ⟨6, _⟩ => ⟨S2048x1024, .bf16⟩
  | .local _ .vmem, ⟨7, _⟩ => ⟨S1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S1x1, .f32⟩
  | .local _ .vmem, ⟨14, _⟩ => ⟨S1x1, .f32⟩
  | .local _ .vmem, ⟨15, _⟩ => ⟨S1x1024, .f32⟩
  | _, _ => ⟨S32x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c512_i32 : BitVec 32 := 512#32
  let v14 : BitVec 32 := Scalar.muli arg1 c512_i32
  v14
def k0_off1 (i : grid0.Coords) : Fin 2 → Nat :=
  let c0_10 : Index := 0#32
  let arg1 : BitVec 32 := BitVec.ofNat 32 (i 1).val
  let c512_i32 : BitVec 32 := 512#32
  let v14 : BitVec 32 := Scalar.muli arg1 c512_i32
  let v15 : BitVec 32 := v14
  let v20 : Index := Scalar.indexCast v15
  ![0, v20.toNat]
def k0_cond2 (i : grid0.Coords) : BitVec 1 :=
  let arg1 : BitVec 32 := BitVec.ofNat 32 (i 1).val
  let c3_i32 : BitVec 32 := 3#32
  let v53 : BitVec 1 := Scalar.cmpi .eq arg1 c3_i32
  let v54 : BitVec 32 := Scalar.extui v53
  let c0_i32_26 : BitVec 32 := 0#32
  let v55 : BitVec 1 := Scalar.cmpi .ne v54 c0_i32_26
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S1x32x1024_S32x1x1024_1_0_2 : S1x32x1024.Transposes [1, 0, 2] S32x1x1024
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  h_S1x512 : 0 < S1x512.numel
  shapeCasts_S1x512_S1x512 : S1x512.ShapeCasts S1x512
  reduces_S1x512_S1 : S1x512.Reduces [1] S1
  shapeCasts_S1_S1x1 : S1.ShapeCasts S1x1
  broadcasts_S1x1_S1x512 : S1x1.Broadcasts S1x512
  broadcasts_S1x1_S1x1024 : S1x1.Broadcasts S1x1024
  inb_S1x2048_S1x2048_0_0 : ∀ a, (![0, 0] : Fin 2 → Nat) a + S1x2048.size a ≤ S1x2048.size a
  h_S1x2048 : 0 < S1x2048.numel
  broadcasts_S1x1_S1x2048 : S1x1.Broadcasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  concatenates_S1x1024_S1x1024_S1x2048_d1 : Shape.Concatenates [S1x1024, S1x1024] S1x2048 1
  shapeCasts_S1x1024_S1x1x1024 : S1x1024.ShapeCasts S1x1x1024
  transposes_S32x1x2048_S32x2048x1_0_2_1 : S32x1x2048.Transposes [0, 2, 1] S32x2048x1
  dot_S512x2048_S2048x1024_S512x1024_1_0_0_1_n_n_wf : DotDims.WF S512x2048 S2048x1024 S512x1024 [1] [0] [0] [1] [] []
  dot_S1x1024_S512x1024_S1x512_1_1_0_0_n_n_wf : DotDims.WF S1x1024 S512x1024 S1x512 [1] [1] [0] [0] [] []
  dot_S1x512_S512x1024_S1x1024_1_0_0_1_n_n_wf : DotDims.WF S1x512 S512x1024 S1x1024 [1] [0] [0] [1] [] []
  dot_S1x2048_S2048x1024_S1x1024_1_0_0_1_n_n_wf : DotDims.WF S1x2048 S2048x1024 S1x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512.size a ≤ S1x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S32x2048x2048.size a
  hwx0_0 : ∀ i : grid0.Coords, EltTy.bits .f32 = 32 ∨ (Rect.block (s := S32x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S32x1x1024.size a
  hwx0_1 : ∀ i : grid0.Coords, EltTy.bits .f32 = 32 ∨ (Rect.block (s := S32x1x1024) S1x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S32x1x1024.size a
  hwx0_6 : ∀ i : grid0.Coords, EltTy.bits .f32 = 32 ∨ (Rect.block (s := S32x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048.size a ≤ S32x1x2048.size a
  hwx0_7 : ∀ i : grid0.Coords, EltTy.bits .f32 = 32 ∨ (Rect.block (s := S32x1x2048) S1x1x2048.size (cc0_transform_7 i) (hinb0_7 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S1x1024_S512x1024_S1x512_1_1_0_0_n_n : DotDims S1x1024 S512x1024 S1x512 where
  lhsContracting := [1]
  rhsContracting := [1]
  lhsNonContracting := [0]
  rhsNonContracting := [0]
  lhsBatch := []
  rhsBatch := []
  wf := dot_S1x1024_S512x1024_S1x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1x1x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1x1x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S32x2048x2048 : Shape := ⟨3, ![32, 2048, 2048]⟩
abbrev S1x32x1024 : Shape := ⟨3, ![1, 32, 1024]⟩
abbrev S2048x1024 : Shape := ⟨2, ![2048, 1024]⟩
abbrev S1024 : Shape := ⟨1, ![1024]⟩
abbrev S32x2048x1024 : Shape := ⟨3, ![32, 2048, 1024]⟩
abbrev S1x1x1024 : Shape := ⟨3, ![1, 1, 1024]⟩
abbrev S32x1x1024 : Shape := ⟨3, ![32, 1, 1024]⟩
abbrev S32x2048x1 : Shape := ⟨3, ![32, 2048, 1]⟩
abbrev S_ : Shape := ⟨0, ![]⟩
abbrev S32x1 : Shape := ⟨2, ![32, 1]⟩
abbrev S32x1x1 : Shape := ⟨3, ![32, 1, 1]⟩
abbrev S32x1x2048 : Shape := ⟨3, ![32, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S32x2048x2048, .f32⟩
  | .hbm, ⟨1, _⟩ => ⟨S1x32x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024, .f32⟩
  | .hbm, ⟨6, _⟩ => ⟨S32x2048x1024, .f32⟩
  | .hbm, ⟨7, _⟩ => ⟨S1x1x1024, .f32⟩
  | .hbm, ⟨8, _⟩ => ⟨S32x2048x1024, .f32⟩
  | .hbm, ⟨9, _⟩ => ⟨S32x2048x1024, .f32⟩
  | .hbm, ⟨10, _⟩ => ⟨S32x1x1024, .f32⟩
  | .hbm, ⟨11, _⟩ => ⟨S32x2048x1, .f32⟩
  | .hbm, ⟨12, _⟩ => ⟨S_, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S32x1x1, .f32⟩
  | .hbm, ⟨18, _⟩ => ⟨S32x2048x1, .f32⟩
  | .hbm, ⟨19, _⟩ => ⟨S32x2048x1, .f32⟩
  | .hbm, ⟨20, _⟩ => ⟨S32x2048x1, .f32⟩
  | .hbm, ⟨21, _⟩ => ⟨S_, .f32⟩
  | .hbm, ⟨22, _⟩ => ⟨S32x1, .f32⟩
  | .hbm, ⟨23, _⟩ => ⟨S32x1x1, .f32⟩
  | .hbm, ⟨24, _⟩ => ⟨S32x2048x1, .f32⟩
  | .hbm, ⟨25, _⟩ => ⟨S32x2048x1, .f32⟩
  | .hbm, ⟨26, _⟩ => ⟨S32x1x1024, .f32⟩
  | .hbm, ⟨27, _⟩ => ⟨S32x1x2048, .f32⟩
  | .hbm, ⟨28, _⟩ => ⟨S32x1x1024, .f32⟩
  | .hbm, ⟨29, _⟩ => ⟨S1x1x1024, .f32⟩
  | .hbm, ⟨30, _⟩ => ⟨S32x1x1024, .f32⟩
  | .hbm, ⟨31, _⟩ => ⟨S32x1x1024, .f32⟩
  | .hbm, ⟨32, _⟩ => ⟨S32x1x1024, .f32⟩
  | _, _ => ⟨S32x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  transposes_S1x32x1024_S32x1x1024_1_0_2 : S1x32x1024.Transposes [1, 0, 2] S32x1x1024
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  concatenates_S32x1x1024_S32x1x1024_S32x1x2048_d2 : Shape.Concatenates [S32x1x1024, S32x1x1024] S32x1x2048 2
  bcast_S1x1x1024_S32x1x1024_0_1_2 : S1x1x1024.BroadcastsInDim S32x1x1024 (![0, 1, 2] : Fin 3 → Fin S32x1x1024.rank)
  dot_S32x2048x2048_S2048x1024_S32x2048x1024_2_0_01_1_n_n_wf : DotDims.WF S32x2048x2048 S2048x1024 S32x2048x1024 [2] [0] [0, 1] [1] [] []
  dot_S32x2048x1024_S32x1x1024_S32x2048x1_2_2_1_1_0_0_wf : DotDims.WF S32x2048x1024 S32x1x1024 S32x2048x1 [2] [2] [1] [1] [0] [0]
  dot_S32x2048x1_S32x2048x1024_S32x1x1024_1_1_2_2_0_0_wf : DotDims.WF S32x2048x1 S32x2048x1024 S32x1x1024 [1] [1] [2] [2] [0] [0]
  dot_S32x1x2048_S2048x1024_S32x1x1024_2_0_01_1_n_n_wf : DotDims.WF S32x1x2048 S2048x1024 S32x1x1024 [2] [0] [0, 1] [1] [] []

variable [Facts₀]

def dot_S32x2048x2048_S2048x1024_S32x2048x1024_2_0_01_1_n_n : DotDims S32x2048x2048 S2048x1024 S32x2048x1024 where
  lhsContracting := [2]
  rhsContracting := [0]
  lhsNonContracting := [0, 1]
  rhsNonContracting := [1]
  lhsBatch := []
  rhsBatch := []
  wf := dot_S32x2048x2048_S2048x1024_S32x2048x1024_2_0_01_1_n_n_wf
def dot_S32x2048x1024_S32x1x1024_S32x2048x1_2_2_1_1_0_0 : DotDims S32x2048x1024 S32x1x1024 S32x2048x1 where
  lhsContracting := [2]
  rhsContracting := [2]
  lhsNonContracting := [1]
  rhsNonContracting := [1]
  lhsBatch := [0]
  rhsBatch := [0]
  wf := dot_S32x2048x1024_S32x1x1024_S32x2048x1_2_2_1_1_0_0_wf
def dot_S32x2048x1_S32x2048x1024_S32x1x1024_1_1_2_2_0_0 : DotDims S32x2048x1 S32x2048x1024 S32x1x1024 where
  lhsContracting := [1]
  rhsContracting := [1]
  lhsNonContracting := [2]
  rhsNonContracting := [2]
  lhsBatch := [0]
  rhsBatch := [0]
  wf := dot_S32x2048x1_S32x2048x1024_S32x1x1024_1_1_2_2_0_0_wf
def dot_S32x1x2048_S2048x1024_S32x1x1024_2_0_01_1_n_n : DotDims S32x1x2048 S2048x1024 S32x1x1024 where
  lhsContracting := [2]
  rhsContracting := [0]
  lhsNonContracting := [0, 1]
  rhsNonContracting := [1]
  lhsBatch := []
  rhsBatch := []
  wf := dot_S32x1x2048_S2048x1024_S32x1x1024_2_0_01_1_n_n_wf

class Facts : Prop extends Facts₀ where

variable [Facts]
-- ==== Proof.FrameKI.Shared.lean ====
/-
  What the three cases of the kernel body's run share: the body's two conditionals decided over the grid, where each
  window is live, and the staging and scratch memrefs the pipeline calls the body with.
-/
import proofs.«425971_j9947144257895_3_alg».proof.Proof.Gen.KernelIdeal.Frame
import proofs.«425971_j9947144257895_3_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body, in closed form

The body resets the running state at the first sequence tile of a batch (grid coordinate 1 equal to 0: the points ≡ 0 mod 4)
and finalizes at the last (coordinate 1 equal to 3: the points ≡ 3 mod 4). -/

/-- "This is the first sequence tile": the first conditional's condition as a function of the grid point. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last sequence tile". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where each window is live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The two results are stored only at a batch's last tile: elsewhere their windows are idle and not written back. -/
theorem idleAt0_6 : ∀ t : Fin cfg0.N, ¬t.val % 4 = 3 → cfg0.idle 6 (grid0.coords t) = true := by decide +kernel
theorem idleAt0_7 : ∀ t : Fin cfg0.N, ¬t.val % 4 = 3 → cfg0.idle 7 (grid0.coords t) = true := by decide +kernel
theorem noFlush0_6 : ∀ t : Fin cfg0.N, ¬t.val % 4 = 3 → (cfg0.win 6).flush t = false := by decide +kernel
theorem noFlush0_7 : ∀ t : Fin cfg0.N, ¬t.val % 4 = 3 → (cfg0.win 7).flush t = false := by decide +kernel
theorem liveAt0_6 : ∀ t : Fin cfg0.N, t.val % 4 = 3 → cfg0.idle 6 (grid0.coords t) = false := by decide +kernel
theorem liveAt0_7 : ∀ t : Fin cfg0.N, t.val % 4 = 3 → cfg0.idle 7 (grid0.coords t) = false := by decide +kernel

/-! ## The memrefs the body is called with -/

abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x2048 .f32 := win0_7.stage (cfg0.slots t 7)
abbrev hs0_7 (t : Fin cfg0.N) : (ms0_7 t).IsWhole := hstage0_7 ((cfg0.slots t 7).cast nbuf0_7)
/-- The four scratch buffers: the scores of the batch so far, the running maximum, the running sum, the running weighted sum. -/
abbrev scM0_0 : Memref sig .tc .vmem S1x2048 .f32 := Memref.whole cc0_scratch0
abbrev scM0_1 : Memref sig .tc .vmem S1x1 .f32 := Memref.whole cc0_scratch1
abbrev scM0_2 : Memref sig .tc .vmem S1x1 .f32 := Memref.whole cc0_scratch2
abbrev scM0_3 : Memref sig .tc .vmem S1x1024 .f32 := Memref.whole cc0_scratch3
abbrev hsc0_0 : (scM0_0 : Memref sig .tc .vmem S1x2048 .f32).IsWhole := Memref.isWhole_whole _
abbrev VS0_0 : View sig .tc .vmem S1x2048 .f32 := scM0_0.view
abbrev VS0_1 : View sig .tc .vmem S1x1 .f32 := scM0_1.view
abbrev VS0_2 : View sig .tc .vmem S1x1 .f32 := scM0_2.view
abbrev VS0_3 : View sig .tc .vmem S1x1024 .f32 := scM0_3.view
abbrev VO0_6 (t : Fin cfg0.N) : View sig .tc .vmem S1x1x1024 .f32 := (ms0_6 t).view
abbrev VO0_7 (t : Fin cfg0.N) : View sig .tc .vmem S1x1x2048 .f32 := (ms0_7 t).view

/-- What the launch hands the region besides the windows: the four scratch buffers, each whole at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.FrameKI.State.lean ====
/-
  The running state of the tile walk, spelled with the body's own arithmetic.

  The body keeps three values across the sequence tiles of a batch: the running maximum of the scores, the running sum of
  their exponentials and the running weighted sum of the projected rows. A tile's step takes the state the tile before
  left (at a batch's first tile: -∞, 0 and the zero row) and the tile's input blocks to the new state; the two results are
  computed at the batch's last tile from the final state and from all the batch's scores.
-/
import proofs.«425971_j9947144257895_3_alg».proof.Proof.Gen.KernelIdeal.Skeleton

noncomputable section

namespace Cert.KernelIdeal.Gen

open Idealize.ShloMosaic Idealize.SL.Sem

variable {F : FTy → Type} [FloatOps F]

/-- The running maximum, sum and weighted sum. -/
abbrev St (F : FTy → Type) : Type := Vec F S1x1 .f32 × Vec F S1x1 .f32 × Vec F S1x1024 .f32

/-- The state before a batch's first tile: -∞, 0 and the zero row, as the body stores them. -/
def st0 : St F := (k0_pay6 (F := F), k0_pay7 (F := F), k0_pay8 (F := F))

/-- One tile's step: from the encoder tile x0, the query x1, the projection matrix x2 and bias x3 and the state p before,
    the state after. -/
def stepSt (x0 : Vec F S1x512x2048 .f32) (x1 : Vec F S1x1x1024 .f32) (x2 : Vec F S2048x1024 .bf16) (x3 : Vec F S1024 .f32)
    (p : St F) : St F :=
  (k0_pay3 (k0_pay12 x0 x2 x3 x1 p.1),
   k0_pay1 (k0_pay14 x0 x2 x3 x1 p.1) (k0_pay15 x0 x2 x3 x1 p.1 p.2.1),
   k0_pay2 (k0_pay9 x0 x2 x3) (k0_pay13 x0 x2 x3 x1 p.1) (k0_pay14 x0 x2 x3 x1 p.1) p.2.2)

section
variable (X0 : ℕ → Vec F S1x512x2048 .f32) (X1 : ℕ → Vec F S1x1x1024 .f32) (X2 : ℕ → Vec F S2048x1024 .bf16)
  (X3 : ℕ → Vec F S1024 .f32)

/-- The state after grid point n (points are batch-major: point n is tile n % 4 of batch n / 4), from the input blocks
    at each point: a first tile starts from st0, any other from what the point before left. -/
def stAt : ℕ → St F
  | 0 => stepSt (X0 0) (X1 0) (X2 0) (X3 0) st0
  | n + 1 => stepSt (X0 (n + 1)) (X1 (n + 1)) (X2 (n + 1)) (X3 (n + 1)) (if (n + 1) % 4 = 0 then st0 else stAt n)

theorem stAt_first (n : ℕ) (h : n % 4 = 0) : stAt X0 X1 X2 X3 n = stepSt (X0 n) (X1 n) (X2 n) (X3 n) st0 := by
  cases n with
  | zero => rfl
  | succ n => show stepSt _ _ _ _ (if (n + 1) % 4 = 0 then st0 else _) = _; rw [if_pos h]

theorem stAt_next (n : ℕ) (h : ¬n % 4 = 0) :
    stAt X0 X1 X2 X3 n = stepSt (X0 n) (X1 n) (X2 n) (X3 n) (stAt X0 X1 X2 X3 (n - 1)) := by
  cases n with
  | zero => exact absurd (Nat.zero_mod 4) h
  | succ n => show stepSt _ _ _ _ (if (n + 1) % 4 = 0 then _ else stAt X0 X1 X2 X3 n) = _; rw [if_neg h]; rfl

/-- The scores of the tile at point n, as stored into their slice of the scores buffer. -/
def scTile (n : ℕ) : Vec F S1x512 .f32 := k0_pay11 (X0 n) (X2 n) (X3 n) (X1 n)

/-- The attention weights stored at a batch's last tile n, from the final state and the batch's scores sc. -/
def out7At (n : ℕ) (sc : Vec F S1x2048 .f32) : Vec F S1x1x2048 .f32 :=
  k0_pay4 (stAt X0 X1 X2 X3 n).1 (stAt X0 X1 X2 X3 n).2.1 sc

/-- The result row stored at a batch's last tile n, from the final state, the query, and the output matrix x4 and bias x5. -/
def out6At (X4 : ℕ → Vec F S2048x1024 .bf16) (X5 : ℕ → Vec F S1024 .f32) (n : ℕ) : Vec F S1x1x1024 .f32 :=
  k0_pay5 (X1 n) (stAt X0 X1 X2 X3 n).2.1 (stAt X0 X1 X2 X3 n).2.2 (X4 n) (X5 n)

end

end Cert.KernelIdeal.Gen

end
-- ==== Proof.FrameKI.Dats.lean ====
/-
  The proof data of the one pipeline: what every window's staging buffer holds after the body at each grid point, and
  the invariant the body keeps between points.

  Points are batch-major: point n is sequence tile n % 4 of batch n / 4. After point n the running maximum, sum and
  weighted sum hold the state stAt after n tile steps (reset at each batch's first tile); the scores buffer holds the
  scores of the tiles of this batch seen so far in their slices (what its other slices hold is not known, so the
  invariant says "some contents that agree with the scores on the slices written"); the two result windows are stored
  only at a batch's last tile, from the final state and all the batch's scores.
-/
import proofs.«425971_j9947144257895_3_alg».proof.Proof.FrameKI.Shared
import proofs.«425971_j9947144257895_3_alg».proof.Proof.FrameKI.State
import Idealize.ShloMosaic.Lib.ValueIdx
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N128 : cfg0.N = 128 := N_0

/-! ## The input blocks by point number -/

def XB0 (c : Dev nD) (n : ℕ) : Vec F S1x512x2048 .f32 := iblk m c 0 ⟨n % 128, by have := N128; omega⟩
def XB1 (c : Dev nD) (n : ℕ) : Vec F S1x1x1024 .f32 := iblk m c 1 ⟨n % 128, by have := N128; omega⟩
def XB2 (c : Dev nD) (n : ℕ) : Vec F S2048x1024 .bf16 := iblk m c 2 ⟨n % 128, by have := N128; omega⟩
def XB3 (c : Dev nD) (n : ℕ) : Vec F S1024 .f32 := iblk m c 3 ⟨n % 128, by have := N128; omega⟩
def XB4 (c : Dev nD) (n : ℕ) : Vec F S2048x1024 .bf16 := iblk m c 4 ⟨n % 128, by have := N128; omega⟩
def XB5 (c : Dev nD) (n : ℕ) : Vec F S1024 .f32 := iblk m c 5 ⟨n % 128, by have := N128; omega⟩

theorem mod_at (t : Fin cfg0.N) : (⟨t.val % 128, by have := N128; omega⟩ : Fin cfg0.N) = t :=
  Fin.ext (Nat.mod_eq_of_lt (by have := N128; have := t.isLt; omega))

theorem XB0_at (c : Dev nD) (t : Fin cfg0.N) : XB0 m c t.val = iblk m c 0 t := by unfold XB0; rw [mod_at]
theorem XB1_at (c : Dev nD) (t : Fin cfg0.N) : XB1 m c t.val = iblk m c 1 t := by unfold XB1; rw [mod_at]
theorem XB2_at (c : Dev nD) (t : Fin cfg0.N) : XB2 m c t.val = iblk m c 2 t := by unfold XB2; rw [mod_at]
theorem XB3_at (c : Dev nD) (t : Fin cfg0.N) : XB3 m c t.val = iblk m c 3 t := by unfold XB3; rw [mod_at]
theorem XB4_at (c : Dev nD) (t : Fin cfg0.N) : XB4 m c t.val = iblk m c 4 t := by unfold XB4; rw [mod_at]
theorem XB5_at (c : Dev nD) (t : Fin cfg0.N) : XB5 m c t.val = iblk m c 5 t := by unfold XB5; rw [mod_at]

/-! ## The state, the scores and the results by point number -/

/-- The running maximum, sum and weighted sum after point n. -/
def stK (c : Dev nD) (n : ℕ) : St F := stAt (XB0 m c) (XB1 m c) (XB2 m c) (XB3 m c) n

/-- All the scores of point n's batch, each entry from the tile that computes it: entry j is entry j % 512 of tile j / 512. -/
def scAll (c : Dev nD) (n : ℕ) : Vec F S1x2048 .f32 := fun idx =>
  scTile (XB0 m c) (XB1 m c) (XB2 m c) (XB3 m c) (n - n % 4 + (idx 1).val / 512)
    (ValueIdx.ix2 (0 : Fin 1) (⟨(idx 1).val % 512, Nat.mod_lt _ (by norm_num)⟩ : Fin 512))

/-- Contents d of the scores buffer after point n: on the slices of the tiles 0 … n % 4 they are the batch's scores. -/
def Good (c : Dev nD) (n : ℕ) (d : Vec F S1x2048 .f32) : Prop :=
  ∀ j : Fin 2048, j.val / 512 ≤ n % 4 → d (ValueIdx.ix2 (0 : Fin 1) j) = scAll m c n (ValueIdx.ix2 (0 : Fin 1) j)

/-- The first result's staging buffer after a batch's last tile. -/
def o6At (c : Dev nD) (n : ℕ) : Vec F S1x1x1024 .f32 :=
  out6At (XB0 m c) (XB1 m c) (XB2 m c) (XB3 m c) (XB4 m c) (XB5 m c) n

/-- The second result's staging buffer after a batch's last tile. -/
def o7At (c : Dev nD) (n : ℕ) : Vec F S1x1x2048 .f32 :=
  out7At (XB0 m c) (XB1 m c) (XB2 m c) (XB3 m c) n (scAll m c n)

/-! ## The invariant between points -/

/-- Before the first point: what the launch hands over. After point n: the scores buffer at contents good for n, the three
    running values at the state after n, the generator register at some state. -/
def PhiS (c : Dev nD) : (n : ℕ) → n ≤ cfg0.N → sProp 𝕄
  | 0, _ => Pipeline.ΦA spec0 c
  | n + 1, hn => iprop(iprop((∃ d, owns (c : Thread nD τ) scM0_0 fullShare d ∗ ⌜Good m c n d⌝) ∗ owns (c : Thread nD τ) scM0_1 fullShare (stK m c n).1 ∗ owns (c : Thread nD τ) scM0_2 fullShare (stK m c n).2.1 ∗ owns (c : Thread nD τ) scM0_3 fullShare (stK m c n).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d ∗ ⌜Good m c n d⌝) ∗ owns (c : Thread nD τ) scM0_1 fullShare (stK m c n).1 ∗ owns (c : Thread nD τ) scM0_2 fullShare (stK m c n).2.1 ∗ owns (c : Thread nD τ) scM0_3 fullShare (stK m c n).2.2) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d ∗ ⌜Good m c (n - 1) d⌝) ∗ owns (c : Thread nD τ) scM0_1 fullShare (stK m c (n - 1)).1 ∗ owns (c : Thread nD τ) scM0_2 fullShare (stK m c (n - 1)).2.1 ∗ owns (c : Thread nD τ) scM0_3 fullShare (stK m c (n - 1)).2.2) ∗ (∃ r, prngReg c r)) := by
  cases n with
  | zero => exact absurd rfl hz
  | succ n => rfl

/-! ## The proof data -/

/-- The arrays as the region finds them; after the body at point t each input's buffer at its block and the two results'
    at o6At, o7At (which matter only at a batch's last tile: elsewhere those windows are idle); the invariant PhiS;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o6At m c t.val
    | ⟨7, _⟩ => o7At m c t.val
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = o6At m c t.val := by dsimp only [dats]
theorem after0_7 (c : Dev nD) (t : Fin cfg0.N) : (dats m 0 c).after 7 t = o7At m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.KernelIdeal.Gen

end
-- ==== Proof.FrameKI.RunA.lean ====
/-
  The kernel body at a batch's first sequence tile: it first stores -∞, 0 and the zero row into the running maximum,
  sum and weighted sum, then does a middle tile's work from that state. Run once on arbitrary whole memrefs; what each
  buffer is left with is found by the run, as the list of pieces stored into it.
-/
import proofs.«425971_j9947144257895_3_alg».proof.Proof.FrameKI.Shared
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1x512x2048 .f32) (harg2 : arg2.IsWhole) (arg3 : Memref sig .tc .vmem S1x1x1024 .f32) (harg3 : arg3.IsWhole)
  (arg4 : Memref sig .tc .vmem S2048x1024 .bf16) (harg4 : arg4.IsWhole) (arg5 : Memref sig .tc .vmem S1024 .f32) (harg5 : arg5.IsWhole)
  (arg6 : Memref sig .tc .vmem S2048x1024 .bf16) (harg6 : arg6.IsWhole) (arg7 : Memref sig .tc .vmem S1024 .f32) (harg7 : arg7.IsWhole)
  (arg8 : Memref sig .tc .vmem S1x1x1024 .f32) (harg8 : arg8.IsWhole) (arg9 : Memref sig .tc .vmem S1x1x2048 .f32) (harg9 : arg9.IsWhole)
  (arg10 : Memref sig .tc .vmem S1x2048 .f32) (harg10 : arg10.IsWhole) (arg11 : Memref sig .tc .vmem S1x1 .f32) (harg11 : arg11.IsWhole)
  (arg12 : Memref sig .tc .vmem S1x1 .f32) (harg12 : arg12.IsWhole) (arg13 : Memref sig .tc .vmem S1x1024 .f32) (harg13 : arg13.IsWhole)
  (x0 : Vec F S1x512x2048 .f32) (x1 : Vec F S1x1x1024 .f32) (x2 : Vec F S2048x1024 .bf16) (x3 : Vec F S1024 .f32)
  (x4 : Vec F S2048x1024 .bf16) (x5 : Vec F S1024 .f32)
  (xs0 : Vec F S1x2048 .f32)

set_option maxHeartbeats 1000000 in
/-- The first-tile run: from the six inputs at their blocks and the scores buffer at xs0 (the two result buffers, idle here, at any contents xi6, xi7; the running values at anything),
    the body runs and hands back the inputs unchanged, the scores buffer with its pieces written over xs0, the three
    running values with their pieces written (the reset, then the step), the result buffers as they were. -/
noncomputable def kernelRun0_A (hc0 : cond0_0 i) (hc1 : ¬cond0_1 i) :
    Σ' (LS0 : List (View.Piece (Elt F) S1x2048 .f32)), Σ' (LS1 : List (View.Piece (Elt F) S1x1 .f32)), Σ' (LS2 : List (View.Piece (Elt F) S1x1 .f32)), { LS3 : List (View.Piece (Elt F) S1x1024 .f32) //
      ∀ (xi6 : Vec F S1x1x1024 .f32) (xi7 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi6 xi7 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    isplitl [HS1]; · iexists _; iexact HS1
    isplitl [HS2]; · iexists _; iexact HS2
    iexists _; iexact HS3

end

end Cert.KernelIdeal.Gen

end
-- ==== Proof.FrameKI.RunB.lean ====
/-
  The kernel body at a middle sequence tile (neither the first nor the last of its batch): it projects the tile,
  scores it against the query, writes the tile's scores into their slice of the scores buffer, and moves the running
  maximum, sum and weighted sum on by one step. Run once on arbitrary whole memrefs; what each buffer is left with is
  found by the run, as the list of pieces stored into it.
-/
import proofs.«425971_j9947144257895_3_alg».proof.Proof.FrameKI.Shared
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1x512x2048 .f32) (harg2 : arg2.IsWhole) (arg3 : Memref sig .tc .vmem S1x1x1024 .f32) (harg3 : arg3.IsWhole)
  (arg4 : Memref sig .tc .vmem S2048x1024 .bf16) (harg4 : arg4.IsWhole) (arg5 : Memref sig .tc .vmem S1024 .f32) (harg5 : arg5.IsWhole)
  (arg6 : Memref sig .tc .vmem S2048x1024 .bf16) (harg6 : arg6.IsWhole) (arg7 : Memref sig .tc .vmem S1024 .f32) (harg7 : arg7.IsWhole)
  (arg8 : Memref sig .tc .vmem S1x1x1024 .f32) (harg8 : arg8.IsWhole) (arg9 : Memref sig .tc .vmem S1x1x2048 .f32) (harg9 : arg9.IsWhole)
  (arg10 : Memref sig .tc .vmem S1x2048 .f32) (harg10 : arg10.IsWhole) (arg11 : Memref sig .tc .vmem S1x1 .f32) (harg11 : arg11.IsWhole)
  (arg12 : Memref sig .tc .vmem S1x1 .f32) (harg12 : arg12.IsWhole) (arg13 : Memref sig .tc .vmem S1x1024 .f32) (harg13 : arg13.IsWhole)
  (x0 : Vec F S1x512x2048 .f32) (x1 : Vec F S1x1x1024 .f32) (x2 : Vec F S2048x1024 .bf16) (x3 : Vec F S1024 .f32)
  (x4 : Vec F S2048x1024 .bf16) (x5 : Vec F S1024 .f32)
  (xs0 : Vec F S1x2048 .f32) (xs1 : Vec F S1x1 .f32) (xs2 : Vec F S1x1 .f32) (xs3 : Vec F S1x1024 .f32)

set_option maxHeartbeats 1000000 in
/-- The middle-tile run: from the six inputs at their blocks, the scores buffer at xs0 and the running maximum, sum and
    weighted sum at xs1, xs2, xs3 (the two result buffers, idle here, at any contents xi6, xi7), the body runs and hands back the inputs unchanged, the scores buffer
    with its pieces written over xs0, the three running values with their pieces written, the result buffers as they were. -/
noncomputable def kernelRun0_B (hc0 : ¬cond0_0 i) (hc1 : ¬cond0_1 i) :
    Σ' (LS0 : List (View.Piece (Elt F) S1x2048 .f32)), Σ' (LS1 : List (View.Piece (Elt F) S1x1 .f32)), Σ' (LS2 : List (View.Piece (Elt F) S1x1 .f32)), { LS3 : List (View.Piece (Elt F) S1x1024 .f32) //
      ∀ (xi6 : Vec F S1x1x1024 .f32) (xi7 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi6 xi7 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    isplitl [HS1]; · iexists _; iexact HS1
    isplitl [HS2]; · iexists _; iexact HS2
    iexists _; iexact HS3

end

end Cert.KernelIdeal.Gen

end
-- ==== Proof.FrameKI.RunC.lean ====
/-
  The kernel body at a batch's last sequence tile: after a middle tile's work it reads the final maximum and sum and all
  the batch's scores, stores the attention weights exp (score - maximum) / sum into the second result's buffer, and
  stores tanh of (the weighted sum over the sum, joined with the query) times the output matrix plus its bias into the
  first. Run once on arbitrary whole memrefs; what each buffer is left with is found by the run.
-/
import proofs.«425971_j9947144257895_3_alg».proof.Proof.FrameKI.Shared
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1x512x2048 .f32) (harg2 : arg2.IsWhole) (arg3 : Memref sig .tc .vmem S1x1x1024 .f32) (harg3 : arg3.IsWhole)
  (arg4 : Memref sig .tc .vmem S2048x1024 .bf16) (harg4 : arg4.IsWhole) (arg5 : Memref sig .tc .vmem S1024 .f32) (harg5 : arg5.IsWhole)
  (arg6 : Memref sig .tc .vmem S2048x1024 .bf16) (harg6 : arg6.IsWhole) (arg7 : Memref sig .tc .vmem S1024 .f32) (harg7 : arg7.IsWhole)
  (arg8 : Memref sig .tc .vmem S1x1x1024 .f32) (harg8 : arg8.IsWhole) (arg9 : Memref sig .tc .vmem S1x1x2048 .f32) (harg9 : arg9.IsWhole)
  (arg10 : Memref sig .tc .vmem S1x2048 .f32) (harg10 : arg10.IsWhole) (arg11 : Memref sig .tc .vmem S1x1 .f32) (harg11 : arg11.IsWhole)
  (arg12 : Memref sig .tc .vmem S1x1 .f32) (harg12 : arg12.IsWhole) (arg13 : Memref sig .tc .vmem S1x1024 .f32) (harg13 : arg13.IsWhole)
  (x0 : Vec F S1x512x2048 .f32) (x1 : Vec F S1x1x1024 .f32) (x2 : Vec F S2048x1024 .bf16) (x3 : Vec F S1024 .f32)
  (x4 : Vec F S2048x1024 .bf16) (x5 : Vec F S1024 .f32)
  (xs0 : Vec F S1x2048 .f32) (xs1 : Vec F S1x1 .f32) (xs2 : Vec F S1x1 .f32) (xs3 : Vec F S1x1024 .f32)

set_option maxHeartbeats 1000000 in
/-- The last-tile run: as a middle tile's, and the two result buffers are handed back with their pieces written. -/
noncomputable def kernelRun0_C (hc0 : ¬cond0_0 i) (hc1 : cond0_1 i) :
    Σ' (L6 : List (View.Piece (Elt F) S1x1x1024 .f32)), Σ' (L7 : List (View.Piece (Elt F) S1x1x2048 .f32)), Σ' (LS0 : List (View.Piece (Elt F) S1x2048 .f32)), Σ' (LS1 : List (View.Piece (Elt F) S1x1 .f32)), Σ' (LS2 : List (View.Piece (Elt F) S1x1 .f32)), { LS3 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexact HS0
    isplitl [HS1]; · iexists _; iexact HS1
    isplitl [HS2]; · iexists _; iexact HS2
    iexists _; iexact HS3

end

end Cert.KernelIdeal.Gen

end
-- ==== Proof.FrameKI.Pieces.lean ====
/-
  What the three runs of the kernel body leave in each buffer, as values: each running value's buffer ends at the
  matching component of the tile's step (its last store covers it), the scores buffer keeps what it held outside the
  tile's slice and holds the tile's scores inside it, and at a batch's last tile the two result buffers hold the
  attention weights and the result row computed from the state just stored.
-/
import proofs.«425971_j9947144257895_3_alg».proof.Proof.FrameKI.State
import proofs.«425971_j9947144257895_3_alg».proof.Proof.FrameKI.RunA
import proofs.«425971_j9947144257895_3_alg».proof.Proof.FrameKI.RunB
import proofs.«425971_j9947144257895_3_alg».proof.Proof.FrameKI.RunC
import Idealize.ShloMosaic.Lib.ValueIdx
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz1 : (![0] : Fin 1 → Nat) = fun _ => 0 := funext fun a => by fin_cases a <;> rfl

/-- One store of a 1x512 slice at the tile's offset into the 1x2048 scores buffer holding xs0, read entry by entry: inside
    the slice the stored value at the slice's own coordinate, outside what the buffer held. -/
private theorem scores_read {F : FTy → Type} [FloatOps F] (arg10 : Memref sig .tc .vmem S1x2048 .f32) (harg10 : arg10.IsWhole)
    (i : grid0.Coords) (xs0 : Vec F S1x2048 .f32) (w : Vec F S1x512 .f32) (j : Fin 2048) :
    arg10.view.read (Elt F) (arg10.view.writes (Elt F) (harg10.unread xs0)
        [⟨Rect.unit (s := S1x2048) (k0_off1 i) S1x512.size (k0_off1_inb i), w⟩]) (ValueIdx.ix2 0 j)
      = if h : k0_off1 i 1 ≤ j.val ∧ j.val < k0_off1 i 1 + 512 then w (ValueIdx.ix2 0 ⟨j.val - k0_off1 i 1, by omega⟩)
        else xs0 (ValueIdx.ix2 0 j) := by
  have h0 : k0_off1 i 0 = 0 := rfl
  by_cases h : k0_off1 i 1 ≤ j.val ∧ j.val < k0_off1 i 1 + 512
  · rw [dif_pos h]
    have he : (Rect.unit (s := S1x2048) (k0_off1 i) S1x512.size (k0_off1_inb i)).emb
        (ValueIdx.ix2 0 ⟨j.val - k0_off1 i 1, by omega⟩) = ValueIdx.ix2 0 j := by
      funext a; apply Fin.ext
      fin_cases a
      · show k0_off1 i 0 + 1 * 0 = 0
        rw [h0]
      · show k0_off1 i 1 + 1 * (j.val - k0_off1 i 1) = j.val
        omega
    rw [← he]
    exact View.read_writes_cons_emb _ _ _ _ _ _
  · rw [dif_neg h]
    refine (View.read_writes_apply_of_forall_not_mem _ _ _ _ ?_).trans (congrFun (harg10.read_unread xs0) _)
    intro p hp hm
    rw [List.mem_singleton] at hp
    subst hp
    have hm' : ValueIdx.ix2 0 j ∈ (Rect.unit (s := S1x2048) (k0_off1 i) S1x512.size (k0_off1_inb i)).set := hm
    have h1 := Rect.mem_set_unit.mp hm' (1 : Fin 2)
    exact h ⟨h1.1, h1.2⟩

section
variable (c : Dev nD) (i : grid0.Coords)
  (arg2 : Memref sig .tc .vmem S1x512x2048 .f32) (harg2 : arg2.IsWhole) (arg3 : Memref sig .tc .vmem S1x1x1024 .f32) (harg3 : arg3.IsWhole)
  (arg4 : Memref sig .tc .vmem S2048x1024 .bf16) (harg4 : arg4.IsWhole) (arg5 : Memref sig .tc .vmem S1024 .f32) (harg5 : arg5.IsWhole)
  (arg6 : Memref sig .tc .vmem S2048x1024 .bf16) (harg6 : arg6.IsWhole) (arg7 : Memref sig .tc .vmem S1024 .f32) (harg7 : arg7.IsWhole)
  (arg8 : Memref sig .tc .vmem S1x1x1024 .f32) (harg8 : arg8.IsWhole) (arg9 : Memref sig .tc .vmem S1x1x2048 .f32) (harg9 : arg9.IsWhole)
  (arg10 : Memref sig .tc .vmem S1x2048 .f32) (harg10 : arg10.IsWhole) (arg11 : Memref sig .tc .vmem S1x1 .f32) (harg11 : arg11.IsWhole)
  (arg12 : Memref sig .tc .vmem S1x1 .f32) (harg12 : arg12.IsWhole) (arg13 : Memref sig .tc .vmem S1x1024 .f32) (harg13 : arg13.IsWhole)
  (x0 : Vec F S1x512x2048 .f32) (x1 : Vec F S1x1x1024 .f32) (x2 : Vec F S2048x1024 .bf16) (x3 : Vec F S1024 .f32)
  (x4 : Vec F S2048x1024 .bf16) (x5 : Vec F S1024 .f32)
  (xs0 : Vec F S1x2048 .f32) (xs1 : Vec F S1x1 .f32) (xs2 : Vec F S1x1 .f32) (xs3 : Vec F S1x1024 .f32)

/-! ## A middle tile -/

theorem pieceB_1 (hc0 : ¬cond0_0 i) (hc1 : ¬cond0_1 i) (f : arg11.view.ty.Contents (Elt F)) :
    arg11.view.read (Elt F) (arg11.view.writes (Elt F) f (kernelRun0_B c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.1) = (stepSt x0 x1 x2 x3 (xs1, xs2, xs3)).1 := by
  have hcov : ∀ y, ∃ pc ∈ (kernelRun0_B c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.1, y ∈ pc.1.set :=
    View.cover_of_tiledL _ S1x1.size (by sl_kernel_rfl)
  rw [View.read_writes_eq_canon _ _ _ hcov]
  unfold kernelRun0_B
  dsimp only
  sl_unfold_words
  rw [View.canon_unit_zero hz2]
  unfold stepSt
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceB_2 (hc0 : ¬cond0_0 i) (hc1 : ¬cond0_1 i) (f : arg12.view.ty.Contents (Elt F)) :
    arg12.view.read (Elt F) (arg12.view.writes (Elt F) f (kernelRun0_B c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.1) = (stepSt x0 x1 x2 x3 (xs1, xs2, xs3)).2.1 := by
  have hcov : ∀ y, ∃ pc ∈ (kernelRun0_B c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.1, y ∈ pc.1.set :=
    View.cover_of_tiledL _ S1x1.size (by sl_kernel_rfl)
  rw [View.read_writes_eq_canon _ _ _ hcov]
  unfold kernelRun0_B
  dsimp only
  sl_unfold_words
  rw [View.canon_unit_zero hz2]
  unfold stepSt
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceB_3 (hc0 : ¬cond0_0 i) (hc1 : ¬cond0_1 i) (f : arg13.view.ty.Contents (Elt F)) :
    arg13.view.read (Elt F) (arg13.view.writes (Elt F) f (kernelRun0_B c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.1) = (stepSt x0 x1 x2 x3 (xs1, xs2, xs3)).2.2 := by
  have hcov : ∀ y, ∃ pc ∈ (kernelRun0_B c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.1, y ∈ pc.1.set :=
    View.cover_of_tiledL _ S1x1024.size (by sl_kernel_rfl)
  rw [View.read_writes_eq_canon _ _ _ hcov]
  unfold kernelRun0_B
  dsimp only
  sl_unfold_words
  rw [View.canon_unit_zero hz2]
  unfold stepSt
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

/-- The scores buffer after a middle tile, entry by entry: inside the tile's slice the tile's scores, outside what it held. -/
theorem pieceB_0 (hc0 : ¬cond0_0 i) (hc1 : ¬cond0_1 i) (j : Fin 2048) :
    arg10.view.read (Elt F) (arg10.view.writes (Elt F) (harg10.unread xs0) (kernelRun0_B c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).1) (ValueIdx.ix2 0 j)
      = if h : k0_off1 i 1 ≤ j.val ∧ j.val < k0_off1 i 1 + 512 then k0_pay11 x0 x2 x3 x1 (ValueIdx.ix2 0 ⟨j.val - k0_off1 i 1, by omega⟩) else xs0 (ValueIdx.ix2 0 j) := by
  unfold kernelRun0_B
  dsimp only
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]
  exact scores_read arg10 harg10 i xs0 (k0_pay11 x0 x2 x3 x1) j

/-! ## A first tile -/

theorem pieceA_1 (hc0 : cond0_0 i) (hc1 : ¬cond0_1 i) (f : arg11.view.ty.Contents (Elt F)) :
    arg11.view.read (Elt F) (arg11.view.writes (Elt F) f (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 xs0 hc0 hc1).2.1) = (stepSt x0 x1 x2 x3 st0).1 := by
  have hcov : ∀ y, ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 xs0 hc0 hc1).2.1, y ∈ pc.1.set :=
    View.cover_of_tiledL _ S1x1.size (by sl_kernel_rfl)
  rw [View.read_writes_eq_canon _ _ _ hcov]
  unfold kernelRun0_A
  dsimp only
  sl_unfold_words
  rw [View.canon_cons_unit_zero (S := S1x1) hz2]
  unfold stepSt st0
  simp only [View.readAt_eq_ld, View.readCov_unit_zero (S := S1x1) arg11.view hz2, View.readCov_unit_zero (S := S1x1) arg12.view hz2, View.readCov_unit_zero (S := S1x1024) arg13.view hz2, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceA_2 (hc0 : cond0_0 i) (hc1 : ¬cond0_1 i) (f : arg12.view.ty.Contents (Elt F)) :
    arg12.view.read (Elt F) (arg12.view.writes (Elt F) f (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 xs0 hc0 hc1).2.2.1) = (stepSt x0 x1 x2 x3 st0).2.1 := by
  have hcov : ∀ y, ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 xs0 hc0 hc1).2.2.1, y ∈ pc.1.set :=
    View.cover_of_tiledL _ S1x1.size (by sl_kernel_rfl)
  rw [View.read_writes_eq_canon _ _ _ hcov]
  unfold kernelRun0_A
  dsimp only
  sl_unfold_words
  rw [View.canon_cons_unit_zero (S := S1x1) hz2]
  unfold stepSt st0
  simp only [View.readAt_eq_ld, View.readCov_unit_zero (S := S1x1) arg11.view hz2, View.readCov_unit_zero (S := S1x1) arg12.view hz2, View.readCov_unit_zero (S := S1x1024) arg13.view hz2, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceA_3 (hc0 : cond0_0 i) (hc1 : ¬cond0_1 i) (f : arg13.view.ty.Contents (Elt F)) :
    arg13.view.read (Elt F) (arg13.view.writes (Elt F) f (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 xs0 hc0 hc1).2.2.2.1) = (stepSt x0 x1 x2 x3 st0).2.2 := by
  have hcov : ∀ y, ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 xs0 hc0 hc1).2.2.2.1, y ∈ pc.1.set :=
    View.cover_of_tiledL _ S1x1024.size (by sl_kernel_rfl)
  rw [View.read_writes_eq_canon _ _ _ hcov]
  unfold kernelRun0_A
  dsimp only
  sl_unfold_words
  rw [View.canon_cons_unit_zero (S := S1x1024) hz2]
  unfold stepSt st0
  simp only [View.readAt_eq_ld, View.readCov_unit_zero (S := S1x1) arg11.view hz2, View.readCov_unit_zero (S := S1x1) arg12.view hz2, View.readCov_unit_zero (S := S1x1024) arg13.view hz2, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceA_0 (hc0 : cond0_0 i) (hc1 : ¬cond0_1 i) (j : Fin 2048) :
    arg10.view.read (Elt F) (arg10.view.writes (Elt F) (harg10.unread xs0) (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 xs0 hc0 hc1).1) (ValueIdx.ix2 0 j)
      = if h : k0_off1 i 1 ≤ j.val ∧ j.val < k0_off1 i 1 + 512 then k0_pay11 x0 x2 x3 x1 (ValueIdx.ix2 0 ⟨j.val - k0_off1 i 1, by omega⟩) else xs0 (ValueIdx.ix2 0 j) := by
  unfold kernelRun0_A
  dsimp only
  sl_unfold_words
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]
  exact scores_read arg10 harg10 i xs0 (k0_pay11 x0 x2 x3 x1) j

/-! ## A last tile -/

theorem pieceC_1 (hc0 : ¬cond0_0 i) (hc1 : cond0_1 i) (f : arg11.view.ty.Contents (Elt F)) :
    arg11.view.read (Elt F) (arg11.view.writes (Elt F) f (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.1) = (stepSt x0 x1 x2 x3 (xs1, xs2, xs3)).1 := by
  have hcov : ∀ y, ∃ pc ∈ (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.1, y ∈ pc.1.set :=
    View.cover_of_tiledL _ S1x1.size (by sl_kernel_rfl)
  rw [View.read_writes_eq_canon _ _ _ hcov]
  unfold kernelRun0_C
  dsimp only
  sl_unfold_words
  rw [View.canon_unit_zero hz2]
  unfold stepSt
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceC_2 (hc0 : ¬cond0_0 i) (hc1 : cond0_1 i) (f : arg12.view.ty.Contents (Elt F)) :
    arg12.view.read (Elt F) (arg12.view.writes (Elt F) f (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.2.1) = (stepSt x0 x1 x2 x3 (xs1, xs2, xs3)).2.1 := by
  have hcov : ∀ y, ∃ pc ∈ (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.2.1, y ∈ pc.1.set :=
    View.cover_of_tiledL _ S1x1.size (by sl_kernel_rfl)
  rw [View.read_writes_eq_canon _ _ _ hcov]
  unfold kernelRun0_C
  dsimp only
  sl_unfold_words
  rw [View.canon_unit_zero hz2]
  unfold stepSt
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceC_3 (hc0 : ¬cond0_0 i) (hc1 : cond0_1 i) (f : arg13.view.ty.Contents (Elt F)) :
    arg13.view.read (Elt F) (arg13.view.writes (Elt F) f (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.2.2.1) = (stepSt x0 x1 x2 x3 (xs1, xs2, xs3)).2.2 := by
  have hcov : ∀ y, ∃ pc ∈ (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.2.2.1, y ∈ pc.1.set :=
    View.cover_of_tiledL _ S1x1024.size (by sl_kernel_rfl)
  rw [View.read_writes_eq_canon _ _ _ hcov]
  unfold kernelRun0_C
  dsimp only
  sl_unfold_words
  rw [View.canon_unit_zero hz2]
  unfold stepSt
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceC_0 (hc0 : ¬cond0_0 i) (hc1 : cond0_1 i) (j : Fin 2048) :
    arg10.view.read (Elt F) (arg10.view.writes (Elt F) (harg10.unread xs0) (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.1) (ValueIdx.ix2 0 j)
      = if h : k0_off1 i 1 ≤ j.val ∧ j.val < k0_off1 i 1 + 512 then k0_pay11 x0 x2 x3 x1 (ValueIdx.ix2 0 ⟨j.val - k0_off1 i 1, by omega⟩) else xs0 (ValueIdx.ix2 0 j) := by
  unfold kernelRun0_C
  dsimp only
  sl_unfold_words
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]
  exact scores_read arg10 harg10 i xs0 (k0_pay11 x0 x2 x3 x1) j

/-- The first result's buffer after a last tile: the result row from the state just stored. -/
theorem pieceC_6 (hc0 : ¬cond0_0 i) (hc1 : cond0_1 i) (f : arg8.view.ty.Contents (Elt F)) :
    arg8.view.read (Elt F) (arg8.view.writes (Elt F) f (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).1)
      = k0_pay5 x1 (stepSt x0 x1 x2 x3 (xs1, xs2, xs3)).2.1 (stepSt x0 x1 x2 x3 (xs1, xs2, xs3)).2.2 x4 x5 := by
  have hcov : ∀ y, ∃ pc ∈ (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).1, y ∈ pc.1.set :=
    View.cover_of_tiledL _ S1x1x1024.size (by sl_kernel_rfl)
  rw [View.read_writes_eq_canon _ _ _ hcov]
  unfold kernelRun0_C
  dsimp only
  sl_unfold_words
  rw [View.canon_unit_zero hz3]
  unfold stepSt
  simp only [View.readAt_eq_ld, View.readCov_unit_zero (S := S1x1) arg11.view hz2, View.readCov_unit_zero (S := S1x1) arg12.view hz2, View.readCov_unit_zero (S := S1x1024) arg13.view hz2, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

/-- The second result's buffer after a last tile: the attention weights from the state just stored and the scores buffer
    as the tile leaves it. -/
theorem pieceC_7 (hc0 : ¬cond0_0 i) (hc1 : cond0_1 i) (f : arg9.view.ty.Contents (Elt F)) :
    arg9.view.read (Elt F) (arg9.view.writes (Elt F) f (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.1)
      = k0_pay4 (stepSt x0 x1 x2 x3 (xs1, xs2, xs3)).1 (stepSt x0 x1 x2 x3 (xs1, xs2, xs3)).2.1
          (arg10.view.read (Elt F) (arg10.view.writes (Elt F) (harg10.unread xs0) (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.1)) := by
  have hcov : ∀ y, ∃ pc ∈ (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.1, y ∈ pc.1.set :=
    View.cover_of_tiledL _ S1x1x2048.size (by sl_kernel_rfl)
  rw [View.read_writes_eq_canon _ _ _ hcov]
  unfold kernelRun0_C
  dsimp only
  sl_unfold_words
  rw [View.canon_unit_zero hz3]
  unfold stepSt
  simp only [View.readAt_eq_ld, View.readCov_unit_zero (S := S1x1) arg11.view hz2, View.readCov_unit_zero (S := S1x1) arg12.view hz2, View.readCov_unit_zero (S := S1x1024) arg13.view hz2, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

end

end Cert.KernelIdeal.Gen

end
-- ==== Proof.FrameKI.Steps.lean ====
/-
  How the state and the scores buffer move from one grid point to the next.

  Point t is tile t % 4 of batch t / 4, and the tile's scores go to columns (t % 4) · 512 … (t % 4) · 512 + 511 of the
  scores buffer. The state after t is one step from the initial state at a first tile and from the state after t - 1
  otherwise. A buffer that agreed with the batch's scores on the tiles before t, overwritten on tile t's columns by
  tile t's scores, agrees with them on the tiles up to t; after a batch's last tile it is all the batch's scores.
-/
import proofs.«425971_j9947144257895_3_alg».proof.Proof.FrameKI.Dats
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The tile's column offset in the scores buffer, over the grid. -/
theorem off_at : ∀ t : Fin cfg0.N, k0_off1 (grid0.coords t) 1 = t.val % 4 * 512 :=
  (by decide +kernel : ∀ t : Fin grid0.N, k0_off1 (grid0.coords t) 1 = t.val % 4 * 512)

theorem stK_first (c : Dev nD) (t : Fin cfg0.N) (h0 : t.val % 4 = 0) :
    stK m c t.val = stepSt (iblk m c 0 t) (iblk m c 1 t) (iblk m c 2 t) (iblk m c 3 t) st0 := by
  unfold stK
  rw [stAt_first (XB0 m c) (XB1 m c) (XB2 m c) (XB3 m c) t.val h0, XB0_at m c t, XB1_at m c t, XB2_at m c t,
    XB3_at m c t]

theorem stK_next (c : Dev nD) (t : Fin cfg0.N) (h0 : ¬t.val % 4 = 0) :
    stK m c t.val = stepSt (iblk m c 0 t) (iblk m c 1 t) (iblk m c 2 t) (iblk m c 3 t) (stK m c (t.val - 1)) := by
  unfold stK
  rw [stAt_next (XB0 m c) (XB1 m c) (XB2 m c) (XB3 m c) t.val h0, XB0_at m c t, XB1_at m c t, XB2_at m c t,
    XB3_at m c t]

/-- Entry j of all the batch's scores is entry j % 512 of tile j / 512. -/
theorem scAll_apply (c : Dev nD) (n : ℕ) (j : Fin 2048) :
    scAll m c n (ValueIdx.ix2 (0 : Fin 1) j)
      = scTile (XB0 m c) (XB1 m c) (XB2 m c) (XB3 m c) (n - n % 4 + j.val / 512)
          (ValueIdx.ix2 (0 : Fin 1) (⟨j.val % 512, Nat.mod_lt _ (by norm_num)⟩ : Fin 512)) := rfl

/-- One point's move of the scores buffer: d was good for the point before (or t is a first tile, where nothing is asked
    of d), and d' is d with tile t's columns overwritten by tile t's scores. -/
theorem good_step (c : Dev nD) (t : Fin cfg0.N) (d d' : Vec F S1x2048 .f32)
    (hprev : t.val % 4 = 0 ∨ Good m c (t.val - 1) d)
    (hd' : ∀ j : Fin 2048, d' (ValueIdx.ix2 0 j)
      = if h : k0_off1 (grid0.coords t) 1 ≤ j.val ∧ j.val < k0_off1 (grid0.coords t) 1 + 512 then k0_pay11 (iblk m c 0 t) (iblk m c 2 t) (iblk m c 3 t) (iblk m c 1 t) (ValueIdx.ix2 0 ⟨j.val - k0_off1 (grid0.coords t) 1, by omega⟩) else d (ValueIdx.ix2 0 j)) :
    Good m c t.val d' := by
  have hN : t.val < 128 := by have := N128; have := t.isLt; omega
  have hoff := off_at t
  intro j hj
  have hjlt := j.isLt
  rw [hd' j]
  by_cases hin : j.val / 512 = t.val % 4
  · -- j lies in tile t's columns: the entry is tile t's own score of column j % 512
    have hc : k0_off1 (grid0.coords t) 1 ≤ j.val ∧ j.val < k0_off1 (grid0.coords t) 1 + 512 := by omega
    rw [dif_pos hc, scAll_apply, show t.val - t.val % 4 + j.val / 512 = t.val by omega]
    unfold scTile
    rw [XB0_at m c t, XB1_at m c t, XB2_at m c t, XB3_at m c t]
    refine congrArg _ (congrArg (ValueIdx.ix2 (0 : Fin 1)) (Fin.ext ?_))
    show j.val - k0_off1 (grid0.coords t) 1 = j.val % 512
    omega
  · -- j lies in an earlier tile's columns: the entry is what the buffer held, good for the point before
    have hc : ¬(k0_off1 (grid0.coords t) 1 ≤ j.val ∧ j.val < k0_off1 (grid0.coords t) 1 + 512) := by omega
    have h0 : ¬t.val % 4 = 0 := by omega
    rw [dif_neg hc]
    rcases hprev with hp | hp
    · exact absurd hp h0
    · rw [hp j (by omega), scAll_apply, scAll_apply,
        show t.val - 1 - (t.val - 1) % 4 = t.val - t.val % 4 by omega]

/-- After a batch's last tile a good buffer is all the batch's scores. -/
theorem eq_scAll_of_good (c : Dev nD) (t : Fin cfg0.N) (h3 : t.val % 4 = 3) (d' : Vec F S1x2048 .f32)
    (hg : Good m c t.val d') : d' = scAll m c t.val := by
  have hN : t.val < 128 := by have := N128; have := t.isLt; omega
  funext idx
  obtain ⟨a, j, rfl⟩ : ∃ (a : Fin 1) (j : Fin 2048), idx = ValueIdx.ix2 a j :=
    ⟨idx 0, idx 1, ValueIdx.eq_ix2 idx⟩
  obtain rfl : a = 0 := Subsingleton.elim _ _
  exact hg j (by have := j.isLt; omega)

/-- The first result's buffer at point t, over the point's own blocks and the state after t. -/
theorem o6At_at (c : Dev nD) (t : Fin cfg0.N) :
    o6At m c t.val = k0_pay5 (iblk m c 1 t) (stK m c t.val).2.1 (stK m c t.val).2.2 (iblk m c 4 t) (iblk m c 5 t) := by
  unfold o6At out6At stK; rw [XB1_at, XB4_at, XB5_at]

/-- The second result's buffer at point t, over the state after t and all the batch's scores. -/
theorem o7At_at (c : Dev nD) (t : Fin cfg0.N) :
    o7At m c t.val = k0_pay4 (stK m c t.val).1 (stK m c t.val).2.1 (scAll m c t.val) := by
  unfold o7At out7At stK; rfl

end Cert.KernelIdeal.Gen

end
-- ==== Proof.FrameKI.Body.lean ====
/-
  The body obligation of the pipeline and the frame run.

  At every grid point the body, called on the staging buffers holding the inputs' blocks and on the scratch buffers as
  the invariant describes them, runs and re-establishes the invariant one point on: at a first tile it needs nothing of
  the scratch, at a middle tile it moves the state one step and extends the written part of the scores buffer, at a last
  tile it also leaves the two results in their staging buffers. With it the library's launch theorem gives the run of the
  whole program, and from that run the frame: the six argument arrays end as they began.
-/
import proofs.«425971_j9947144257895_3_alg».proof.Proof.FrameKI.Dats
import proofs.«425971_j9947144257895_3_alg».proof.Proof.FrameKI.Pieces
import proofs.«425971_j9947144257895_3_alg».proof.Proof.FrameKI.Steps
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 14400000 in
/-- The body at any point, by the point's tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt N128
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 4 = 0
  · -- a batch's first tile
    have h1 : ¬t.val % 4 = 3 := by omega
    rw [Dat.leavesExact_idle (dats m 0 c) 6 t (idleAt0_6 t h1) (noFlush0_6 t h1),
      Dat.leavesExact_idle (dats m 0 c) 7 t (idleAt0_7 t h1) (noFlush0_7 t h1)]
    rw [stK_first m c t h0]
    by_cases hz : t.val = 0
    · rw [PhiS_castSucc m c t, PhiS_zero m c _ _ hz, PhiA0_eq]
      iintro ⟨⟨⟨⟨%d, HS0⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, ⟨%es1, HS1⟩, ⟨%es2, HS2⟩, ⟨%es3, HS3⟩⟩
      isplitl [HS0 HS1 HS2 HS3 Hg]
      · isplitl [HS0 HS1 HS2 HS3]
        · isplitl [HS0]
          · iexists _; isplitl [HS0]
            · unfold owns; iexists _; isplitr; swap; · iexact HS0
              ipureintro; rfl
            · ipureintro
              exact good_step m c t d _ (Or.inl h0) (fun j => pieceA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) j)
          isplitl [HS1]
          · unfold owns; iexists _; isplitr; swap; · iexact HS1
            ipureintro; exact pieceA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) _
          isplitl [HS2]
          · unfold owns; iexists _; isplitr; swap; · iexact HS2
            ipureintro; exact pieceA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) _
          unfold owns; iexists _; isplitr; swap; · iexact HS3
          ipureintro; exact pieceA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS_castSucc m c t, PhiS_pos m c _ _ hz]
      iintro ⟨⟨⟨⟨%d, HS0, %hgood⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexists _; iexact HS1
      isplitl [HS2]; · iexists _; iexact HS2
      isplitl [HS3]; · iexists _; iexact HS3
      iintro ⟨H0, H1, H2, H3, H4, H5, H6, H7, HS0, ⟨%es1, HS1⟩, ⟨%es2, HS2⟩, ⟨%es3, HS3⟩⟩
      isplitl [HS0 HS1 HS2 HS3 Hg]
      · isplitl [HS0 HS1 HS2 HS3]
        · isplitl [HS0]
          · iexists _; isplitl [HS0]
            · unfold owns; iexists _; isplitr; swap; · iexact HS0
              ipureintro; rfl
            · ipureintro
              exact good_step m c t d _ (Or.inl h0) (fun j => pieceA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) j)
          isplitl [HS1]
          · unfold owns; iexists _; isplitr; swap; · iexact HS1
            ipureintro; exact pieceA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) _
          isplitl [HS2]
          · unfold owns; iexists _; isplitr; swap; · iexact HS2
            ipureintro; exact pieceA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) _
          unfold owns; iexists _; isplitr; swap; · iexact HS3
          ipureintro; exact pieceA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun h => h0 (by rw [h])
    by_cases h1 : t.val % 4 = 3
    · -- a batch's last tile
      rw [show (dats m 0 c).leavesExact 6 t = owns (c : Thread nD τ) (ms0_6 t) fullShare ((dats m 0 c).after 6 t) from by
        unfold Dat.leavesExact; rw [liveAt0_6 t h1], after0_6, o6At_at]
      rw [show (dats m 0 c).leavesExact 7 t = owns (c : Thread nD τ) (ms0_7 t) fullShare ((dats m 0 c).after 7 t) from by
        unfold Dat.leavesExact; rw [liveAt0_7 t h1], after0_7, o7At_at]
      rw [stK_next m c t h0]
      rw [PhiS_castSucc m c t, PhiS_pos m c _ _ hz]
      iintro ⟨⟨⟨⟨%d, HS0, %hgood⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, ⟨%e6, H6⟩, ⟨%e7, H7⟩, HS0, ⟨%es1, HS1⟩, ⟨%es2, HS2⟩, ⟨%es3, HS3⟩⟩
      isplitl [HS0 HS1 HS2 HS3 Hg]
      · isplitl [HS0 HS1 HS2 HS3]
        · isplitl [HS0]
          · iexists _; isplitl [HS0]
            · unfold owns; iexists _; isplitr; swap; · iexact HS0
              ipureintro; rfl
            · ipureintro
              exact good_step m c t d _ (Or.inr hgood) (fun j => pieceC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1) j)
          isplitl [HS1]
          · unfold owns; iexists _; isplitr; swap; · iexact HS1
            ipureintro; exact pieceC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1) _
          isplitl [HS2]
          · unfold owns; iexists _; isplitr; swap; · iexact HS2
            ipureintro; exact pieceC_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1) _
          unfold owns; iexists _; isplitr; swap; · iexact HS3
          ipureintro; exact pieceC_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr; swap; · iexact H6
        ipureintro; exact pieceC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1) _
      unfold owns; iexists _; isplitr; swap; · iexact H7
      ipureintro
      exact (pieceC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1) _).trans (congrArg (k0_pay4 _ _)
        (eq_scAll_of_good m c t h1 _ (good_step m c t d _ (Or.inr hgood) (fun j => pieceC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1) j))))
    · -- a middle tile
      rw [Dat.leavesExact_idle (dats m 0 c) 6 t (idleAt0_6 t h1) (noFlush0_6 t h1),
        Dat.leavesExact_idle (dats m 0 c) 7 t (idleAt0_7 t h1) (noFlush0_7 t h1)]
      rw [stK_next m c t h0]
      rw [PhiS_castSucc m c t, PhiS_pos m c _ _ hz]
      iintro ⟨⟨⟨⟨%d, HS0, %hgood⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) (fun h => h1 ((hcond0_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, ⟨%es1, HS1⟩, ⟨%es2, HS2⟩, ⟨%es3, HS3⟩⟩
      isplitl [HS0 HS1 HS2 HS3 Hg]
      · isplitl [HS0 HS1 HS2 HS3]
        · isplitl [HS0]
          · iexists _; isplitl [HS0]
            · unfold owns; iexists _; isplitr; swap; · iexact HS0
              ipureintro; rfl
            · ipureintro
              exact good_step m c t d _ (Or.inr hgood) (fun j => pieceB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) (fun h => h1 ((hcond0_1 t).mp h)) j)
          isplitl [HS1]
          · unfold owns; iexists _; isplitr; swap; · iexact HS1
            ipureintro; exact pieceB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) (fun h => h1 ((hcond0_1 t).mp h)) _
          isplitl [HS2]
          · unfold owns; iexists _; isplitr; swap; · iexact HS2
            ipureintro; exact pieceB_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) (fun h => h1 ((hcond0_1 t).mp h)) _
          unfold owns; iexists _; isplitr; swap; · iexact HS3
          ipureintro; exact pieceB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) (fun h => h1 ((hcond0_1 t).mp h)) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's form back: what the scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%d, HS0, -⟩, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem hout (c : Dev nD) : (dats m 0 c).Φ (Fin.last cfg0.N) ⊢ Pipeline.ΦA spec0 c :=
  Phi_out m c _ (by rw [Fin.val_last]; have := N128; omega)

set_option backward.isDefEq.respectTransparency.types false in
/-- The run of the whole program: every weakly fair execution terminates, every array of the pipeline ends at what the
    library computes from the proof data, every other unscoped buffer at what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Gen

end
-- ==== Proof.FrameK.Shared.lean ====
/-
  What the three cases of the kernel body's run share: the body's two conditionals decided over the grid, where each
  window is live, and the staging and scratch memrefs the pipeline calls the body with.
-/
import proofs.«425971_j9947144257895_3_alg».proof.Proof.Gen.Kernel.Frame
import proofs.«425971_j9947144257895_3_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body, in closed form

The body resets the running state at the first sequence tile of a batch (grid coordinate 1 equal to 0: the points ≡ 0 mod 4)
and finalizes at the last (coordinate 1 equal to 3: the points ≡ 3 mod 4). -/

/-- "This is the first sequence tile": the first conditional's condition as a function of the grid point. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last sequence tile". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where each window is live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The two results are stored only at a batch's last tile: elsewhere their windows are idle and not written back. -/
theorem idleAt0_6 : ∀ t : Fin cfg0.N, ¬t.val % 4 = 3 → cfg0.idle 6 (grid0.coords t) = true := by decide +kernel
theorem idleAt0_7 : ∀ t : Fin cfg0.N, ¬t.val % 4 = 3 → cfg0.idle 7 (grid0.coords t) = true := by decide +kernel
theorem noFlush0_6 : ∀ t : Fin cfg0.N, ¬t.val % 4 = 3 → (cfg0.win 6).flush t = false := by decide +kernel
theorem noFlush0_7 : ∀ t : Fin cfg0.N, ¬t.val % 4 = 3 → (cfg0.win 7).flush t = false := by decide +kernel
theorem liveAt0_6 : ∀ t : Fin cfg0.N, t.val % 4 = 3 → cfg0.idle 6 (grid0.coords t) = false := by decide +kernel
theorem liveAt0_7 : ∀ t : Fin cfg0.N, t.val % 4 = 3 → cfg0.idle 7 (grid0.coords t) = false := by decide +kernel

/-! ## The memrefs the body is called with -/

abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x2048 .f32 := win0_7.stage (cfg0.slots t 7)
abbrev hs0_7 (t : Fin cfg0.N) : (ms0_7 t).IsWhole := hstage0_7 ((cfg0.slots t 7).cast nbuf0_7)
/-- The four scratch buffers: the scores of the batch so far, the running maximum, the running sum, the running weighted sum. -/
abbrev scM0_0 : Memref sig .tc .vmem S1x2048 .f32 := Memref.whole cc0_scratch0
abbrev scM0_1 : Memref sig .tc .vmem S1x1 .f32 := Memref.whole cc0_scratch1
abbrev scM0_2 : Memref sig .tc .vmem S1x1 .f32 := Memref.whole cc0_scratch2
abbrev scM0_3 : Memref sig .tc .vmem S1x1024 .f32 := Memref.whole cc0_scratch3
abbrev hsc0_0 : (scM0_0 : Memref sig .tc .vmem S1x2048 .f32).IsWhole := Memref.isWhole_whole _
abbrev VS0_0 : View sig .tc .vmem S1x2048 .f32 := scM0_0.view
abbrev VS0_1 : View sig .tc .vmem S1x1 .f32 := scM0_1.view
abbrev VS0_2 : View sig .tc .vmem S1x1 .f32 := scM0_2.view
abbrev VS0_3 : View sig .tc .vmem S1x1024 .f32 := scM0_3.view
abbrev VO0_6 (t : Fin cfg0.N) : View sig .tc .vmem S1x1x1024 .f32 := (ms0_6 t).view
abbrev VO0_7 (t : Fin cfg0.N) : View sig .tc .vmem S1x1x2048 .f32 := (ms0_7 t).view

/-- What the launch hands the region besides the windows: the four scratch buffers, each whole at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.FrameK.State.lean ====
/-
  The running state of the tile walk, spelled with the body's own arithmetic.

  The body keeps three values across the sequence tiles of a batch: the running maximum of the scores, the running sum of
  their exponentials and the running weighted sum of the projected rows. A tile's step takes the state the tile before
  left (at a batch's first tile: -∞, 0 and the zero row) and the tile's input blocks to the new state; the two results are
  computed at the batch's last tile from the final state and from all the batch's scores.
-/
import proofs.«425971_j9947144257895_3_alg».proof.Proof.Gen.Kernel.Skeleton

noncomputable section

namespace Cert.Kernel.Gen

open Idealize.ShloMosaic Idealize.SL.Sem

variable {F : FTy → Type} [FloatOps F]

/-- The running maximum, sum and weighted sum. -/
abbrev St (F : FTy → Type) : Type := Vec F S1x1 .f32 × Vec F S1x1 .f32 × Vec F S1x1024 .f32

/-- The state before a batch's first tile: -∞, 0 and the zero row, as the body stores them. -/
def st0 : St F := (k0_pay6 (F := F), k0_pay7 (F := F), k0_pay8 (F := F))

/-- One tile's step: from the encoder tile x0, the query x1, the projection matrix x2 and bias x3 and the state p before,
    the state after. -/
def stepSt (x0 : Vec F S1x512x2048 .f32) (x1 : Vec F S1x1x1024 .f32) (x2 : Vec F S2048x1024 .bf16) (x3 : Vec F S1024 .f32)
    (p : St F) : St F :=
  (k0_pay3 (k0_pay12 x0 x2 x3 x1 p.1),
   k0_pay1 (k0_pay14 x0 x2 x3 x1 p.1) (k0_pay15 x0 x2 x3 x1 p.1 p.2.1),
   k0_pay2 (k0_pay9 x0 x2 x3) (k0_pay13 x0 x2 x3 x1 p.1) (k0_pay14 x0 x2 x3 x1 p.1) p.2.2)

section
variable (X0 : ℕ → Vec F S1x512x2048 .f32) (X1 : ℕ → Vec F S1x1x1024 .f32) (X2 : ℕ → Vec F S2048x1024 .bf16)
  (X3 : ℕ → Vec F S1024 .f32)

/-- The state after grid point n (points are batch-major: point n is tile n % 4 of batch n / 4), from the input blocks
    at each point: a first tile starts from st0, any other from what the point before left. -/
def stAt : ℕ → St F
  | 0 => stepSt (X0 0) (X1 0) (X2 0) (X3 0) st0
  | n + 1 => stepSt (X0 (n + 1)) (X1 (n + 1)) (X2 (n + 1)) (X3 (n + 1)) (if (n + 1) % 4 = 0 then st0 else stAt n)

theorem stAt_first (n : ℕ) (h : n % 4 = 0) : stAt X0 X1 X2 X3 n = stepSt (X0 n) (X1 n) (X2 n) (X3 n) st0 := by
  cases n with
  | zero => rfl
  | succ n => show stepSt _ _ _ _ (if (n + 1) % 4 = 0 then st0 else _) = _; rw [if_pos h]

theorem stAt_next (n : ℕ) (h : ¬n % 4 = 0) :
    stAt X0 X1 X2 X3 n = stepSt (X0 n) (X1 n) (X2 n) (X3 n) (stAt X0 X1 X2 X3 (n - 1)) := by
  cases n with
  | zero => exact absurd (Nat.zero_mod 4) h
  | succ n => show stepSt _ _ _ _ (if (n + 1) % 4 = 0 then _ else stAt X0 X1 X2 X3 n) = _; rw [if_neg h]; rfl

/-- The scores of the tile at point n, as stored into their slice of the scores buffer. -/
def scTile (n : ℕ) : Vec F S1x512 .f32 := k0_pay11 (X0 n) (X2 n) (X3 n) (X1 n)

/-- The attention weights stored at a batch's last tile n, from the final state and the batch's scores sc. -/
def out7At (n : ℕ) (sc : Vec F S1x2048 .f32) : Vec F S1x1x2048 .f32 :=
  k0_pay4 (stAt X0 X1 X2 X3 n).1 (stAt X0 X1 X2 X3 n).2.1 sc

/-- The result row stored at a batch's last tile n, from the final state, the query, and the output matrix x4 and bias x5. -/
def out6At (X4 : ℕ → Vec F S2048x1024 .bf16) (X5 : ℕ → Vec F S1024 .f32) (n : ℕ) : Vec F S1x1x1024 .f32 :=
  k0_pay5 (X1 n) (stAt X0 X1 X2 X3 n).2.1 (stAt X0 X1 X2 X3 n).2.2 (X4 n) (X5 n)

end

end Cert.Kernel.Gen

end
-- ==== Proof.FrameK.Dats.lean ====
/-
  The proof data of the one pipeline: what every window's staging buffer holds after the body at each grid point, and
  the invariant the body keeps between points.

  Points are batch-major: point n is sequence tile n % 4 of batch n / 4. After point n the running maximum, sum and
  weighted sum hold the state stAt after n tile steps (reset at each batch's first tile); the scores buffer holds the
  scores of the tiles of this batch seen so far in their slices (what its other slices hold is not known, so the
  invariant says "some contents that agree with the scores on the slices written"); the two result windows are stored
  only at a batch's last tile, from the final state and all the batch's scores.
-/
import proofs.«425971_j9947144257895_3_alg».proof.Proof.FrameK.Shared
import proofs.«425971_j9947144257895_3_alg».proof.Proof.FrameK.State
import Idealize.ShloMosaic.Lib.ValueIdx
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N128 : cfg0.N = 128 := N_0

/-! ## The input blocks by point number -/

def XB0 (c : Dev nD) (n : ℕ) : Vec F S1x512x2048 .f32 := iblk m c 0 ⟨n % 128, by have := N128; omega⟩
def XB1 (c : Dev nD) (n : ℕ) : Vec F S1x1x1024 .f32 := iblk m c 1 ⟨n % 128, by have := N128; omega⟩
def XB2 (c : Dev nD) (n : ℕ) : Vec F S2048x1024 .bf16 := iblk m c 2 ⟨n % 128, by have := N128; omega⟩
def XB3 (c : Dev nD) (n : ℕ) : Vec F S1024 .f32 := iblk m c 3 ⟨n % 128, by have := N128; omega⟩
def XB4 (c : Dev nD) (n : ℕ) : Vec F S2048x1024 .bf16 := iblk m c 4 ⟨n % 128, by have := N128; omega⟩
def XB5 (c : Dev nD) (n : ℕ) : Vec F S1024 .f32 := iblk m c 5 ⟨n % 128, by have := N128; omega⟩

theorem mod_at (t : Fin cfg0.N) : (⟨t.val % 128, by have := N128; omega⟩ : Fin cfg0.N) = t :=
  Fin.ext (Nat.mod_eq_of_lt (by have := N128; have := t.isLt; omega))

theorem XB0_at (c : Dev nD) (t : Fin cfg0.N) : XB0 m c t.val = iblk m c 0 t := by unfold XB0; rw [mod_at]
theorem XB1_at (c : Dev nD) (t : Fin cfg0.N) : XB1 m c t.val = iblk m c 1 t := by unfold XB1; rw [mod_at]
theorem XB2_at (c : Dev nD) (t : Fin cfg0.N) : XB2 m c t.val = iblk m c 2 t := by unfold XB2; rw [mod_at]
theorem XB3_at (c : Dev nD) (t : Fin cfg0.N) : XB3 m c t.val = iblk m c 3 t := by unfold XB3; rw [mod_at]
theorem XB4_at (c : Dev nD) (t : Fin cfg0.N) : XB4 m c t.val = iblk m c 4 t := by unfold XB4; rw [mod_at]
theorem XB5_at (c : Dev nD) (t : Fin cfg0.N) : XB5 m c t.val = iblk m c 5 t := by unfold XB5; rw [mod_at]

/-! ## The state, the scores and the results by point number -/

/-- The running maximum, sum and weighted sum after point n. -/
def stK (c : Dev nD) (n : ℕ) : St F := stAt (XB0 m c) (XB1 m c) (XB2 m c) (XB3 m c) n

/-- All the scores of point n's batch, each entry from the tile that computes it: entry j is entry j % 512 of tile j / 512. -/
def scAll (c : Dev nD) (n : ℕ) : Vec F S1x2048 .f32 := fun idx =>
  scTile (XB0 m c) (XB1 m c) (XB2 m c) (XB3 m c) (n - n % 4 + (idx 1).val / 512)
    (ValueIdx.ix2 (0 : Fin 1) (⟨(idx 1).val % 512, Nat.mod_lt _ (by norm_num)⟩ : Fin 512))

/-- Contents d of the scores buffer after point n: on the slices of the tiles 0 … n % 4 they are the batch's scores. -/
def Good (c : Dev nD) (n : ℕ) (d : Vec F S1x2048 .f32) : Prop :=
  ∀ j : Fin 2048, j.val / 512 ≤ n % 4 → d (ValueIdx.ix2 (0 : Fin 1) j) = scAll m c n (ValueIdx.ix2 (0 : Fin 1) j)

/-- The first result's staging buffer after a batch's last tile. -/
def o6At (c : Dev nD) (n : ℕ) : Vec F S1x1x1024 .f32 :=
  out6At (XB0 m c) (XB1 m c) (XB2 m c) (XB3 m c) (XB4 m c) (XB5 m c) n

/-- The second result's staging buffer after a batch's last tile. -/
def o7At (c : Dev nD) (n : ℕ) : Vec F S1x1x2048 .f32 :=
  out7At (XB0 m c) (XB1 m c) (XB2 m c) (XB3 m c) n (scAll m c n)

/-! ## The invariant between points -/

/-- Before the first point: what the launch hands over. After point n: the scores buffer at contents good for n, the three
    running values at the state after n, the generator register at some state. -/
def PhiS (c : Dev nD) : (n : ℕ) → n ≤ cfg0.N → sProp 𝕄
  | 0, _ => Pipeline.ΦA spec0 c
  | n + 1, hn => iprop(iprop((∃ d, owns (c : Thread nD τ) scM0_0 fullShare d ∗ ⌜Good m c n d⌝) ∗ owns (c : Thread nD τ) scM0_1 fullShare (stK m c n).1 ∗ owns (c : Thread nD τ) scM0_2 fullShare (stK m c n).2.1 ∗ owns (c : Thread nD τ) scM0_3 fullShare (stK m c n).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d ∗ ⌜Good m c n d⌝) ∗ owns (c : Thread nD τ) scM0_1 fullShare (stK m c n).1 ∗ owns (c : Thread nD τ) scM0_2 fullShare (stK m c n).2.1 ∗ owns (c : Thread nD τ) scM0_3 fullShare (stK m c n).2.2) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d ∗ ⌜Good m c (n - 1) d⌝) ∗ owns (c : Thread nD τ) scM0_1 fullShare (stK m c (n - 1)).1 ∗ owns (c : Thread nD τ) scM0_2 fullShare (stK m c (n - 1)).2.1 ∗ owns (c : Thread nD τ) scM0_3 fullShare (stK m c (n - 1)).2.2) ∗ (∃ r, prngReg c r)) := by
  cases n with
  | zero => exact absurd rfl hz
  | succ n => rfl

/-! ## The proof data -/

/-- The arrays as the region finds them; after the body at point t each input's buffer at its block and the two results'
    at o6At, o7At (which matter only at a batch's last tile: elsewhere those windows are idle); the invariant PhiS;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o6At m c t.val
    | ⟨7, _⟩ => o7At m c t.val
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = o6At m c t.val := by dsimp only [dats]
theorem after0_7 (c : Dev nD) (t : Fin cfg0.N) : (dats m 0 c).after 7 t = o7At m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.Kernel.Gen

end
-- ==== Proof.FrameK.RunA.lean ====
/-
  The kernel body at a batch's first sequence tile: it first stores -∞, 0 and the zero row into the running maximum,
  sum and weighted sum, then does a middle tile's work from that state. Run once on arbitrary whole memrefs; what each
  buffer is left with is found by the run, as the list of pieces stored into it.
-/
import proofs.«425971_j9947144257895_3_alg».proof.Proof.FrameK.Shared
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1x512x2048 .f32) (harg2 : arg2.IsWhole) (arg3 : Memref sig .tc .vmem S1x1x1024 .f32) (harg3 : arg3.IsWhole)
  (arg4 : Memref sig .tc .vmem S2048x1024 .bf16) (harg4 : arg4.IsWhole) (arg5 : Memref sig .tc .vmem S1024 .f32) (harg5 : arg5.IsWhole)
  (arg6 : Memref sig .tc .vmem S2048x1024 .bf16) (harg6 : arg6.IsWhole) (arg7 : Memref sig .tc .vmem S1024 .f32) (harg7 : arg7.IsWhole)
  (arg8 : Memref sig .tc .vmem S1x1x1024 .f32) (harg8 : arg8.IsWhole) (arg9 : Memref sig .tc .vmem S1x1x2048 .f32) (harg9 : arg9.IsWhole)
  (arg10 : Memref sig .tc .vmem S1x2048 .f32) (harg10 : arg10.IsWhole) (arg11 : Memref sig .tc .vmem S1x1 .f32) (harg11 : arg11.IsWhole)
  (arg12 : Memref sig .tc .vmem S1x1 .f32) (harg12 : arg12.IsWhole) (arg13 : Memref sig .tc .vmem S1x1024 .f32) (harg13 : arg13.IsWhole)
  (x0 : Vec F S1x512x2048 .f32) (x1 : Vec F S1x1x1024 .f32) (x2 : Vec F S2048x1024 .bf16) (x3 : Vec F S1024 .f32)
  (x4 : Vec F S2048x1024 .bf16) (x5 : Vec F S1024 .f32)
  (xs0 : Vec F S1x2048 .f32)

set_option maxHeartbeats 1000000 in
/-- The first-tile run: from the six inputs at their blocks and the scores buffer at xs0 (the two result buffers, idle here, at any contents xi6, xi7; the running values at anything),
    the body runs and hands back the inputs unchanged, the scores buffer with its pieces written over xs0, the three
    running values with their pieces written (the reset, then the step), the result buffers as they were. -/
noncomputable def kernelRun0_A (hc0 : cond0_0 i) (hc1 : ¬cond0_1 i) :
    Σ' (LS0 : List (View.Piece (Elt F) S1x2048 .f32)), Σ' (LS1 : List (View.Piece (Elt F) S1x1 .f32)), Σ' (LS2 : List (View.Piece (Elt F) S1x1 .f32)), { LS3 : List (View.Piece (Elt F) S1x1024 .f32) //
      ∀ (xi6 : Vec F S1x1x1024 .f32) (xi7 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi6 xi7 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    isplitl [HS1]; · iexists _; iexact HS1
    isplitl [HS2]; · iexists _; iexact HS2
    iexists _; iexact HS3

end

end Cert.Kernel.Gen

end
-- ==== Proof.FrameK.RunB.lean ====
/-
  The kernel body at a middle sequence tile (neither the first nor the last of its batch): it projects the tile,
  scores it against the query, writes the tile's scores into their slice of the scores buffer, and moves the running
  maximum, sum and weighted sum on by one step. Run once on arbitrary whole memrefs; what each buffer is left with is
  found by the run, as the list of pieces stored into it.
-/
import proofs.«425971_j9947144257895_3_alg».proof.Proof.FrameK.Shared
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1x512x2048 .f32) (harg2 : arg2.IsWhole) (arg3 : Memref sig .tc .vmem S1x1x1024 .f32) (harg3 : arg3.IsWhole)
  (arg4 : Memref sig .tc .vmem S2048x1024 .bf16) (harg4 : arg4.IsWhole) (arg5 : Memref sig .tc .vmem S1024 .f32) (harg5 : arg5.IsWhole)
  (arg6 : Memref sig .tc .vmem S2048x1024 .bf16) (harg6 : arg6.IsWhole) (arg7 : Memref sig .tc .vmem S1024 .f32) (harg7 : arg7.IsWhole)
  (arg8 : Memref sig .tc .vmem S1x1x1024 .f32) (harg8 : arg8.IsWhole) (arg9 : Memref sig .tc .vmem S1x1x2048 .f32) (harg9 : arg9.IsWhole)
  (arg10 : Memref sig .tc .vmem S1x2048 .f32) (harg10 : arg10.IsWhole) (arg11 : Memref sig .tc .vmem S1x1 .f32) (harg11 : arg11.IsWhole)
  (arg12 : Memref sig .tc .vmem S1x1 .f32) (harg12 : arg12.IsWhole) (arg13 : Memref sig .tc .vmem S1x1024 .f32) (harg13 : arg13.IsWhole)
  (x0 : Vec F S1x512x2048 .f32) (x1 : Vec F S1x1x1024 .f32) (x2 : Vec F S2048x1024 .bf16) (x3 : Vec F S1024 .f32)
  (x4 : Vec F S2048x1024 .bf16) (x5 : Vec F S1024 .f32)
  (xs0 : Vec F S1x2048 .f32) (xs1 : Vec F S1x1 .f32) (xs2 : Vec F S1x1 .f32) (xs3 : Vec F S1x1024 .f32)

set_option maxHeartbeats 1000000 in
/-- The middle-tile run: from the six inputs at their blocks, the scores buffer at xs0 and the running maximum, sum and
    weighted sum at xs1, xs2, xs3 (the two result buffers, idle here, at any contents xi6, xi7), the body runs and hands back the inputs unchanged, the scores buffer
    with its pieces written over xs0, the three running values with their pieces written, the result buffers as they were. -/
noncomputable def kernelRun0_B (hc0 : ¬cond0_0 i) (hc1 : ¬cond0_1 i) :
    Σ' (LS0 : List (View.Piece (Elt F) S1x2048 .f32)), Σ' (LS1 : List (View.Piece (Elt F) S1x1 .f32)), Σ' (LS2 : List (View.Piece (Elt F) S1x1 .f32)), { LS3 : List (View.Piece (Elt F) S1x1024 .f32) //
      ∀ (xi6 : Vec F S1x1x1024 .f32) (xi7 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun xi6 xi7 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    isplitl [HS1]; · iexists _; iexact HS1
    isplitl [HS2]; · iexists _; iexact HS2
    iexists _; iexact HS3

end

end Cert.Kernel.Gen

end
-- ==== Proof.FrameK.RunC.lean ====
/-
  The kernel body at a batch's last sequence tile: after a middle tile's work it reads the final maximum and sum and all
  the batch's scores, stores the attention weights exp (score - maximum) / sum into the second result's buffer, and
  stores tanh of (the weighted sum over the sum, joined with the query) times the output matrix plus its bias into the
  first. Run once on arbitrary whole memrefs; what each buffer is left with is found by the run.
-/
import proofs.«425971_j9947144257895_3_alg».proof.Proof.FrameK.Shared
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1x512x2048 .f32) (harg2 : arg2.IsWhole) (arg3 : Memref sig .tc .vmem S1x1x1024 .f32) (harg3 : arg3.IsWhole)
  (arg4 : Memref sig .tc .vmem S2048x1024 .bf16) (harg4 : arg4.IsWhole) (arg5 : Memref sig .tc .vmem S1024 .f32) (harg5 : arg5.IsWhole)
  (arg6 : Memref sig .tc .vmem S2048x1024 .bf16) (harg6 : arg6.IsWhole) (arg7 : Memref sig .tc .vmem S1024 .f32) (harg7 : arg7.IsWhole)
  (arg8 : Memref sig .tc .vmem S1x1x1024 .f32) (harg8 : arg8.IsWhole) (arg9 : Memref sig .tc .vmem S1x1x2048 .f32) (harg9 : arg9.IsWhole)
  (arg10 : Memref sig .tc .vmem S1x2048 .f32) (harg10 : arg10.IsWhole) (arg11 : Memref sig .tc .vmem S1x1 .f32) (harg11 : arg11.IsWhole)
  (arg12 : Memref sig .tc .vmem S1x1 .f32) (harg12 : arg12.IsWhole) (arg13 : Memref sig .tc .vmem S1x1024 .f32) (harg13 : arg13.IsWhole)
  (x0 : Vec F S1x512x2048 .f32) (x1 : Vec F S1x1x1024 .f32) (x2 : Vec F S2048x1024 .bf16) (x3 : Vec F S1024 .f32)
  (x4 : Vec F S2048x1024 .bf16) (x5 : Vec F S1024 .f32)
  (xs0 : Vec F S1x2048 .f32) (xs1 : Vec F S1x1 .f32) (xs2 : Vec F S1x1 .f32) (xs3 : Vec F S1x1024 .f32)

set_option maxHeartbeats 1000000 in
/-- The last-tile run: as a middle tile's, and the two result buffers are handed back with their pieces written. -/
noncomputable def kernelRun0_C (hc0 : ¬cond0_0 i) (hc1 : cond0_1 i) :
    Σ' (L6 : List (View.Piece (Elt F) S1x1x1024 .f32)), Σ' (L7 : List (View.Piece (Elt F) S1x1x2048 .f32)), Σ' (LS0 : List (View.Piece (Elt F) S1x2048 .f32)), Σ' (LS1 : List (View.Piece (Elt F) S1x1 .f32)), Σ' (LS2 : List (View.Piece (Elt F) S1x1 .f32)), { LS3 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexact HS0
    isplitl [HS1]; · iexists _; iexact HS1
    isplitl [HS2]; · iexists _; iexact HS2
    iexists _; iexact HS3

end

end Cert.Kernel.Gen

end
-- ==== Proof.FrameK.Pieces.lean ====
/-
  What the three runs of the kernel body leave in each buffer, as values: each running value's buffer ends at the
  matching component of the tile's step (its last store covers it), the scores buffer keeps what it held outside the
  tile's slice and holds the tile's scores inside it, and at a batch's last tile the two result buffers hold the
  attention weights and the result row computed from the state just stored.
-/
import proofs.«425971_j9947144257895_3_alg».proof.Proof.FrameK.State
import proofs.«425971_j9947144257895_3_alg».proof.Proof.FrameK.RunA
import proofs.«425971_j9947144257895_3_alg».proof.Proof.FrameK.RunB
import proofs.«425971_j9947144257895_3_alg».proof.Proof.FrameK.RunC
import Idealize.ShloMosaic.Lib.ValueIdx
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz1 : (![0] : Fin 1 → Nat) = fun _ => 0 := funext fun a => by fin_cases a <;> rfl

/-- One store of a 1x512 slice at the tile's offset into the 1x2048 scores buffer holding xs0, read entry by entry: inside
    the slice the stored value at the slice's own coordinate, outside what the buffer held. -/
private theorem scores_read {F : FTy → Type} [FloatOps F] (arg10 : Memref sig .tc .vmem S1x2048 .f32) (harg10 : arg10.IsWhole)
    (i : grid0.Coords) (xs0 : Vec F S1x2048 .f32) (w : Vec F S1x512 .f32) (j : Fin 2048) :
    arg10.view.read (Elt F) (arg10.view.writes (Elt F) (harg10.unread xs0)
        [⟨Rect.unit (s := S1x2048) (k0_off1 i) S1x512.size (k0_off1_inb i), w⟩]) (ValueIdx.ix2 0 j)
      = if h : k0_off1 i 1 ≤ j.val ∧ j.val < k0_off1 i 1 + 512 then w (ValueIdx.ix2 0 ⟨j.val - k0_off1 i 1, by omega⟩)
        else xs0 (ValueIdx.ix2 0 j) := by
  have h0 : k0_off1 i 0 = 0 := rfl
  by_cases h : k0_off1 i 1 ≤ j.val ∧ j.val < k0_off1 i 1 + 512
  · rw [dif_pos h]
    have he : (Rect.unit (s := S1x2048) (k0_off1 i) S1x512.size (k0_off1_inb i)).emb
        (ValueIdx.ix2 0 ⟨j.val - k0_off1 i 1, by omega⟩) = ValueIdx.ix2 0 j := by
      funext a; apply Fin.ext
      fin_cases a
      · show k0_off1 i 0 + 1 * 0 = 0
        rw [h0]
      · show k0_off1 i 1 + 1 * (j.val - k0_off1 i 1) = j.val
        omega
    rw [← he]
    exact View.read_writes_cons_emb _ _ _ _ _ _
  · rw [dif_neg h]
    refine (View.read_writes_apply_of_forall_not_mem _ _ _ _ ?_).trans (congrFun (harg10.read_unread xs0) _)
    intro p hp hm
    rw [List.mem_singleton] at hp
    subst hp
    have hm' : ValueIdx.ix2 0 j ∈ (Rect.unit (s := S1x2048) (k0_off1 i) S1x512.size (k0_off1_inb i)).set := hm
    have h1 := Rect.mem_set_unit.mp hm' (1 : Fin 2)
    exact h ⟨h1.1, h1.2⟩

section
variable (c : Dev nD) (i : grid0.Coords)
  (arg2 : Memref sig .tc .vmem S1x512x2048 .f32) (harg2 : arg2.IsWhole) (arg3 : Memref sig .tc .vmem S1x1x1024 .f32) (harg3 : arg3.IsWhole)
  (arg4 : Memref sig .tc .vmem S2048x1024 .bf16) (harg4 : arg4.IsWhole) (arg5 : Memref sig .tc .vmem S1024 .f32) (harg5 : arg5.IsWhole)
  (arg6 : Memref sig .tc .vmem S2048x1024 .bf16) (harg6 : arg6.IsWhole) (arg7 : Memref sig .tc .vmem S1024 .f32) (harg7 : arg7.IsWhole)
  (arg8 : Memref sig .tc .vmem S1x1x1024 .f32) (harg8 : arg8.IsWhole) (arg9 : Memref sig .tc .vmem S1x1x2048 .f32) (harg9 : arg9.IsWhole)
  (arg10 : Memref sig .tc .vmem S1x2048 .f32) (harg10 : arg10.IsWhole) (arg11 : Memref sig .tc .vmem S1x1 .f32) (harg11 : arg11.IsWhole)
  (arg12 : Memref sig .tc .vmem S1x1 .f32) (harg12 : arg12.IsWhole) (arg13 : Memref sig .tc .vmem S1x1024 .f32) (harg13 : arg13.IsWhole)
  (x0 : Vec F S1x512x2048 .f32) (x1 : Vec F S1x1x1024 .f32) (x2 : Vec F S2048x1024 .bf16) (x3 : Vec F S1024 .f32)
  (x4 : Vec F S2048x1024 .bf16) (x5 : Vec F S1024 .f32)
  (xs0 : Vec F S1x2048 .f32) (xs1 : Vec F S1x1 .f32) (xs2 : Vec F S1x1 .f32) (xs3 : Vec F S1x1024 .f32)

/-! ## A middle tile -/

theorem pieceB_1 (hc0 : ¬cond0_0 i) (hc1 : ¬cond0_1 i) (f : arg11.view.ty.Contents (Elt F)) :
    arg11.view.read (Elt F) (arg11.view.writes (Elt F) f (kernelRun0_B c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.1) = (stepSt x0 x1 x2 x3 (xs1, xs2, xs3)).1 := by
  have hcov : ∀ y, ∃ pc ∈ (kernelRun0_B c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.1, y ∈ pc.1.set :=
    View.cover_of_tiledL _ S1x1.size (by sl_kernel_rfl)
  rw [View.read_writes_eq_canon _ _ _ hcov]
  unfold kernelRun0_B
  dsimp only
  sl_unfold_words
  rw [View.canon_unit_zero hz2]
  unfold stepSt
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceB_2 (hc0 : ¬cond0_0 i) (hc1 : ¬cond0_1 i) (f : arg12.view.ty.Contents (Elt F)) :
    arg12.view.read (Elt F) (arg12.view.writes (Elt F) f (kernelRun0_B c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.1) = (stepSt x0 x1 x2 x3 (xs1, xs2, xs3)).2.1 := by
  have hcov : ∀ y, ∃ pc ∈ (kernelRun0_B c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.1, y ∈ pc.1.set :=
    View.cover_of_tiledL _ S1x1.size (by sl_kernel_rfl)
  rw [View.read_writes_eq_canon _ _ _ hcov]
  unfold kernelRun0_B
  dsimp only
  sl_unfold_words
  rw [View.canon_unit_zero hz2]
  unfold stepSt
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceB_3 (hc0 : ¬cond0_0 i) (hc1 : ¬cond0_1 i) (f : arg13.view.ty.Contents (Elt F)) :
    arg13.view.read (Elt F) (arg13.view.writes (Elt F) f (kernelRun0_B c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.1) = (stepSt x0 x1 x2 x3 (xs1, xs2, xs3)).2.2 := by
  have hcov : ∀ y, ∃ pc ∈ (kernelRun0_B c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.1, y ∈ pc.1.set :=
    View.cover_of_tiledL _ S1x1024.size (by sl_kernel_rfl)
  rw [View.read_writes_eq_canon _ _ _ hcov]
  unfold kernelRun0_B
  dsimp only
  sl_unfold_words
  rw [View.canon_unit_zero hz2]
  unfold stepSt
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

/-- The scores buffer after a middle tile, entry by entry: inside the tile's slice the tile's scores, outside what it held. -/
theorem pieceB_0 (hc0 : ¬cond0_0 i) (hc1 : ¬cond0_1 i) (j : Fin 2048) :
    arg10.view.read (Elt F) (arg10.view.writes (Elt F) (harg10.unread xs0) (kernelRun0_B c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).1) (ValueIdx.ix2 0 j)
      = if h : k0_off1 i 1 ≤ j.val ∧ j.val < k0_off1 i 1 + 512 then k0_pay11 x0 x2 x3 x1 (ValueIdx.ix2 0 ⟨j.val - k0_off1 i 1, by omega⟩) else xs0 (ValueIdx.ix2 0 j) := by
  unfold kernelRun0_B
  dsimp only
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]
  exact scores_read arg10 harg10 i xs0 (k0_pay11 x0 x2 x3 x1) j

/-! ## A first tile -/

theorem pieceA_1 (hc0 : cond0_0 i) (hc1 : ¬cond0_1 i) (f : arg11.view.ty.Contents (Elt F)) :
    arg11.view.read (Elt F) (arg11.view.writes (Elt F) f (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 xs0 hc0 hc1).2.1) = (stepSt x0 x1 x2 x3 st0).1 := by
  have hcov : ∀ y, ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 xs0 hc0 hc1).2.1, y ∈ pc.1.set :=
    View.cover_of_tiledL _ S1x1.size (by sl_kernel_rfl)
  rw [View.read_writes_eq_canon _ _ _ hcov]
  unfold kernelRun0_A
  dsimp only
  sl_unfold_words
  rw [View.canon_cons_unit_zero (S := S1x1) hz2]
  unfold stepSt st0
  simp only [View.readAt_eq_ld, View.readCov_unit_zero (S := S1x1) arg11.view hz2, View.readCov_unit_zero (S := S1x1) arg12.view hz2, View.readCov_unit_zero (S := S1x1024) arg13.view hz2, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceA_2 (hc0 : cond0_0 i) (hc1 : ¬cond0_1 i) (f : arg12.view.ty.Contents (Elt F)) :
    arg12.view.read (Elt F) (arg12.view.writes (Elt F) f (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 xs0 hc0 hc1).2.2.1) = (stepSt x0 x1 x2 x3 st0).2.1 := by
  have hcov : ∀ y, ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 xs0 hc0 hc1).2.2.1, y ∈ pc.1.set :=
    View.cover_of_tiledL _ S1x1.size (by sl_kernel_rfl)
  rw [View.read_writes_eq_canon _ _ _ hcov]
  unfold kernelRun0_A
  dsimp only
  sl_unfold_words
  rw [View.canon_cons_unit_zero (S := S1x1) hz2]
  unfold stepSt st0
  simp only [View.readAt_eq_ld, View.readCov_unit_zero (S := S1x1) arg11.view hz2, View.readCov_unit_zero (S := S1x1) arg12.view hz2, View.readCov_unit_zero (S := S1x1024) arg13.view hz2, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceA_3 (hc0 : cond0_0 i) (hc1 : ¬cond0_1 i) (f : arg13.view.ty.Contents (Elt F)) :
    arg13.view.read (Elt F) (arg13.view.writes (Elt F) f (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 xs0 hc0 hc1).2.2.2.1) = (stepSt x0 x1 x2 x3 st0).2.2 := by
  have hcov : ∀ y, ∃ pc ∈ (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 xs0 hc0 hc1).2.2.2.1, y ∈ pc.1.set :=
    View.cover_of_tiledL _ S1x1024.size (by sl_kernel_rfl)
  rw [View.read_writes_eq_canon _ _ _ hcov]
  unfold kernelRun0_A
  dsimp only
  sl_unfold_words
  rw [View.canon_cons_unit_zero (S := S1x1024) hz2]
  unfold stepSt st0
  simp only [View.readAt_eq_ld, View.readCov_unit_zero (S := S1x1) arg11.view hz2, View.readCov_unit_zero (S := S1x1) arg12.view hz2, View.readCov_unit_zero (S := S1x1024) arg13.view hz2, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceA_0 (hc0 : cond0_0 i) (hc1 : ¬cond0_1 i) (j : Fin 2048) :
    arg10.view.read (Elt F) (arg10.view.writes (Elt F) (harg10.unread xs0) (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 xs0 hc0 hc1).1) (ValueIdx.ix2 0 j)
      = if h : k0_off1 i 1 ≤ j.val ∧ j.val < k0_off1 i 1 + 512 then k0_pay11 x0 x2 x3 x1 (ValueIdx.ix2 0 ⟨j.val - k0_off1 i 1, by omega⟩) else xs0 (ValueIdx.ix2 0 j) := by
  unfold kernelRun0_A
  dsimp only
  sl_unfold_words
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]
  exact scores_read arg10 harg10 i xs0 (k0_pay11 x0 x2 x3 x1) j

/-! ## A last tile -/

theorem pieceC_1 (hc0 : ¬cond0_0 i) (hc1 : cond0_1 i) (f : arg11.view.ty.Contents (Elt F)) :
    arg11.view.read (Elt F) (arg11.view.writes (Elt F) f (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.1) = (stepSt x0 x1 x2 x3 (xs1, xs2, xs3)).1 := by
  have hcov : ∀ y, ∃ pc ∈ (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.1, y ∈ pc.1.set :=
    View.cover_of_tiledL _ S1x1.size (by sl_kernel_rfl)
  rw [View.read_writes_eq_canon _ _ _ hcov]
  unfold kernelRun0_C
  dsimp only
  sl_unfold_words
  rw [View.canon_unit_zero hz2]
  unfold stepSt
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceC_2 (hc0 : ¬cond0_0 i) (hc1 : cond0_1 i) (f : arg12.view.ty.Contents (Elt F)) :
    arg12.view.read (Elt F) (arg12.view.writes (Elt F) f (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.2.1) = (stepSt x0 x1 x2 x3 (xs1, xs2, xs3)).2.1 := by
  have hcov : ∀ y, ∃ pc ∈ (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.2.1, y ∈ pc.1.set :=
    View.cover_of_tiledL _ S1x1.size (by sl_kernel_rfl)
  rw [View.read_writes_eq_canon _ _ _ hcov]
  unfold kernelRun0_C
  dsimp only
  sl_unfold_words
  rw [View.canon_unit_zero hz2]
  unfold stepSt
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceC_3 (hc0 : ¬cond0_0 i) (hc1 : cond0_1 i) (f : arg13.view.ty.Contents (Elt F)) :
    arg13.view.read (Elt F) (arg13.view.writes (Elt F) f (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.2.2.1) = (stepSt x0 x1 x2 x3 (xs1, xs2, xs3)).2.2 := by
  have hcov : ∀ y, ∃ pc ∈ (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.2.2.2.1, y ∈ pc.1.set :=
    View.cover_of_tiledL _ S1x1024.size (by sl_kernel_rfl)
  rw [View.read_writes_eq_canon _ _ _ hcov]
  unfold kernelRun0_C
  dsimp only
  sl_unfold_words
  rw [View.canon_unit_zero hz2]
  unfold stepSt
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

theorem pieceC_0 (hc0 : ¬cond0_0 i) (hc1 : cond0_1 i) (j : Fin 2048) :
    arg10.view.read (Elt F) (arg10.view.writes (Elt F) (harg10.unread xs0) (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.1) (ValueIdx.ix2 0 j)
      = if h : k0_off1 i 1 ≤ j.val ∧ j.val < k0_off1 i 1 + 512 then k0_pay11 x0 x2 x3 x1 (ValueIdx.ix2 0 ⟨j.val - k0_off1 i 1, by omega⟩) else xs0 (ValueIdx.ix2 0 j) := by
  unfold kernelRun0_C
  dsimp only
  sl_unfold_words
  simp only [View.readAt_eq_ld, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]
  exact scores_read arg10 harg10 i xs0 (k0_pay11 x0 x2 x3 x1) j

/-- The first result's buffer after a last tile: the result row from the state just stored. -/
theorem pieceC_6 (hc0 : ¬cond0_0 i) (hc1 : cond0_1 i) (f : arg8.view.ty.Contents (Elt F)) :
    arg8.view.read (Elt F) (arg8.view.writes (Elt F) f (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).1)
      = k0_pay5 x1 (stepSt x0 x1 x2 x3 (xs1, xs2, xs3)).2.1 (stepSt x0 x1 x2 x3 (xs1, xs2, xs3)).2.2 x4 x5 := by
  have hcov : ∀ y, ∃ pc ∈ (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).1, y ∈ pc.1.set :=
    View.cover_of_tiledL _ S1x1x1024.size (by sl_kernel_rfl)
  rw [View.read_writes_eq_canon _ _ _ hcov]
  unfold kernelRun0_C
  dsimp only
  sl_unfold_words
  rw [View.canon_unit_zero hz3]
  unfold stepSt
  simp only [View.readAt_eq_ld, View.readCov_unit_zero (S := S1x1) arg11.view hz2, View.readCov_unit_zero (S := S1x1) arg12.view hz2, View.readCov_unit_zero (S := S1x1024) arg13.view hz2, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

/-- The second result's buffer after a last tile: the attention weights from the state just stored and the scores buffer
    as the tile leaves it. -/
theorem pieceC_7 (hc0 : ¬cond0_0 i) (hc1 : cond0_1 i) (f : arg9.view.ty.Contents (Elt F)) :
    arg9.view.read (Elt F) (arg9.view.writes (Elt F) f (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.1)
      = k0_pay4 (stepSt x0 x1 x2 x3 (xs1, xs2, xs3)).1 (stepSt x0 x1 x2 x3 (xs1, xs2, xs3)).2.1
          (arg10.view.read (Elt F) (arg10.view.writes (Elt F) (harg10.unread xs0) (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.2.1)) := by
  have hcov : ∀ y, ∃ pc ∈ (kernelRun0_C c i arg2 harg2 arg3 harg3 arg4 harg4 arg5 harg5 arg6 harg6 arg7 harg7 arg8 harg8 arg9 harg9 arg10 harg10 arg11 harg11 arg12 harg12 arg13 harg13 x0 x1 x2 x3 x4 x5 xs0 xs1 xs2 xs3 hc0 hc1).2.1, y ∈ pc.1.set :=
    View.cover_of_tiledL _ S1x1x2048.size (by sl_kernel_rfl)
  rw [View.read_writes_eq_canon _ _ _ hcov]
  unfold kernelRun0_C
  dsimp only
  sl_unfold_words
  rw [View.canon_unit_zero hz3]
  unfold stepSt
  simp only [View.readAt_eq_ld, View.readCov_unit_zero (S := S1x1) arg11.view hz2, View.readCov_unit_zero (S := S1x1) arg12.view hz2, View.readCov_unit_zero (S := S1x1024) arg13.view hz2, harg2.read_unread, harg3.read_unread, harg4.read_unread, harg5.read_unread, harg6.read_unread, harg7.read_unread, harg10.read_unread, harg11.read_unread, harg12.read_unread, harg13.read_unread, View.ld_unit_zero (S := S1x512x2048) hz3, View.ld_unit_zero (S := S1x1x1024) hz3, View.ld_unit_zero (S := S2048x1024) hz2, View.ld_unit_zero (S := S1024) hz1, View.ld_unit_zero (S := S1x1) hz2, View.ld_unit_zero (S := S1x1024) hz2, View.ld_unit_zero (S := S1x2048) hz2]

end

end Cert.Kernel.Gen

end
-- ==== Proof.FrameK.Steps.lean ====
/-
  How the state and the scores buffer move from one grid point to the next.

  Point t is tile t % 4 of batch t / 4, and the tile's scores go to columns (t % 4) · 512 … (t % 4) · 512 + 511 of the
  scores buffer. The state after t is one step from the initial state at a first tile and from the state after t - 1
  otherwise. A buffer that agreed with the batch's scores on the tiles before t, overwritten on tile t's columns by
  tile t's scores, agrees with them on the tiles up to t; after a batch's last tile it is all the batch's scores.
-/
import proofs.«425971_j9947144257895_3_alg».proof.Proof.FrameK.Dats
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The tile's column offset in the scores buffer, over the grid. -/
theorem off_at : ∀ t : Fin cfg0.N, k0_off1 (grid0.coords t) 1 = t.val % 4 * 512 :=
  (by decide +kernel : ∀ t : Fin grid0.N, k0_off1 (grid0.coords t) 1 = t.val % 4 * 512)

theorem stK_first (c : Dev nD) (t : Fin cfg0.N) (h0 : t.val % 4 = 0) :
    stK m c t.val = stepSt (iblk m c 0 t) (iblk m c 1 t) (iblk m c 2 t) (iblk m c 3 t) st0 := by
  unfold stK
  rw [stAt_first (XB0 m c) (XB1 m c) (XB2 m c) (XB3 m c) t.val h0, XB0_at m c t, XB1_at m c t, XB2_at m c t,
    XB3_at m c t]

theorem stK_next (c : Dev nD) (t : Fin cfg0.N) (h0 : ¬t.val % 4 = 0) :
    stK m c t.val = stepSt (iblk m c 0 t) (iblk m c 1 t) (iblk m c 2 t) (iblk m c 3 t) (stK m c (t.val - 1)) := by
  unfold stK
  rw [stAt_next (XB0 m c) (XB1 m c) (XB2 m c) (XB3 m c) t.val h0, XB0_at m c t, XB1_at m c t, XB2_at m c t,
    XB3_at m c t]

/-- Entry j of all the batch's scores is entry j % 512 of tile j / 512. -/
theorem scAll_apply (c : Dev nD) (n : ℕ) (j : Fin 2048) :
    scAll m c n (ValueIdx.ix2 (0 : Fin 1) j)
      = scTile (XB0 m c) (XB1 m c) (XB2 m c) (XB3 m c) (n - n % 4 + j.val / 512)
          (ValueIdx.ix2 (0 : Fin 1) (⟨j.val % 512, Nat.mod_lt _ (by norm_num)⟩ : Fin 512)) := rfl

/-- One point's move of the scores buffer: d was good for the point before (or t is a first tile, where nothing is asked
    of d), and d' is d with tile t's columns overwritten by tile t's scores. -/
theorem good_step (c : Dev nD) (t : Fin cfg0.N) (d d' : Vec F S1x2048 .f32)
    (hprev : t.val % 4 = 0 ∨ Good m c (t.val - 1) d)
    (hd' : ∀ j : Fin 2048, d' (ValueIdx.ix2 0 j)
      = if h : k0_off1 (grid0.coords t) 1 ≤ j.val ∧ j.val < k0_off1 (grid0.coords t) 1 + 512 then k0_pay11 (iblk m c 0 t) (iblk m c 2 t) (iblk m c 3 t) (iblk m c 1 t) (ValueIdx.ix2 0 ⟨j.val - k0_off1 (grid0.coords t) 1, by omega⟩) else d (ValueIdx.ix2 0 j)) :
    Good m c t.val d' := by
  have hN : t.val < 128 := by have := N128; have := t.isLt; omega
  have hoff := off_at t
  intro j hj
  have hjlt := j.isLt
  rw [hd' j]
  by_cases hin : j.val / 512 = t.val % 4
  · -- j lies in tile t's columns: the entry is tile t's own score of column j % 512
    have hc : k0_off1 (grid0.coords t) 1 ≤ j.val ∧ j.val < k0_off1 (grid0.coords t) 1 + 512 := by omega
    rw [dif_pos hc, scAll_apply, show t.val - t.val % 4 + j.val / 512 = t.val by omega]
    unfold scTile
    rw [XB0_at m c t, XB1_at m c t, XB2_at m c t, XB3_at m c t]
    refine congrArg _ (congrArg (ValueIdx.ix2 (0 : Fin 1)) (Fin.ext ?_))
    show j.val - k0_off1 (grid0.coords t) 1 = j.val % 512
    omega
  · -- j lies in an earlier tile's columns: the entry is what the buffer held, good for the point before
    have hc : ¬(k0_off1 (grid0.coords t) 1 ≤ j.val ∧ j.val < k0_off1 (grid0.coords t) 1 + 512) := by omega
    have h0 : ¬t.val % 4 = 0 := by omega
    rw [dif_neg hc]
    rcases hprev with hp | hp
    · exact absurd hp h0
    · rw [hp j (by omega), scAll_apply, scAll_apply,
        show t.val - 1 - (t.val - 1) % 4 = t.val - t.val % 4 by omega]

/-- After a batch's last tile a good buffer is all the batch's scores. -/
theorem eq_scAll_of_good (c : Dev nD) (t : Fin cfg0.N) (h3 : t.val % 4 = 3) (d' : Vec F S1x2048 .f32)
    (hg : Good m c t.val d') : d' = scAll m c t.val := by
  have hN : t.val < 128 := by have := N128; have := t.isLt; omega
  funext idx
  obtain ⟨a, j, rfl⟩ : ∃ (a : Fin 1) (j : Fin 2048), idx = ValueIdx.ix2 a j :=
    ⟨idx 0, idx 1, ValueIdx.eq_ix2 idx⟩
  obtain rfl : a = 0 := Subsingleton.elim _ _
  exact hg j (by have := j.isLt; omega)

/-- The first result's buffer at point t, over the point's own blocks and the state after t. -/
theorem o6At_at (c : Dev nD) (t : Fin cfg0.N) :
    o6At m c t.val = k0_pay5 (iblk m c 1 t) (stK m c t.val).2.1 (stK m c t.val).2.2 (iblk m c 4 t) (iblk m c 5 t) := by
  unfold o6At out6At stK; rw [XB1_at, XB4_at, XB5_at]

/-- The second result's buffer at point t, over the state after t and all the batch's scores. -/
theorem o7At_at (c : Dev nD) (t : Fin cfg0.N) :
    o7At m c t.val = k0_pay4 (stK m c t.val).1 (stK m c t.val).2.1 (scAll m c t.val) := by
  unfold o7At out7At stK; rfl

end Cert.Kernel.Gen

end
-- ==== Proof.FrameK.Body.lean ====
/-
  The body obligation of the pipeline and the frame run.

  At every grid point the body, called on the staging buffers holding the inputs' blocks and on the scratch buffers as
  the invariant describes them, runs and re-establishes the invariant one point on: at a first tile it needs nothing of
  the scratch, at a middle tile it moves the state one step and extends the written part of the scores buffer, at a last
  tile it also leaves the two results in their staging buffers. With it the library's launch theorem gives the run of the
  whole program, and from that run the frame: the six argument arrays end as they began.
-/
import proofs.«425971_j9947144257895_3_alg».proof.Proof.FrameK.Dats
import proofs.«425971_j9947144257895_3_alg».proof.Proof.FrameK.Pieces
import proofs.«425971_j9947144257895_3_alg».proof.Proof.FrameK.Steps
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 14400000 in
/-- The body at any point, by the point's tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt N128
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 4 = 0
  · -- a batch's first tile
    have h1 : ¬t.val % 4 = 3 := by omega
    rw [Dat.leavesExact_idle (dats m 0 c) 6 t (idleAt0_6 t h1) (noFlush0_6 t h1),
      Dat.leavesExact_idle (dats m 0 c) 7 t (idleAt0_7 t h1) (noFlush0_7 t h1)]
    rw [stK_first m c t h0]
    by_cases hz : t.val = 0
    · rw [PhiS_castSucc m c t, PhiS_zero m c _ _ hz, PhiA0_eq]
      iintro ⟨⟨⟨⟨%d, HS0⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, ⟨%es1, HS1⟩, ⟨%es2, HS2⟩, ⟨%es3, HS3⟩⟩
      isplitl [HS0 HS1 HS2 HS3 Hg]
      · isplitl [HS0 HS1 HS2 HS3]
        · isplitl [HS0]
          · iexists _; isplitl [HS0]
            · unfold owns; iexists _; isplitr; swap; · iexact HS0
              ipureintro; rfl
            · ipureintro
              exact good_step m c t d _ (Or.inl h0) (fun j => pieceA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) j)
          isplitl [HS1]
          · unfold owns; iexists _; isplitr; swap; · iexact HS1
            ipureintro; exact pieceA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) _
          isplitl [HS2]
          · unfold owns; iexists _; isplitr; swap; · iexact HS2
            ipureintro; exact pieceA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) _
          unfold owns; iexists _; isplitr; swap; · iexact HS3
          ipureintro; exact pieceA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS_castSucc m c t, PhiS_pos m c _ _ hz]
      iintro ⟨⟨⟨⟨%d, HS0, %hgood⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexists _; iexact HS1
      isplitl [HS2]; · iexists _; iexact HS2
      isplitl [HS3]; · iexists _; iexact HS3
      iintro ⟨H0, H1, H2, H3, H4, H5, H6, H7, HS0, ⟨%es1, HS1⟩, ⟨%es2, HS2⟩, ⟨%es3, HS3⟩⟩
      isplitl [HS0 HS1 HS2 HS3 Hg]
      · isplitl [HS0 HS1 HS2 HS3]
        · isplitl [HS0]
          · iexists _; isplitl [HS0]
            · unfold owns; iexists _; isplitr; swap; · iexact HS0
              ipureintro; rfl
            · ipureintro
              exact good_step m c t d _ (Or.inl h0) (fun j => pieceA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) j)
          isplitl [HS1]
          · unfold owns; iexists _; isplitr; swap; · iexact HS1
            ipureintro; exact pieceA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) _
          isplitl [HS2]
          · unfold owns; iexists _; isplitr; swap; · iexact HS2
            ipureintro; exact pieceA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) _
          unfold owns; iexists _; isplitr; swap; · iexact HS3
          ipureintro; exact pieceA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d ((hcond0_0 t).mpr h0) (fun h => h1 ((hcond0_1 t).mp h)) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun h => h0 (by rw [h])
    by_cases h1 : t.val % 4 = 3
    · -- a batch's last tile
      rw [show (dats m 0 c).leavesExact 6 t = owns (c : Thread nD τ) (ms0_6 t) fullShare ((dats m 0 c).after 6 t) from by
        unfold Dat.leavesExact; rw [liveAt0_6 t h1], after0_6, o6At_at]
      rw [show (dats m 0 c).leavesExact 7 t = owns (c : Thread nD τ) (ms0_7 t) fullShare ((dats m 0 c).after 7 t) from by
        unfold Dat.leavesExact; rw [liveAt0_7 t h1], after0_7, o7At_at]
      rw [stK_next m c t h0]
      rw [PhiS_castSucc m c t, PhiS_pos m c _ _ hz]
      iintro ⟨⟨⟨⟨%d, HS0, %hgood⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, ⟨%e6, H6⟩, ⟨%e7, H7⟩, HS0, ⟨%es1, HS1⟩, ⟨%es2, HS2⟩, ⟨%es3, HS3⟩⟩
      isplitl [HS0 HS1 HS2 HS3 Hg]
      · isplitl [HS0 HS1 HS2 HS3]
        · isplitl [HS0]
          · iexists _; isplitl [HS0]
            · unfold owns; iexists _; isplitr; swap; · iexact HS0
              ipureintro; rfl
            · ipureintro
              exact good_step m c t d _ (Or.inr hgood) (fun j => pieceC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1) j)
          isplitl [HS1]
          · unfold owns; iexists _; isplitr; swap; · iexact HS1
            ipureintro; exact pieceC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1) _
          isplitl [HS2]
          · unfold owns; iexists _; isplitr; swap; · iexact HS2
            ipureintro; exact pieceC_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1) _
          unfold owns; iexists _; isplitr; swap; · iexact HS3
          ipureintro; exact pieceC_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr; swap; · iexact H6
        ipureintro; exact pieceC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1) _
      unfold owns; iexists _; isplitr; swap; · iexact H7
      ipureintro
      exact (pieceC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1) _).trans (congrArg (k0_pay4 _ _)
        (eq_scAll_of_good m c t h1 _ (good_step m c t d _ (Or.inr hgood) (fun j => pieceC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) ((hcond0_1 t).mpr h1) j))))
    · -- a middle tile
      rw [Dat.leavesExact_idle (dats m 0 c) 6 t (idleAt0_6 t h1) (noFlush0_6 t h1),
        Dat.leavesExact_idle (dats m 0 c) 7 t (idleAt0_7 t h1) (noFlush0_7 t h1)]
      rw [stK_next m c t h0]
      rw [PhiS_castSucc m c t, PhiS_pos m c _ _ hz]
      iintro ⟨⟨⟨⟨%d, HS0, %hgood⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) (fun h => h1 ((hcond0_1 t).mp h))).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      isplitl [HS3]; · iexact HS3
      iintro ⟨H0, H1, H2, H3, H4, H5, H6, H7, HS0, ⟨%es1, HS1⟩, ⟨%es2, HS2⟩, ⟨%es3, HS3⟩⟩
      isplitl [HS0 HS1 HS2 HS3 Hg]
      · isplitl [HS0 HS1 HS2 HS3]
        · isplitl [HS0]
          · iexists _; isplitl [HS0]
            · unfold owns; iexists _; isplitr; swap; · iexact HS0
              ipureintro; rfl
            · ipureintro
              exact good_step m c t d _ (Or.inr hgood) (fun j => pieceB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) (fun h => h1 ((hcond0_1 t).mp h)) j)
          isplitl [HS1]
          · unfold owns; iexists _; isplitr; swap; · iexact HS1
            ipureintro; exact pieceB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) (fun h => h1 ((hcond0_1 t).mp h)) _
          isplitl [HS2]
          · unfold owns; iexists _; isplitr; swap; · iexact HS2
            ipureintro; exact pieceB_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) (fun h => h1 ((hcond0_1 t).mp h)) _
          unfold owns; iexists _; isplitr; swap; · iexact HS3
          ipureintro; exact pieceB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d (stK m c (t.val - 1)).1 (stK m c (t.val - 1)).2.1 (stK m c (t.val - 1)).2.2 (fun h => h0 ((hcond0_0 t).mp h)) (fun h => h1 ((hcond0_1 t).mp h)) _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's form back: what the scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%d, HS0, -⟩, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

theorem hout (c : Dev nD) : (dats m 0 c).Φ (Fin.last cfg0.N) ⊢ Pipeline.ΦA spec0 c :=
  Phi_out m c _ (by rw [Fin.val_last]; have := N128; omega)

set_option backward.isDefEq.respectTransparency.types false in
/-- The run of the whole program: every weakly fair execution terminates, every array of the pipeline ends at what the
    library computes from the proof data, every other unscoped buffer at what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Gen

end
-- ==== Proof.Blocks.lean ====
/-
  The kernel's blocks against the launched arrays. The grid is 32 batches by 4 sequence tiles: point t is batch
  t / 4, tile t % 4. Each input window's block at a point is read off the array the region finds (for three of
  them a transposed or format-converted copy of an argument); each output window's array after the last point is
  assembled from what the fourth tile of each batch writes back; the host's final transpose is read at an index.
-/
import proofs.«425971_j9947144257895_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## The input blocks -/

/-- The printed index maps over the grid: window 0 moves with the batch on axis 0 and with the tile on axis 1;
    windows 1, 6 and 7 move with the batch on axis 0; windows 2 to 5 stay at block 0. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-- A point's batch is below 32. -/
theorem batch_lt (t : Fin cfg0.N) : t.val / 4 < 32 := by
  have := t.isLt; have hN : cfg0.N = 128 := N_0; omega

/-- A row of a point's tile is below 2048. -/
theorem row_lt (t : Fin cfg0.N) (r : Fin 512) : t.val % 4 * 512 + r.val < 2048 := by
  have := r.isLt; omega

/-- Window 0's block at point t is rows 512·(t % 4) … of batch t / 4 of the first argument. -/
theorem blk0 (c : Dev nD) (t : Fin cfg0.N) (r : Fin 512) (f : Fin 2048) :
    (iblk m c 0 t : Vec Ideal S1x512x2048 .f32) (ix3 0 r f)
      = m ((c : Thread nD τ).loc main_arg0) (ix3 ⟨t.val / 4, batch_lt t⟩ ⟨t.val % 4 * 512 + r.val, row_lt t r⟩ f) := by
  obtain ⟨e0, e1, e2, -⟩ := idx_facts t
  rw [← V_main_arg0 m c]
  unfold iblk
  show V m c main_arg0 (((cfg0.win 0).blk t).view.emb (ix3 0 r f)) = V m c main_arg0 _
  refine congrArg _ ?_
  funext a; apply Fin.ext
  match a with
  | ⟨0, _⟩ => show win0_0.index t (0 : Fin 3) * 1 + 1 * 0 = t.val / 4; omega
  | ⟨1, _⟩ => show win0_0.index t (1 : Fin 3) * 512 + 1 * r.val = t.val % 4 * 512 + r.val; omega
  | ⟨2, _⟩ => show win0_0.index t (2 : Fin 3) * 2048 + 1 * f.val = f.val; omega

/-- The array window 1 reads is the second argument with its first two axes swapped. -/
theorem V_main_v0 (c : Dev nD) :
    (V m c main_v0 : S32x1x1024.Idx → EReal)
      = transpose S32x1x1024 [1, 0, 2] (m ((c : Thread nD τ).loc main_arg1)) Facts₀.transposes_S1x32x1024_S32x1x1024_1_0_2 := by
  show StableHlo.after hostOps0 (fun b => m (c, b)) (Proc.devRef .tc main_v0) = _
  after_results

/-- The array window 2 reads is the third argument, its format narrowed: on the extended reals, the same entries. -/
theorem V_main_v1 (c : Dev nD) :
    (V m c main_v1 : S2048x1024.Idx → EReal)
      = truncf (F := Ideal) .bf16 (m ((c : Thread nD τ).loc main_arg2)) Facts₀.bitsLt_bf16_f32 := by
  show StableHlo.after hostOps0 (fun b => m (c, b)) (Proc.devRef .tc main_v1) = _
  after_results

/-- The array window 4 reads is the fifth argument, its format narrowed: on the extended reals, the same entries. -/
theorem V_main_v2 (c : Dev nD) :
    (V m c main_v2 : S2048x1024.Idx → EReal)
      = truncf (F := Ideal) .bf16 (m ((c : Thread nD τ).loc main_arg4)) Facts₀.bitsLt_bf16_f32 := by
  show StableHlo.after hostOps0 (fun b => m (c, b)) (Proc.devRef .tc main_v2) = _
  after_results

/-- Window 1's block at point t is the query row of batch t / 4. -/
theorem blk1 (c : Dev nD) (t : Fin cfg0.N) (h : Fin 1024) :
    (iblk m c 1 t : Vec Ideal S1x1x1024 .f32) (ix3 0 0 h)
      = m ((c : Thread nD τ).loc main_arg1) (ix3 0 ⟨t.val / 4, batch_lt t⟩ h) := by
  obtain ⟨-, -, -, e0, e1, e2, -⟩ := idx_facts t
  unfold iblk
  show V m c main_v0 (((cfg0.win 1).blk t).view.emb (ix3 0 0 h)) = _
  rw [V_main_v0]
  refine (transpose_apply _ _ _ _ (ix3 0 ⟨t.val / 4, batch_lt t⟩ h) ?_)
  intro b
  match b with
  | ⟨0, _⟩ => show t.val / 4 = win0_1.index t (0 : Fin 3) * 1 + 1 * 0; omega
  | ⟨1, _⟩ => show 0 = win0_1.index t (1 : Fin 3) * 1 + 1 * 0; omega
  | ⟨2, _⟩ => show h.val = win0_1.index t (2 : Fin 3) * 1024 + 1 * h.val; omega

/-- Window 2's block at every point is the whole third argument. -/
theorem blk2 (c : Dev nD) (t : Fin cfg0.N) (f : Fin 2048) (h : Fin 1024) :
    (iblk m c 2 t : Vec Ideal S2048x1024 .bf16) (ix2 f h) = m ((c : Thread nD τ).loc main_arg2) (ix2 f h) := by
  obtain ⟨-, -, -, -, -, -, e0, e1, -⟩ := idx_facts t
  unfold iblk
  show V m c main_v1 (((cfg0.win 2).blk t).view.emb (ix2 f h)) = _
  rw [V_main_v1, truncf_apply]
  refine congrArg _ ?_
  funext a; apply Fin.ext
  match a with
  | ⟨0, _⟩ => show win0_2.index t (0 : Fin 2) * 2048 + 1 * f.val = f.val; omega
  | ⟨1, _⟩ => show win0_2.index t (1 : Fin 2) * 1024 + 1 * h.val = h.val; omega

/-- Window 3's block at every point is the whole fourth argument. -/
theorem blk3 (c : Dev nD) (t : Fin cfg0.N) (h : Fin 1024) :
    (iblk m c 3 t : Vec Ideal S1024 .f32) (ix1 h) = m ((c : Thread nD τ).loc main_arg3) (ix1 h) := by
  obtain ⟨-, -, -, -, -, -, -, -, e0, -⟩ := idx_facts t
  rw [← V_main_arg3 m c]
  unfold iblk
  show V m c main_arg3 (((cfg0.win 3).blk t).view.emb (ix1 h)) = V m c main_arg3 _
  refine congrArg _ ?_
  funext a; apply Fin.ext
  match a with
  | ⟨0, _⟩ => show win0_3.index t (0 : Fin 1) * 1024 + 1 * h.val = h.val; omega

/-- Window 4's block at every point is the whole fifth argument. -/
theorem blk4 (c : Dev nD) (t : Fin cfg0.N) (f : Fin 2048) (h : Fin 1024) :
    (iblk m c 4 t : Vec Ideal S2048x1024 .bf16) (ix2 f h) = m ((c : Thread nD τ).loc main_arg4) (ix2 f h) := by
  obtain ⟨-, -, -, -, -, -, -, -, -, e0, e1, -⟩ := idx_facts t
  unfold iblk
  show V m c main_v2 (((cfg0.win 4).blk t).view.emb (ix2 f h)) = _
  rw [V_main_v2, truncf_apply]
  refine congrArg _ ?_
  funext a; apply Fin.ext
  match a with
  | ⟨0, _⟩ => show win0_4.index t (0 : Fin 2) * 2048 + 1 * f.val = f.val; omega
  | ⟨1, _⟩ => show win0_4.index t (1 : Fin 2) * 1024 + 1 * h.val = h.val; omega

/-- Window 5's block at every point is the whole sixth argument. -/
theorem blk5 (c : Dev nD) (t : Fin cfg0.N) (h : Fin 1024) :
    (iblk m c 5 t : Vec Ideal S1024 .f32) (ix1 h) = m ((c : Thread nD τ).loc main_arg5) (ix1 h) := by
  obtain ⟨-, -, -, -, -, -, -, -, -, -, -, e0⟩ := idx_facts t
  rw [← V_main_arg5 m c]
  unfold iblk
  show V m c main_arg5 (((cfg0.win 5).blk t).view.emb (ix1 h)) = V m c main_arg5 _
  refine congrArg _ ?_
  funext a; apply Fin.ext
  match a with
  | ⟨0, _⟩ => show win0_5.index t (0 : Fin 1) * 1024 + 1 * h.val = h.val; omega

/-! ## The outputs -/

/-- The output windows' index maps over the grid: windows 6 and 7 move with the batch on axis 0 and stay at block 0
    on the other two axes. -/
theorem idx_facts_out : ∀ t : Fin cfg0.N,
    win0_6.index t (0 : Fin 3) = t.val / 4 ∧ win0_6.index t (1 : Fin 3) = 0 ∧ win0_6.index t (2 : Fin 3) = 0
    ∧ win0_7.index t (0 : Fin 3) = t.val / 4 ∧ win0_7.index t (1 : Fin 3) = 0 ∧ win0_7.index t (2 : Fin 3) = 0 :=
  (by decide +kernel : ∀ t : Fin grid0.N, _)

/-- An index of window 6's array is in point t's block iff each coordinate is in the block's range on its axis. -/
theorem mem_blk6 (t : Fin cfg0.N) (i : S32x1x1024.Idx) :
    i ∈ ((cfg0.win 6).blk t).view.set ↔ ∀ a : Fin 3, win0_6.index t a * S1x1x1024.size a ≤ (i a).val
      ∧ (i a).val < win0_6.index t a * S1x1x1024.size a + S1x1x1024.size a := by
  show i ∈ ((View.whole main_v3_0).slice (win0_6.rect t)).set ↔ _
  rw [View.set_slice_whole, Rect.mem_set_unit]
  exact Iff.rfl

/-- An index of window 7's array is in point t's block iff each coordinate is in the block's range on its axis. -/
theorem mem_blk7 (t : Fin cfg0.N) (i : S32x1x2048.Idx) :
    i ∈ ((cfg0.win 7).blk t).view.set ↔ ∀ a : Fin 3, win0_7.index t a * S1x1x2048.size a ≤ (i a).val
      ∧ (i a).val < win0_7.index t a * S1x1x2048.size a + S1x1x2048.size a := by
  show i ∈ ((View.whole main_v3_1).slice (win0_7.rect t)).set ↔ _
  rw [View.set_slice_whole, Rect.mem_set_unit]
  exact Iff.rfl

/-- The last tile of batch b is a point of the grid. -/
theorem last_tile_lt (b : Fin 32) : 4 * b.val + 3 < cfg0.N := by
  have := b.isLt; have hN : cfg0.N = 128 := N_0; omega

/-- Window 6's array after the last point, for any proof data: if what the body leaves at each point with t % 4 = 3
    is row (t / 4, 0, ·) of G6, the array ends holding G6. The point that covers batch b is 4·b + 3. -/
theorem final6_of {c : Dev nD} (dat : Dat τ (Elt Ideal) Unit ℕ (UR sig nD τ) ℕ cfg0 c) (G6 : S32x1x1024.Idx → EReal)
    (h6 : ∀ t : Fin cfg0.N, t.val % 4 = 3 → ∀ hh : Fin 1024,
      (dat.after 6 t : Vec Ideal S1x1x1024 .f32) (ix3 0 0 hh) = G6 (ix3 ⟨t.val / 4, batch_lt t⟩ 0 hh)) :
    dat.arrAt 6 cfg0.N = G6 := by
  refine dat.arrAt_eq_of_cover 6 G6 (fun t hf => ?_) (fun i => ?_)
  · have ht : t.val % 4 = 3 := (flush0_6 t).mp hf
    obtain ⟨e0, e1, e2, -⟩ := idx_facts_out t
    show (cfg0.win 6).cut (grid0.coords t) (dat.after 6 t) = _
    funext j
    have hj : j = ix3 (0 : Fin 1) (0 : Fin 1) (j 2) := by
      have h0 : (j 0).val < 1 := (j 0).isLt
      have h1 : (j 1).val < 1 := (j 1).isLt
      funext a; apply Fin.ext
      match a with
      | ⟨0, _⟩ => show (j 0).val = 0; omega
      | ⟨1, _⟩ => show (j 1).val = 0; omega
      | ⟨2, _⟩ => rfl
    rw [hj]
    refine (h6 t ht (j 2)).trans ?_
    show G6 _ = G6 (((cfg0.win 6).blk t).view.emb (ix3 0 0 (j 2)))
    refine congrArg _ ?_
    funext a; apply Fin.ext
    match a with
    | ⟨0, _⟩ => show t.val / 4 = win0_6.index t (0 : Fin 3) * 1 + 1 * 0; omega
    | ⟨1, _⟩ => show 0 = win0_6.index t (1 : Fin 3) * 1 + 1 * 0; omega
    | ⟨2, _⟩ => show (j 2).val = win0_6.index t (2 : Fin 3) * 1024 + 1 * (j 2).val; omega
  · have hi1 : (i 1).val < 1 := (i 1).isLt
    have hi2 : (i 2).val < 1024 := (i 2).isLt
    obtain ⟨e0, e1, e2, -⟩ := idx_facts_out ⟨4 * (i 0).val + 3, last_tile_lt (i 0)⟩
    refine ⟨⟨4 * (i 0).val + 3, last_tile_lt (i 0)⟩, (flush0_6 _).mpr (by show (4 * (i 0).val + 3) % 4 = 3; omega), ?_⟩
    rw [mem_blk6]
    have tv : (⟨4 * (i 0).val + 3, last_tile_lt (i 0)⟩ : Fin cfg0.N).val / 4 = (i 0).val := by
      show (4 * (i 0).val + 3) / 4 = (i 0).val; omega
    intro a
    match a with
    | ⟨0, _⟩ =>
      show win0_6.index ⟨4 * (i 0).val + 3, last_tile_lt (i 0)⟩ (0 : Fin 3) * 1 ≤ (i 0).val
        ∧ (i 0).val < win0_6.index ⟨4 * (i 0).val + 3, last_tile_lt (i 0)⟩ (0 : Fin 3) * 1 + 1
      omega
    | ⟨1, _⟩ =>
      show win0_6.index ⟨4 * (i 0).val + 3, last_tile_lt (i 0)⟩ (1 : Fin 3) * 1 ≤ (i 1).val
        ∧ (i 1).val < win0_6.index ⟨4 * (i 0).val + 3, last_tile_lt (i 0)⟩ (1 : Fin 3) * 1 + 1
      omega
    | ⟨2, _⟩ =>
      show win0_6.index ⟨4 * (i 0).val + 3, last_tile_lt (i 0)⟩ (2 : Fin 3) * 1024 ≤ (i 2).val
        ∧ (i 2).val < win0_6.index ⟨4 * (i 0).val + 3, last_tile_lt (i 0)⟩ (2 : Fin 3) * 1024 + 1024
      omega

/-- Window 7's array after the last point, for any proof data: if what the body leaves at each point with t % 4 = 3
    is row (t / 4, 0, ·) of G7, the array ends holding G7. -/
theorem final7_of {c : Dev nD} (dat : Dat τ (Elt Ideal) Unit ℕ (UR sig nD τ) ℕ cfg0 c) (G7 : S32x1x2048.Idx → EReal)
    (h7 : ∀ t : Fin cfg0.N, t.val % 4 = 3 → ∀ s : Fin 2048,
      (dat.after 7 t : Vec Ideal S1x1x2048 .f32) (ix3 0 0 s) = G7 (ix3 ⟨t.val / 4, batch_lt t⟩ 0 s)) :
    dat.arrAt 7 cfg0.N = G7 := by
  refine dat.arrAt_eq_of_cover 7 G7 (fun t hf => ?_) (fun i => ?_)
  · have ht : t.val % 4 = 3 := (flush0_7 t).mp hf
    obtain ⟨-, -, -, e0, e1, e2⟩ := idx_facts_out t
    show (cfg0.win 7).cut (grid0.coords t) (dat.after 7 t) = _
    funext j
    have hj : j = ix3 (0 : Fin 1) (0 : Fin 1) (j 2) := by
      have h0 : (j 0).val < 1 := (j 0).isLt
      have h1 : (j 1).val < 1 := (j 1).isLt
      funext a; apply Fin.ext
      match a with
      | ⟨0, _⟩ => show (j 0).val = 0; omega
      | ⟨1, _⟩ => show (j 1).val = 0; omega
      | ⟨2, _⟩ => rfl
    rw [hj]
    refine (h7 t ht (j 2)).trans ?_
    show G7 _ = G7 (((cfg0.win 7).blk t).view.emb (ix3 0 0 (j 2)))
    refine congrArg _ ?_
    funext a; apply Fin.ext
    match a with
    | ⟨0, _⟩ => show t.val / 4 = win0_7.index t (0 : Fin 3) * 1 + 1 * 0; omega
    | ⟨1, _⟩ => show 0 = win0_7.index t (1 : Fin 3) * 1 + 1 * 0; omega
    | ⟨2, _⟩ => show (j 2).val = win0_7.index t (2 : Fin 3) * 2048 + 1 * (j 2).val; omega
  · have hi1 : (i 1).val < 1 := (i 1).isLt
    have hi2 : (i 2).val < 2048 := (i 2).isLt
    obtain ⟨-, -, -, e0, e1, e2⟩ := idx_facts_out ⟨4 * (i 0).val + 3, last_tile_lt (i 0)⟩
    refine ⟨⟨4 * (i 0).val + 3, last_tile_lt (i 0)⟩, (flush0_7 _).mpr (by show (4 * (i 0).val + 3) % 4 = 3; omega), ?_⟩
    rw [mem_blk7]
    have tv : (⟨4 * (i 0).val + 3, last_tile_lt (i 0)⟩ : Fin cfg0.N).val / 4 = (i 0).val := by
      show (4 * (i 0).val + 3) / 4 = (i 0).val; omega
    intro a
    match a with
    | ⟨0, _⟩ =>
      show win0_7.index ⟨4 * (i 0).val + 3, last_tile_lt (i 0)⟩ (0 : Fin 3) * 1 ≤ (i 0).val
        ∧ (i 0).val < win0_7.index ⟨4 * (i 0).val + 3, last_tile_lt (i 0)⟩ (0 : Fin 3) * 1 + 1
      omega
    | ⟨1, _⟩ =>
      show win0_7.index ⟨4 * (i 0).val + 3, last_tile_lt (i 0)⟩ (1 : Fin 3) * 1 ≤ (i 1).val
        ∧ (i 1).val < win0_7.index ⟨4 * (i 0).val + 3, last_tile_lt (i 0)⟩ (1 : Fin 3) * 1 + 1
      omega
    | ⟨2, _⟩ =>
      show win0_7.index ⟨4 * (i 0).val + 3, last_tile_lt (i 0)⟩ (2 : Fin 3) * 2048 ≤ (i 2).val
        ∧ (i 2).val < win0_7.index ⟨4 * (i 0).val + 3, last_tile_lt (i 0)⟩ (2 : Fin 3) * 2048 + 2048
      omega

/-! ## The host's last line -/

/-- After the host's last line the second result buffer holds window 7's array with its last two axes swapped. -/
theorem tail_v4_fun (dats : (p : Fin 1) → (c : Dev nD) → Dat τ (Elt Ideal) Unit ℕ (UR sig nD τ) ℕ (cfgs p) c) (c : Dev nD) :
    (Pipeline.afterTail₀ cfgs dats 0 (V0 m) [hostOps1] c main_v4 : S32x2048x1.Idx → EReal)
      = transpose S32x2048x1 [0, 2, 1] ((dats 0 c).arrAt 7 cfg0.N) Facts₀.transposes_S32x1x2048_S32x2048x1_0_2_1 := by
  unfold Pipeline.afterTail₀
  show StableHlo.after hostOps1 _ (Proc.devRef .tc main_v4) = _
  after_results
  exact congrArg (fun x => transpose S32x2048x1 [0, 2, 1] x Facts₀.transposes_S32x1x2048_S32x2048x1_0_2_1)
    (Pipeline.withArrays_arr spec0 launch0.win.arr_inj c _ _ 7)

/-- Read at an index: entry (b, s, 0) of the second result is entry (b, 0, s) of what window 7's array ends holding. -/
theorem tail_v4 (dats : (p : Fin 1) → (c : Dev nD) → Dat τ (Elt Ideal) Unit ℕ (UR sig nD τ) ℕ (cfgs p) c) (c : Dev nD)
    (G7 : S32x1x2048.Idx → EReal) (h7 : (dats 0 c).arrAt 7 cfg0.N = G7) (b : Fin 32) (s : Fin 2048) :
    (Pipeline.afterTail₀ cfgs dats 0 (V0 m) [hostOps1] c main_v4 : S32x2048x1.Idx → EReal) (ix3 b s 0)
      = G7 (ix3 b 0 s) := by
  rw [tail_v4_fun, h7]
  exact transpose_ix3_021_apply G7 _ b s 0

/-- No host line after the region writes the first result buffer: it ends holding window 6's array. -/
theorem tail_v3_0 (dats : (p : Fin 1) → (c : Dev nD) → Dat τ (Elt Ideal) Unit ℕ (UR sig nD τ) ℕ (cfgs p) c) (c : Dev nD) :
    (Pipeline.afterTail₀ cfgs dats 0 (V0 m) [hostOps1] c main_v3_0 : S32x1x1024.Idx → EReal)
      = (dats 0 c).arrAt 6 cfg0.N := by
  unfold Pipeline.afterTail₀
  rw [StableHlo.after_of_forall_not_mem (b := Proc.devRef .tc main_v3_0) _ _ (List.forall_iff_forall_mem.mp (by
      simp only [hostOps1, List.flatten_cons, List.flatten_nil, List.append_nil, List.cons_append,
        List.nil_append, List.Forall, StableHlo.unary_writes, Finset.mem_singleton]
      exact StableHlo.devRef_ne_of_ne (by decide)))]
  exact Pipeline.withArrays_arr spec0 launch0.win.arr_inj c _ _ 6

end Cert.KernelIdeal.Blocks

end
-- ==== Proof.Pay.lean ====
/-
  The kernel body's arithmetic, one stored or carried value at a time, read at an index over the extended reals.
  Each value is a chain of pointwise operations, layout operations (a change of shape that keeps the row-major
  position, a broadcast of a unit axis), a sum or a maximum along the lane axis, and a matrix product into a zero
  accumulator; read at one index, each link is the operand at one index, a sum over the contracted axis, or a fold of
  max over the reduced axis.
-/
import proofs.«425971_j9947144257895_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## Small readings shared by the values below -/

/-- The exponential of a vector, read at an index. -/
theorem exp_apply {s : Shape} {φ : FTy} (x : FVec Ideal s φ) (i : s.Idx) :
    Idealize.ShloMosaic.exp x i = Ideal.exp (x i) := rfl

/-- The hyperbolic tangent of a vector, read at an index. -/
theorem tanh_apply {s : Shape} {φ : FTy} (x : FVec Ideal s φ) (i : s.Idx) :
    Idealize.ShloMosaic.tanh x i = Ideal.tanh (x i) := rfl

/-- A [1, 1] array broadcast to [1, n] reads its one element everywhere. -/
theorem broadcastTo_11_1n_apply {α : Type} {n : ℕ} (v : (⟨2, ![1, 1]⟩ : Shape).Idx → α)
    (h : (⟨2, ![1, 1]⟩ : Shape).Broadcasts ⟨2, ![1, n]⟩) (u : Fin 1) (c : Fin n) :
    broadcastTo ⟨2, ![1, n]⟩ v h (ix2 u c) = v (ix2 (0 : Fin 1) (0 : Fin 1)) := by
  refine broadcastTo_apply v h (ix2 u c) (ix2 (0 : Fin 1) (0 : Fin 1)) fun ax => ?_
  match ax with
  | ⟨0, _⟩ => rfl
  | ⟨1, _⟩ => rfl

/-- The index over the one reduced index of a [1, 512] row with lane coordinate k is (0, k). -/
theorem lift_lane (h : S1x512.Reduces [1] S1) (j : S1.Idx) (k : Fin 512) : h.lift j k = ix2 (0 : Fin 1) k :=
  funext fun a => Fin.ext (by
    match a with
    | ⟨0, _⟩ =>
      have hj : (j ⟨0, Nat.one_pos⟩).val < 1 := (j ⟨0, Nat.one_pos⟩).isLt
      show (j ⟨0, Nat.one_pos⟩).val = 0
      omega
    | ⟨1, _⟩ => rfl)

/-- The f32 pattern of minus infinity is the bottom of the extended reals. -/
theorem ofBits_neg_inf_f32 : Ideal.ofBits .f32 0xFF800000#32 = (⊥ : EReal) := by simp [Ideal.ofBits, Ideal.ieee]

/-- Two [1, 1024] rows joined along the lane axis: below 1024 the first, from 1024 on the second. -/
theorem concat_apply {α : Type} (A B : S1x1024.Idx → α) (h : Shape.Concatenates [S1x1024, S1x1024] S1x2048 1) (f : Fin 2048) :
    concatenate S1x2048 1 [⟨S1x1024, A⟩, ⟨S1x1024, B⟩] h (ix2 (0 : Fin 1) f)
      = if hf : f.val < 1024 then A (ix2 (0 : Fin 1) ⟨f.val, hf⟩) else B (ix2 (0 : Fin 1) ⟨f.val - 1024, by omega⟩) := by
  split
  · next hf =>
    exact concatenate_pair_apply_left 1 A B h (ix2 (0 : Fin 1) f) rfl (ix2 (0 : Fin 1) ⟨f.val, hf⟩) (fun b => by
      match b with
      | ⟨0, _⟩ => rfl
      | ⟨1, _⟩ => rfl)
  · next hf =>
    exact concatenate_pair_apply_right 1 A B h (ix2 (0 : Fin 1) f) rfl rfl (ix2 (0 : Fin 1) ⟨f.val - 1024, by omega⟩)
      (fun b hb => by
        match b with
        | ⟨0, _⟩ => rfl
        | ⟨1, _⟩ => exact absurd rfl hb)
      (by show f.val - 1024 + 1024 = f.val; omega)

/-! ### The product S512x2048 × S2048x1024 → S512x1024: rows by the contracted axis, the contracted axis by columns -/

theorem lhsA_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhsA_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem rhsA_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem rhsA_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- Into the zero accumulator the product at (r, c) is the sum over k of A (r, k) · B (k, c). -/
theorem mmA_apply {φ₁ φ₂ : FTy} (A : FVec Ideal S512x2048 φ₁) (B : FVec Ideal S2048x1024 φ₂) (r : Fin 512) (c : Fin 1024) :
    matmul dot_S512x2048_S2048x1024_S512x1024_1_0_0_1_n_n none A B (constant S512x1024 .f32 0x00000000#32) (ix2 r c)
      = ∑ k : Fin 2048, A (ix2 r k) * B (ix2 k c) := by
  show FloatOps.matmul dot_S512x2048_S2048x1024_S512x1024_1_0_0_1_n_n none A B (constant S512x1024 .f32 0x00000000#32) (ix2 r c) = _
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 r c) ((contrEquiv1 dot_S512x2048_S2048x1024_S512x1024_1_0_0_1_n_n 2048 rfl rfl).symm k) = ix2 r k := funext fun a => Fin.ext (by
    match a with
    | ⟨0, _⟩ => exact lhsA_0 _ _
    | ⟨1, _⟩ => exact (lhsA_1 _ _).trans hk)
  have er : dot_S512x2048_S2048x1024_S512x1024_1_0_0_1_n_n.rhsIdx (ix2 r c) ((contrEquiv1 dot_S512x2048_S2048x1024_S512x1024_1_0_0_1_n_n 2048 rfl rfl).symm k) = ix2 k c := funext fun a => Fin.ext (by
    match a with
    | ⟨0, _⟩ => exact (rhsA_0 _ _).trans hk
    | ⟨1, _⟩ => exact rhsA_1 _ _)
  rw [el, er]

/-! ### The product S1x1024 × S512x1024 → S1x512: both operands contracted along their second axis -/

theorem lhsB_0 (i : S1x512.Idx) (q : dot_S1x1024_S512x1024_S1x512_1_1_0_0_n_n.contr.Idx) :
    (dot_S1x1024_S512x1024_S1x512_1_1_0_0_n_n.lhsIdx i q 0).val = (i 0).val := by
  unfold DotDims.lhsIdx
  rw [dif_neg (show ¬(0 : Fin S1x1024.rank) ∈ dot_S1x1024_S512x1024_S1x512_1_1_0_0_n_n.lhsBatch by decide), dif_pos (show (0 : Fin S1x1024.rank) ∈ dot_S1x1024_S512x1024_S1x512_1_1_0_0_n_n.lhsNonContracting by decide)]
  rfl
theorem lhsB_1 (i : S1x512.Idx) (q : dot_S1x1024_S512x1024_S1x512_1_1_0_0_n_n.contr.Idx) :
    (dot_S1x1024_S512x1024_S1x512_1_1_0_0_n_n.lhsIdx i q 1).val = (q ⟨0, by decide⟩).val :=
  dot_S1x1024_S512x1024_S1x512_1_1_0_0_n_n.lhsIdx_val_of_single rfl i q
theorem rhsB_0 (i : S1x512.Idx) (q : dot_S1x1024_S512x1024_S1x512_1_1_0_0_n_n.contr.Idx) :
    (dot_S1x1024_S512x1024_S1x512_1_1_0_0_n_n.rhsIdx i q 0).val = (i 1).val := by
  unfold DotDims.rhsIdx
  rw [dif_neg (show ¬(0 : Fin S512x1024.rank) ∈ dot_S1x1024_S512x1024_S1x512_1_1_0_0_n_n.rhsBatch by decide), dif_pos (show (0 : Fin S512x1024.rank) ∈ dot_S1x1024_S512x1024_S1x512_1_1_0_0_n_n.rhsNonContracting by decide)]
  rfl
theorem rhsB_1 (i : S1x512.Idx) (q : dot_S1x1024_S512x1024_S1x512_1_1_0_0_n_n.contr.Idx) :
    (dot_S1x1024_S512x1024_S1x512_1_1_0_0_n_n.rhsIdx i q 1).val = (q ⟨0, by decide⟩).val :=
  dot_S1x1024_S512x1024_S1x512_1_1_0_0_n_n.rhsIdx_val_of_single rfl i q

/-- Into the zero accumulator the product at (u, r) is the sum over k of A (u, k) · B (r, k). -/
theorem mmB_apply {φ₁ φ₂ : FTy} (A : FVec Ideal S1x1024 φ₁) (B : FVec Ideal S512x1024 φ₂) (u : Fin 1) (r : Fin 512) :
    matmul dot_S1x1024_S512x1024_S1x512_1_1_0_0_n_n none A B (constant S1x512 .f32 0x00000000#32) (ix2 u r)
      = ∑ k : Fin 1024, A (ix2 u k) * B (ix2 r k) := by
  show FloatOps.matmul dot_S1x1024_S512x1024_S1x512_1_1_0_0_n_n none A B (constant S1x512 .f32 0x00000000#32) (ix2 u r) = _
  rw [Ideal.matmul_constant_zero_apply, ← Equiv.sum_comp (contrEquiv1 dot_S1x1024_S512x1024_S1x512_1_1_0_0_n_n 1024 rfl rfl).symm]
  refine Finset.sum_congr rfl fun k _ => ?_
  have hk := contrEquiv1_symm_val dot_S1x1024_S512x1024_S1x512_1_1_0_0_n_n 1024 rfl rfl k
  have el : dot_S1x1024_S512x1024_S1x512_1_1_0_0_n_n.lhsIdx (ix2 u r) ((contrEquiv1 dot_S1x1024_S512x1024_S1x512_1_1_0_0_n_n 1024 rfl rfl).symm k) = ix2 u k := funext fun a => Fin.ext (by
    match a with
    | ⟨0, _⟩ => exact lhsB_0 _ _
    | ⟨1, _⟩ => exact (lhsB_1 _ _).trans hk)
  have er : dot_S1x1024_S512x1024_S1x512_1_1_0_0_n_n.rhsIdx (ix2 u r) ((contrEquiv1 dot_S1x1024_S512x1024_S1x512_1_1_0_0_n_n 1024 rfl rfl).symm k) = ix2 r k := funext fun a => Fin.ext (by
    match a with
    | ⟨0, _⟩ => exact rhsB_0 _ _
    | ⟨1, _⟩ => exact (rhsB_1 _ _).trans hk)
  rw [el, er]

/-! ### The product S1x512 × S512x1024 → S1x1024: rows by the contracted axis, the contracted axis by columns -/

theorem lhsC_0 (i : S1x1024.Idx) (q : dot_S1x512_S512x1024_S1x1024_1_0_0_1_n_n.contr.Idx) :
    (dot_S1x512_S512x1024_S1x1024_1_0_0_1_n_n.lhsIdx i q 0).val = (i 0).val := by
  unfold DotDims.lhsIdx
  rw [dif_neg (show ¬(0 : Fin S1x512.rank) ∈ dot_S1x512_S512x1024_S1x1024_1_0_0_1_n_n.lhsBatch by decide), dif_pos (show (0 : Fin S1x512.rank) ∈ dot_S1x512_S512x1024_S1x1024_1_0_0_1_n_n.lhsNonContracting by decide)]
  rfl
theorem lhsC_1 (i : S1x1024.Idx) (q : dot_S1x512_S512x1024_S1x1024_1_0_0_1_n_n.contr.Idx) :
    (dot_S1x512_S512x1024_S1x1024_1_0_0_1_n_n.lhsIdx i q 1).val = (q ⟨0, by decide⟩).val :=
  dot_S1x512_S512x1024_S1x1024_1_0_0_1_n_n.lhsIdx_val_of_single rfl i q
theorem rhsC_0 (i : S1x1024.Idx) (q : dot_S1x512_S512x1024_S1x1024_1_0_0_1_n_n.contr.Idx) :
    (dot_S1x512_S512x1024_S1x1024_1_0_0_1_n_n.rhsIdx i q 0).val = (q ⟨0, by decide⟩).val :=
  dot_S1x512_S512x1024_S1x1024_1_0_0_1_n_n.rhsIdx_val_of_single rfl i q
theorem rhsC_1 (i : S1x1024.Idx) (q : dot_S1x512_S512x1024_S1x1024_1_0_0_1_n_n.contr.Idx) :
    (dot_S1x512_S512x1024_S1x1024_1_0_0_1_n_n.rhsIdx i q 1).val = (i 1).val := by
  unfold DotDims.rhsIdx
  rw [dif_neg (show ¬(1 : Fin S512x1024.rank) ∈ dot_S1x512_S512x1024_S1x1024_1_0_0_1_n_n.rhsBatch by decide), dif_pos (show (1 : Fin S512x1024.rank) ∈ dot_S1x512_S512x1024_S1x1024_1_0_0_1_n_n.rhsNonContracting by decide)]
  rfl

/-- Into the zero accumulator the product at (r, c) is the sum over k of A (r, k) · B (k, c). -/
theorem mmC_apply {φ₁ φ₂ : FTy} (A : FVec Ideal S1x512 φ₁) (B : FVec Ideal S512x1024 φ₂) (r : Fin 1) (c : Fin 1024) :
    matmul dot_S1x512_S512x1024_S1x1024_1_0_0_1_n_n none A B (constant S1x1024 .f32 0x00000000#32) (ix2 r c)
      = ∑ k : Fin 512, A (ix2 r k) * B (ix2 k c) := by
  show FloatOps.matmul dot_S1x512_S512x1024_S1x1024_1_0_0_1_n_n none A B (constant S1x1024 .f32 0x00000000#32) (ix2 r c) = _
  rw [Ideal.matmul_constant_zero_apply, ← Equiv.sum_comp (contrEquiv1 dot_S1x512_S512x1024_S1x1024_1_0_0_1_n_n 512 rfl rfl).symm]
  refine Finset.sum_congr rfl fun k _ => ?_
  have hk := contrEquiv1_symm_val dot_S1x512_S512x1024_S1x1024_1_0_0_1_n_n 512 rfl rfl k
  have el : dot_S1x512_S512x1024_S1x1024_1_0_0_1_n_n.lhsIdx (ix2 r c) ((contrEquiv1 dot_S1x512_S512x1024_S1x1024_1_0_0_1_n_n 512 rfl rfl).symm k) = ix2 r k := funext fun a => Fin.ext (by
    match a with
    | ⟨0, _⟩ => exact lhsC_0 _ _
    | ⟨1, _⟩ => exact (lhsC_1 _ _).trans hk)
  have er : dot_S1x512_S512x1024_S1x1024_1_0_0_1_n_n.rhsIdx (ix2 r c) ((contrEquiv1 dot_S1x512_S512x1024_S1x1024_1_0_0_1_n_n 512 rfl rfl).symm k) = ix2 k c := funext fun a => Fin.ext (by
    match a with
    | ⟨0, _⟩ => exact (rhsC_0 _ _).trans hk
    | ⟨1, _⟩ => exact rhsC_1 _ _)
  rw [el, er]

/-! ### The product S1x2048 × S2048x1024 → S1x1024: rows by the contracted axis, the contracted axis by columns -/

theorem lhsD_0 (i : S1x1024.Idx) (q : dot_S1x2048_S2048x1024_S1x1024_1_0_0_1_n_n.contr.Idx) :
    (dot_S1x2048_S2048x1024_S1x1024_1_0_0_1_n_n.lhsIdx i q 0).val = (i 0).val := by
  unfold DotDims.lhsIdx
  rw [dif_neg (show ¬(0 : Fin S1x2048.rank) ∈ dot_S1x2048_S2048x1024_S1x1024_1_0_0_1_n_n.lhsBatch by decide), dif_pos (show (0 : Fin S1x2048.rank) ∈ dot_S1x2048_S2048x1024_S1x1024_1_0_0_1_n_n.lhsNonContracting by decide)]
  rfl
theorem lhsD_1 (i : S1x1024.Idx) (q : dot_S1x2048_S2048x1024_S1x1024_1_0_0_1_n_n.contr.Idx) :
    (dot_S1x2048_S2048x1024_S1x1024_1_0_0_1_n_n.lhsIdx i q 1).val = (q ⟨0, by decide⟩).val :=
  dot_S1x2048_S2048x1024_S1x1024_1_0_0_1_n_n.lhsIdx_val_of_single rfl i q
theorem rhsD_0 (i : S1x1024.Idx) (q : dot_S1x2048_S2048x1024_S1x1024_1_0_0_1_n_n.contr.Idx) :
    (dot_S1x2048_S2048x1024_S1x1024_1_0_0_1_n_n.rhsIdx i q 0).val = (q ⟨0, by decide⟩).val :=
  dot_S1x2048_S2048x1024_S1x1024_1_0_0_1_n_n.rhsIdx_val_of_single rfl i q
theorem rhsD_1 (i : S1x1024.Idx) (q : dot_S1x2048_S2048x1024_S1x1024_1_0_0_1_n_n.contr.Idx) :
    (dot_S1x2048_S2048x1024_S1x1024_1_0_0_1_n_n.rhsIdx i q 1).val = (i 1).val := by
  unfold DotDims.rhsIdx
  rw [dif_neg (show ¬(1 : Fin S2048x1024.rank) ∈ dot_S1x2048_S2048x1024_S1x1024_1_0_0_1_n_n.rhsBatch by decide), dif_pos (show (1 : Fin S2048x1024.rank) ∈ dot_S1x2048_S2048x1024_S1x1024_1_0_0_1_n_n.rhsNonContracting by decide)]
  rfl

/-- Into the zero accumulator the product at (r, c) is the sum over k of A (r, k) · B (k, c). -/
theorem mmD_apply {φ₁ φ₂ : FTy} (A : FVec Ideal S1x2048 φ₁) (B : FVec Ideal S2048x1024 φ₂) (r : Fin 1) (c : Fin 1024) :
    matmul dot_S1x2048_S2048x1024_S1x1024_1_0_0_1_n_n none A B (constant S1x1024 .f32 0x00000000#32) (ix2 r c)
      = ∑ k : Fin 2048, A (ix2 r k) * B (ix2 k c) := by
  show FloatOps.matmul dot_S1x2048_S2048x1024_S1x1024_1_0_0_1_n_n none A B (constant S1x1024 .f32 0x00000000#32) (ix2 r c) = _
  rw [Ideal.matmul_constant_zero_apply, ← Equiv.sum_comp (contrEquiv1 dot_S1x2048_S2048x1024_S1x1024_1_0_0_1_n_n 2048 rfl rfl).symm]
  refine Finset.sum_congr rfl fun k _ => ?_
  have hk := contrEquiv1_symm_val dot_S1x2048_S2048x1024_S1x1024_1_0_0_1_n_n 2048 rfl rfl k
  have el : dot_S1x2048_S2048x1024_S1x1024_1_0_0_1_n_n.lhsIdx (ix2 r c) ((contrEquiv1 dot_S1x2048_S2048x1024_S1x1024_1_0_0_1_n_n 2048 rfl rfl).symm k) = ix2 r k := funext fun a => Fin.ext (by
    match a with
    | ⟨0, _⟩ => exact lhsD_0 _ _
    | ⟨1, _⟩ => exact (lhsD_1 _ _).trans hk)
  have er : dot_S1x2048_S2048x1024_S1x1024_1_0_0_1_n_n.rhsIdx (ix2 r c) ((contrEquiv1 dot_S1x2048_S2048x1024_S1x1024_1_0_0_1_n_n 2048 rfl rfl).symm k) = ix2 k c := funext fun a => Fin.ext (by
    match a with
    | ⟨0, _⟩ => exact (rhsD_0 _ _).trans hk
    | ⟨1, _⟩ => exact rhsD_1 _ _)
  rw [el, er]

/-! ## The projected rows and their scores -/

theorem pay9_apply (x0 : Vec Ideal S1x512x2048 .f32) (x2 : Vec Ideal S2048x1024 .bf16) (x3 : Vec Ideal S1024 .f32)
    (r : Fin 512) (h : Fin 1024) :
    k0_pay9 (F := Ideal) x0 x2 x3 (ix2 r h) = (∑ f : Fin 2048, x0 (ix3 0 r f) * x2 (ix2 f h)) + x3 (ix1 h) := by
  unfold k0_pay9
  simp only [truncf_apply, addf_apply, mmA_apply, shapeCast_self, shapeCast_1ab_ab_apply, broadcastTo_1b_ab_apply,
    shapeCast_a_1a_apply]

theorem pay10_apply (x0 : Vec Ideal S1x512x2048 .f32) (x2 : Vec Ideal S2048x1024 .bf16) (x3 : Vec Ideal S1024 .f32)
    (x1 : Vec Ideal S1x1x1024 .f32) (r : Fin 512) :
    k0_pay10 (F := Ideal) x0 x2 x3 x1 (ix2 0 r) = ∑ h : Fin 1024, x1 (ix3 0 0 h) * k0_pay9 (F := Ideal) x0 x2 x3 (ix2 r h) := by
  unfold k0_pay10
  simp only [mmB_apply, truncf_apply, shapeCast_1ab_ab_apply]

theorem pay11_eq (x0 : Vec Ideal S1x512x2048 .f32) (x2 : Vec Ideal S2048x1024 .bf16) (x3 : Vec Ideal S1024 .f32)
    (x1 : Vec Ideal S1x1x1024 .f32) :
    k0_pay11 (F := Ideal) x0 x2 x3 x1 = k0_pay10 (F := Ideal) x0 x2 x3 x1 := by
  unfold k0_pay11
  exact shapeCast_self _ _

/-! ## The running maximum, the rescaling factor, the block's exponentials and the rescaled denominator -/

theorem pay12_apply (x0 : Vec Ideal S1x512x2048 .f32) (x2 : Vec Ideal S2048x1024 .bf16) (x3 : Vec Ideal S1024 .f32)
    (x1 : Vec Ideal S1x1x1024 .f32) (v24 : Vec Ideal S1x1 .f32) :
    k0_pay12 (F := Ideal) x0 x2 x3 x1 v24 (ix2 0 0)
      = max (v24 (ix2 0 0)) (Finset.univ.fold max (⊥ : EReal) (fun r : Fin 512 => k0_pay10 (F := Ideal) x0 x2 x3 x1 (ix2 0 r))) := by
  unfold k0_pay12
  simp only [maximumf_apply, shapeCast_a_1a_apply]
  refine congrArg (max (v24 (ix2 0 0))) ?_
  refine (Ideal.multiReduction_maximumf_single (k0_pay10 (F := Ideal) x0 x2 x3 x1) _ _ _ _ (ix1 0)).trans ?_
  have hb : FloatOps.ofBits (F := Ideal) .f32 0xFF800000#32 = (⊥ : EReal) := ofBits_neg_inf_f32
  exact congrArg₂ (fun (b : EReal) (f : Fin 512 → EReal) => Finset.fold max b f (Finset.univ : Finset (Fin 512))) hb
    (funext fun k => congrArg (k0_pay10 (F := Ideal) x0 x2 x3 x1) (lift_lane _ _ k))

theorem pay13_apply (x0 : Vec Ideal S1x512x2048 .f32) (x2 : Vec Ideal S2048x1024 .bf16) (x3 : Vec Ideal S1024 .f32)
    (x1 : Vec Ideal S1x1x1024 .f32) (v24 : Vec Ideal S1x1 .f32) :
    k0_pay13 (F := Ideal) x0 x2 x3 x1 v24 (ix2 0 0)
      = Ideal.exp (v24 (ix2 0 0) - k0_pay12 (F := Ideal) x0 x2 x3 x1 v24 (ix2 0 0)) := by
  unfold k0_pay13
  simp only [exp_apply, subf_apply]

theorem pay14_apply (x0 : Vec Ideal S1x512x2048 .f32) (x2 : Vec Ideal S2048x1024 .bf16) (x3 : Vec Ideal S1024 .f32)
    (x1 : Vec Ideal S1x1x1024 .f32) (v24 : Vec Ideal S1x1 .f32) (r : Fin 512) :
    k0_pay14 (F := Ideal) x0 x2 x3 x1 v24 (ix2 0 r)
      = Ideal.exp (k0_pay10 (F := Ideal) x0 x2 x3 x1 (ix2 0 r) - k0_pay12 (F := Ideal) x0 x2 x3 x1 v24 (ix2 0 0)) := by
  unfold k0_pay14
  simp only [exp_apply, subf_apply, broadcastTo_11_1n_apply]

theorem pay15_apply (x0 : Vec Ideal S1x512x2048 .f32) (x2 : Vec Ideal S2048x1024 .bf16) (x3 : Vec Ideal S1024 .f32)
    (x1 : Vec Ideal S1x1x1024 .f32) (v24 : Vec Ideal S1x1 .f32) (v33 : Vec Ideal S1x1 .f32) :
    k0_pay15 (F := Ideal) x0 x2 x3 x1 v24 v33 (ix2 0 0)
      = k0_pay13 (F := Ideal) x0 x2 x3 x1 v24 (ix2 0 0) * v33 (ix2 0 0) := by
  unfold k0_pay15
  simp only [mulf_apply]

/-! ## The carried denominator and weighted sum after the block -/

theorem pay1_apply (v32 : FVec Ideal S1x512 .f32) (v34 : FVec Ideal S1x1 .f32) :
    k0_pay1 (F := Ideal) v32 v34 (ix2 0 0) = v34 (ix2 0 0) + ∑ r : Fin 512, v32 (ix2 0 r) := by
  unfold k0_pay1
  simp only [shapeCast_self, addf_apply, shapeCast_a_1a_apply]
  refine congrArg (v34 (ix2 0 0) + ·) ?_
  refine (Ideal.multiReduction_add_single v32 _ _ _ _ (ix1 0)).trans ?_
  exact Finset.sum_congr rfl fun k _ => congrArg v32 (lift_lane _ _ k)

theorem pay2_apply (v13 : FVec Ideal S512x1024 .bf16) (v29 : FVec Ideal S1x1 .f32) (v32 : FVec Ideal S1x512 .f32)
    (v43 : Vec Ideal S1x1024 .f32) (h : Fin 1024) :
    k0_pay2 (F := Ideal) v13 v29 v32 v43 (ix2 0 h)
      = v29 (ix2 0 0) * v43 (ix2 0 h) + ∑ r : Fin 512, v32 (ix2 0 r) * v13 (ix2 r h) := by
  unfold k0_pay2
  simp only [shapeCast_self, addf_apply, mulf_apply, mmC_apply, truncf_apply, broadcastTo_11_1n_apply]

theorem pay3_eq (v27 : FVec Ideal S1x1 .f32) : k0_pay3 (F := Ideal) v27 = v27 := by
  unfold k0_pay3
  exact shapeCast_self _ _

/-! ## The last step's results: the attention weights and the output row -/

theorem pay4_apply (v58 v59 : Vec Ideal S1x1 .f32) (v60 : Vec Ideal S1x2048 .f32) (j : Fin 2048) :
    k0_pay4 (F := Ideal) v58 v59 v60 (ix3 0 0 j)
      = Ideal.div (Ideal.exp (v60 (ix2 0 j) - v58 (ix2 0 0))) (v59 (ix2 0 0)) := by
  unfold k0_pay4
  simp only [shapeCast_ab_1ab_apply, divf_apply, exp_apply, subf_apply, broadcastTo_11_1n_apply]

theorem pay5_apply (v56 : Vec Ideal S1x1x1024 .f32) (v59 : Vec Ideal S1x1 .f32) (v69 : Vec Ideal S1x1024 .f32)
    (v74 : Vec Ideal S2048x1024 .bf16) (v77 : Vec Ideal S1024 .f32) (h : Fin 1024) :
    k0_pay5 (F := Ideal) v56 v59 v69 v74 v77 (ix3 0 0 h)
      = Ideal.tanh ((∑ f : Fin 2048, (if hf : f.val < 1024 then Ideal.div (v69 (ix2 0 ⟨f.val, hf⟩)) (v59 (ix2 0 0))
            else v56 (ix3 0 0 ⟨f.val - 1024, by omega⟩)) * v74 (ix2 f h)) + v77 (ix1 h)) := by
  unfold k0_pay5
  simp only [shapeCast_ab_1ab_apply, tanh_apply, addf_apply, mmD_apply, truncf_apply, shapeCast_self,
    shapeCast_a_1a_apply, concat_apply, divf_apply, broadcastTo_11_1n_apply, shapeCast_1ab_ab_apply]

/-! ## The first step's initial values -/

theorem pay6_apply : k0_pay6 (F := Ideal) (ix2 0 0) = (⊥ : EReal) := by
  unfold k0_pay6
  rw [shapeCast_self]
  exact ofBits_neg_inf_f32

theorem pay7_apply : k0_pay7 (F := Ideal) (ix2 0 0) = 0 := by
  unfold k0_pay7
  rw [shapeCast_self]
  exact Ideal.ofBits_zero_f32

theorem pay8_apply (h : Fin 1024) : k0_pay8 (F := Ideal) (ix2 0 h) = 0 := by
  unfold k0_pay8
  rw [shapeCast_self]
  exact Ideal.ofBits_zero_f32

end Cert.KernelIdeal.Pay

end
-- ==== Proof.Spec.lean ====
/-
  Single-query attention with a learned projection, as both programs compute it over the extended reals.

  For batch b the encoder rows E[b, s, ·] are projected to proj b s h = Σ_f E[b,s,f] · We[f,h] + be[h]; the row's
  score against the one decoder query is score b s = Σ_h proj b s h · D[0,b,h]; the attention weights are the softmax of
  the scores along s (maximum folded from -∞ and met once more with -∞, the exponentials divided by 0 + their sum, the form a host program
  gives them); the context is ctx b h = Σ_s attn b s · proj b s h; the result is tanh of the context joined with the query, times Wc, plus bc.
-/
import Idealize.ShloMosaic.PureOps.Ideal
import Idealize.ShloMosaic.Lib.ValueIdx

noncomputable section

namespace Cert.Attn

open Idealize.ShloMosaic Idealize.ShloMosaic.ValueIdx

/-- The encoder outputs, f32[32, 2048, 2048], as extended reals. -/
abbrev EncT := (⟨3, ![32, 2048, 2048]⟩ : Shape).Idx → EReal
/-- The decoder query, f32[1, 32, 1024]. -/
abbrev DecT := (⟨3, ![1, 32, 1024]⟩ : Shape).Idx → EReal
/-- A weight matrix, f32[2048, 1024]. -/
abbrev MatT := (⟨2, ![2048, 1024]⟩ : Shape).Idx → EReal
/-- A bias, f32[1024]. -/
abbrev BiasT := (⟨1, ![1024]⟩ : Shape).Idx → EReal

section
variable (E : EncT) (D : DecT) (We : MatT) (be : BiasT) (Wc : MatT) (bc : BiasT)

/-- The projected encoder row: Σ_f E[b,s,f] · We[f,h] + be[h]. -/
def proj (b : Fin 32) (s : Fin 2048) (h : Fin 1024) : EReal :=
  (∑ f : Fin 2048, E (ix3 b s f) * We (ix2 f h)) + be (ix1 h)

/-- The score of row s against batch b's query: Σ_h proj b s h · D[0,b,h]. -/
def score (b : Fin 32) (s : Fin 2048) : EReal :=
  ∑ h : Fin 1024, proj E We be b s h * D (ix3 0 b h)

/-- The largest score of batch b, folded from -∞ and met with -∞ once more. -/
def rowmax (b : Fin 32) : EReal :=
  max ⊥ (Finset.univ.fold max (⊥ : EReal) (fun s : Fin 2048 => score E D We be b s))

/-- exp (score - rowmax). -/
def expo (b : Fin 32) (s : Fin 2048) : EReal :=
  Ideal.exp (score E D We be b s - rowmax E D We be b)

/-- The softmax's denominator, 0 + Σ_s expo. -/
def den (b : Fin 32) : EReal := (0 : EReal) + ∑ s : Fin 2048, expo E D We be b s

/-- The attention weight of row s. -/
def attn (b : Fin 32) (s : Fin 2048) : EReal :=
  Ideal.div (expo E D We be b s) (den E D We be b)

/-- The context: Σ_s attn b s · proj b s h. -/
def ctx (b : Fin 32) (h : Fin 1024) : EReal :=
  ∑ s : Fin 2048, attn E D We be b s * proj E We be b s h

/-- The context joined with the query along the feature axis: 1024 context entries, then the 1024 query entries. -/
def comb (b : Fin 32) (f : Fin 2048) : EReal :=
  if h : f.val < 1024 then ctx E D We be b ⟨f.val, h⟩ else D (ix3 0 b ⟨f.val - 1024, by omega⟩)

/-- The result: tanh (Σ_f comb b f · Wc[f,h] + bc[h]). -/
def out (b : Fin 32) (h : Fin 1024) : EReal :=
  Ideal.tanh ((∑ f : Fin 2048, comb E D We be b f * Wc (ix2 f h)) + bc (ix1 h))

/-- The first result array, f32[32, 1, 1024]. -/
def Gout : (⟨3, ![32, 1, 1024]⟩ : Shape).Idx → EReal :=
  fun i => out E D We be Wc bc ⟨(i 0).val, (i 0).isLt⟩ ⟨(i 2).val, (i 2).isLt⟩

/-- The second result array, the attention weights f32[32, 2048, 1]. -/
def Gattn : (⟨3, ![32, 2048, 1]⟩ : Shape).Idx → EReal :=
  fun i => attn E D We be ⟨(i 0).val, (i 0).isLt⟩ ⟨(i 1).val, (i 1).isLt⟩

theorem Gout_ix3 (b : Fin 32) (q : Fin 1) (h : Fin 1024) :
    Gout E D We be Wc bc (ix3 b q h) = out E D We be Wc bc b h := rfl

theorem Gattn_ix3 (b : Fin 32) (s : Fin 2048) (q : Fin 1) :
    Gattn E D We be (ix3 b s q) = attn E D We be b s := rfl

end

end Cert.Attn

end
-- ==== Proof.LibOnlineSoftmax.lean ====
/-
  The online softmax against the plain one, over the extended reals.

  A row of real logits is cut into n blocks of B columns. The online softmax walks the blocks keeping the
  running maximum m and the running sum l of the exponentials relative to it; a new block with maximum m₀ moves
  the state to (max m m₀, exp (m - max m m₀) · l + Σ_q exp (s q - max m m₀)). The state before the first block is
  (-∞, 0). After the last block the state is (M, Σ exp (s - M)) with M the maximum of the whole row, so
  m + log l is the row's log-sum-exp, and the cross-entropy term read off it equals the one read off the
  plain log-softmax over all n · B columns.
-/
import Idealize.ShloMosaic.PureOps.Ideal
import Mathlib.Data.Finset.Fold
import Mathlib.Algebra.BigOperators.Fin
import Mathlib.Logic.Equiv.Fin.Basic
import Mathlib.Analysis.SpecialFunctions.Log.Basic
import Mathlib.Analysis.SpecialFunctions.Exp

noncomputable section

namespace OnlineSoftmax

open Idealize.ShloMosaic

/-! ### Coercion facts -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the binary maximum. -/
theorem coe_max (x y : ℝ) : ((max x y : ℝ) : EReal) = max (x : EReal) (y : EReal) :=
  EReal.coe_strictMono.monotone.map_max

/-- The maximum of a nonempty finite family of reals, folded from -∞ in the extended reals, is the real
    maximum of the family: it bounds the family, is attained, and is the fold's value. -/
theorem fold_max_real {N : ℕ} (hN : 0 < N) (f : Fin N → ℝ) :
    ∃ M : ℝ, (∀ j, f j ≤ M) ∧ (∃ j, f j = M) ∧
      Finset.univ.fold max (⊥ : EReal) (fun j => ((f j : ℝ) : EReal)) = (M : EReal) := by
  obtain ⟨j0, -, hj0⟩ := Finset.exists_max_image Finset.univ f ⟨⟨0, hN⟩, Finset.mem_univ _⟩
  refine ⟨f j0, fun j => hj0 j (Finset.mem_univ j), ⟨j0, rfl⟩, le_antisymm ?_ ?_⟩
  · rw [Finset.fold_max_le]
    exact ⟨bot_le, fun x _ => EReal.coe_le_coe_iff.mpr (hj0 x (Finset.mem_univ x))⟩
  · rw [Finset.le_fold_max]
    exact Or.inr ⟨j0, Finset.mem_univ _, le_rfl⟩

/-! ### The online softmax's state -/

/-- One step of the online softmax: the state (m, l) — the running maximum and the running sum of the
    exponentials relative to it — meets a block of B columns. The new maximum m' is the larger of m and the
    block's maximum; the old sum is rescaled by exp (m - m') and the block's exponentials relative to m' are
    added. -/
def upd {B : ℕ} (row : Fin B → EReal) (ml : EReal × EReal) : EReal × EReal :=
  let m' := max ml.1 (Finset.univ.fold max (⊥ : EReal) row)
  (m', Ideal.exp (ml.1 - m') * ml.2 + ∑ q, Ideal.exp (row q - m'))

/-- The online softmax's state after the first k blocks of the row s; before the first block it is
    (-∞, 0). -/
def acc {B : ℕ} (s : ℕ → Fin B → EReal) : ℕ → EReal × EReal
  | 0 => (⊥, 0)
  | k + 1 => upd (s k) (acc s k)

/-- The new running maximum of a step. -/
theorem upd_fst {B : ℕ} (row : Fin B → EReal) (ml : EReal × EReal) :
    (upd row ml).1 = max ml.1 (Finset.univ.fold max (⊥ : EReal) row) := rfl

/-- The new running sum of a step. -/
theorem upd_snd {B : ℕ} (row : Fin B → EReal) (ml : EReal × EReal) :
    (upd row ml).2 = Ideal.exp (ml.1 - (upd row ml).1) * ml.2 + ∑ q, Ideal.exp (row q - (upd row ml).1) := rfl

/-- The state before the first block. -/
theorem acc_zero {B : ℕ} (s : ℕ → Fin B → EReal) : acc s 0 = (⊥, 0) := rfl

/-- The state after one more block. -/
theorem acc_succ {B : ℕ} (s : ℕ → Fin B → EReal) (k : ℕ) : acc s (k + 1) = upd (s k) (acc s k) := rfl

/-- The exponentials of a real block relative to a real maximum sum to a real. -/
theorem sum_exp_coe {B : ℕ} (row : Fin B → ℝ) (M : ℝ) :
    ∑ q, Ideal.exp (((row q : ℝ) : EReal) - (M : EReal)) = ((∑ q, Real.exp (row q - M) : ℝ) : EReal) := by
  rw [coe_sum]
  refine Finset.sum_congr rfl fun q _ => ?_
  rw [← EReal.coe_sub, Ideal.exp_coe]

/-- After k ≥ 1 blocks of real logits the state is real: the running maximum is the maximum M of the logits
    seen so far (it bounds them and is attained) and the running sum is Σ exp (s - M) over them. -/
theorem acc_real {B : ℕ} (hB : 0 < B) (s : ℕ → Fin B → ℝ) (k : ℕ) (hk : 0 < k) :
    ∃ M : ℝ, (∀ j, j < k → ∀ q, s j q ≤ M) ∧ (∃ j, j < k ∧ ∃ q, s j q = M) ∧
      (acc (fun j q => ((s j q : ℝ) : EReal)) k).1 = (M : EReal) ∧
      (acc (fun j q => ((s j q : ℝ) : EReal)) k).2
        = ((∑ j ∈ Finset.range k, ∑ q, Real.exp (s j q - M) : ℝ) : EReal) := by
  obtain ⟨k, rfl⟩ : ∃ k', k = k' + 1 := ⟨k - 1, by omega⟩
  clear hk
  induction k with
  | zero =>
    obtain ⟨M, hle, ⟨q0, hq0⟩, hM⟩ := fold_max_real hB (s 0)
    have h1 : (acc (fun j q => ((s j q : ℝ) : EReal)) (0 + 1)).1 = (M : EReal) := by
      rw [acc_succ, upd_fst, acc_zero, hM]; exact max_eq_right bot_le
    refine ⟨M, ?_, ⟨0, Nat.zero_lt_one, q0, hq0⟩, h1, ?_⟩
    · intro j hj q
      obtain rfl : j = 0 := by omega
      exact hle q
    · have hu : (upd (fun q => ((s 0 q : ℝ) : EReal)) (acc (fun j q => ((s j q : ℝ) : EReal)) 0)).1
          = (M : EReal) := h1
      rw [acc_succ, upd_snd, hu, acc_zero, mul_zero, zero_add, sum_exp_coe, Finset.sum_range_one]
  | succ k ih =>
    obtain ⟨M, hle, ⟨j1, hj1, q1, hq1⟩, h1, h2⟩ := ih
    obtain ⟨Mk, hlek, ⟨q0, hq0⟩, hMk⟩ := fold_max_real hB (s (k + 1))
    have h1' : (acc (fun j q => ((s j q : ℝ) : EReal)) (k + 1 + 1)).1 = ((max M Mk : ℝ) : EReal) := by
      rw [acc_succ, upd_fst, h1, hMk, coe_max]
    refine ⟨max M Mk, ?_, ?_, h1', ?_⟩
    · intro j hj q
      rcases Nat.lt_succ_iff_lt_or_eq.mp hj with h | rfl
      · exact le_trans (hle j h q) (le_max_left _ _)
      · exact le_trans (hlek q) (le_max_right _ _)
    · rcases le_total M Mk with h | h
      · exact ⟨k + 1, Nat.lt_succ_self _, q0, by rw [hq0, max_eq_right h]⟩
      · exact ⟨j1, Nat.lt_succ_of_lt hj1, q1, by rw [hq1, max_eq_left h]⟩
    · have hu : (upd (fun q => ((s (k + 1) q : ℝ) : EReal))
          (acc (fun j q => ((s j q : ℝ) : EReal)) (k + 1))).1 = ((max M Mk : ℝ) : EReal) := h1'
      rw [acc_succ, upd_snd, hu, h1, h2, sum_exp_coe, ← EReal.coe_sub, Ideal.exp_coe,
        ← EReal.coe_mul, ← EReal.coe_add, Finset.sum_range_succ _ (k + 1), Finset.mul_sum]
      congr 2
      refine Finset.sum_congr rfl fun j _ => ?_
      rw [Finset.mul_sum]
      refine Finset.sum_congr rfl fun q _ => ?_
      rw [← Real.exp_add]
      congr 1
      ring

/-! ### The blocks of a row -/

/-- Column q of block j lies in the row: j · B + q < n · B for j < n. -/
theorem blk_lt {n B j : ℕ} (h : j < n) (q : Fin B) : j * B + q.val < n * B :=
  calc j * B + q.val < j * B + B := Nat.add_lt_add_left q.isLt _
    _ = (j + 1) * B := (Nat.succ_mul j B).symm
    _ ≤ n * B := Nat.mul_le_mul_right B h

/-- A sum over the n · B columns of a row is the sum over its n blocks of the sums over each block's B
    columns, column q of block j being column j · B + q. -/
theorem sum_blocks {n B : ℕ} (g : Fin (n * B) → ℝ) :
    ∑ j : Fin n, ∑ q : Fin B, g ⟨j.val * B + q.val, blk_lt j.isLt q⟩ = ∑ c : Fin (n * B), g c := by
  rw [← Fintype.sum_prod_type'
    (f := fun (j : Fin n) (q : Fin B) => g ⟨j.val * B + q.val, blk_lt j.isLt q⟩)]
  refine Fintype.sum_equiv finProdFinEquiv _ _ fun p => ?_
  congr 1
  apply Fin.ext
  simp [finProdFinEquiv, mul_comm, add_comm]

/-- The same with the blocks counted by a natural number below n and the row's columns read through a
    function F: the block-wise double sum of F over the row is the sum of F over all n · B columns. -/
theorem sum_range_blocks {n B : ℕ} (sf : Fin (n * B) → ℝ) (F : ℝ → ℝ) :
    ∑ j ∈ Finset.range n, ∑ q : Fin B, F (if h : j < n then sf ⟨j * B + q.val, blk_lt h q⟩ else 0)
      = ∑ c : Fin (n * B), F (sf c) := by
  rw [← sum_blocks (fun c => F (sf c)), ← Fin.sum_univ_eq_sum_range
    (fun j => ∑ q : Fin B, F (if h : j < n then sf ⟨j * B + q.val, blk_lt h q⟩ else 0)) n]
  refine Finset.sum_congr rfl fun j _ => Finset.sum_congr rfl fun q _ => ?_
  rw [dif_pos j.isLt]

/-! ### The cross-entropy term of a row -/

/-- The online softmax's final state over the n blocks of a row of n · B real logits sf (column q of block j
    is column j · B + q): the running maximum is the row's maximum M — it bounds the row, is attained, and is
    the value of the row's fold from -∞ — and the running sum is Σ_c exp (sf c - M) over all the columns. -/
theorem acc_row {n B : ℕ} (hn : 0 < n) (hB : 0 < B) (sf : Fin (n * B) → ℝ) :
    ∃ M : ℝ, (∀ c, sf c ≤ M) ∧ (∃ c, sf c = M) ∧
      Finset.univ.fold max (⊥ : EReal) (fun j => ((sf j : ℝ) : EReal)) = (M : EReal) ∧
      (acc (fun j (q : Fin B) =>
        (((if h : j < n then sf ⟨j * B + q.val, blk_lt h q⟩ else 0 : ℝ)) : EReal)) n).1 = (M : EReal) ∧
      (acc (fun j (q : Fin B) =>
        (((if h : j < n then sf ⟨j * B + q.val, blk_lt h q⟩ else 0 : ℝ)) : EReal)) n).2
          = ((∑ c, Real.exp (sf c - M) : ℝ) : EReal) := by
  obtain ⟨M, hMle, ⟨jM, hjM, qM, hqM⟩, ha1, ha2⟩ :=
    acc_real hB (fun j q => if h : j < n then sf ⟨j * B + q.val, blk_lt h q⟩ else 0) n hn
  obtain ⟨M', hM'le, ⟨c0, hc0⟩, hM'⟩ := fold_max_real (Nat.mul_pos hn hB) sf
  -- the blocks' maximum is the row's maximum
  have hMM : M' = M := by
    apply le_antisymm
    · rw [← hc0]
      have hdiv : c0.val / B < n := Nat.div_lt_of_lt_mul (lt_of_lt_of_eq c0.isLt (Nat.mul_comm n B))
      have hb : (if h : c0.val / B < n then
          sf ⟨c0.val / B * B + c0.val % B, blk_lt h ⟨c0.val % B, Nat.mod_lt _ hB⟩⟩ else 0) ≤ M :=
        hMle (c0.val / B) hdiv ⟨c0.val % B, Nat.mod_lt _ hB⟩
      rw [dif_pos hdiv] at hb
      have hc : (⟨c0.val / B * B + c0.val % B, blk_lt hdiv ⟨c0.val % B, Nat.mod_lt _ hB⟩⟩ : Fin (n * B))
          = c0 := Fin.ext (Nat.div_add_mod' _ _)
      rw [hc] at hb
      exact hb
    · rw [← hqM]
      show (if h : jM < n then sf ⟨jM * B + qM.val, blk_lt h qM⟩ else 0) ≤ M'
      rw [dif_pos hjM]
      exact hM'le _
  subst hMM
  refine ⟨M', hM'le, ⟨c0, hc0⟩, hM', ha1, ?_⟩
  -- the blocks' sum of exponentials is the row's
  rw [ha2, sum_range_blocks sf (fun x => Real.exp (x - M'))]

/-- The cross-entropy term of one row of n · B real logits sf with label weight lab at column i. On the left
    the row's log-sum-exp is m + log l for the online softmax's final state (m, l) over the n blocks of B
    columns (column q of block j is column j · B + q); on the right it is the plain log-softmax: the maximum
    Mref over all columns (folded from -∞), the logits shifted by it, and a sum over the columns in which only
    column i carries the label weight. The two are equal. -/
theorem row_loss {n B : ℕ} (hn : 0 < n) (hB : 0 < B) (sf : Fin (n * B) → ℝ) (lab : ℝ) (i : Fin (n * B)) :
    let sb : ℕ → Fin B → ℝ := fun j q => if h : j < n then sf ⟨j * B + q.val, blk_lt h q⟩ else 0
    let a := acc (fun j q => ((sb j q : ℝ) : EReal)) n
    let Mref : EReal := max ⊥ (Finset.univ.fold max (⊥ : EReal) (fun j => ((sf j : ℝ) : EReal)))
    (0 - (lab : EReal)) * (((sf i : ℝ) : EReal) - (a.1 + Ideal.log a.2))
      = (0 : EReal) + ∑ j : Fin (n * B), (-(if j = i then (lab : EReal) else 0)) *
          ((((sf j : ℝ) : EReal) - Mref) - Ideal.log ((0 : EReal) +
            ∑ j' : Fin (n * B), Ideal.exp (((sf j' : ℝ) : EReal) - Mref))) := by
  intro sb a Mref
  obtain ⟨M, -, -, hM, ha1, ha2⟩ := acc_row hn hB sf
  have hSpos : 0 < ∑ c, Real.exp (sf c - M) :=
    Finset.sum_pos (fun _ _ => Real.exp_pos _) ⟨i, Finset.mem_univ _⟩
  have ha1' : a.1 = (M : EReal) := ha1
  have ha2' : a.2 = ((∑ c, Real.exp (sf c - M) : ℝ) : EReal) := ha2
  have hMref : Mref = (M : EReal) := by
    show max ⊥ (Finset.univ.fold max (⊥ : EReal) (fun j => ((sf j : ℝ) : EReal))) = (M : EReal)
    rw [hM, max_eq_right bot_le]
  have hlog : Ideal.log ((∑ c, Real.exp (sf c - M) : ℝ) : EReal)
      = ((Real.log (∑ c, Real.exp (sf c - M)) : ℝ) : EReal) := by
    rw [Ideal.log_coe, if_neg (not_le.mpr hSpos)]
  rw [ha1', ha2', hMref, zero_add, zero_add, sum_exp_coe, hlog]
  refine Eq.trans ?_ (Finset.sum_eq_single i ?_ ?_).symm
  · have hr : sf i - (M + Real.log (∑ c, Real.exp (sf c - M)))
        = sf i - M - Real.log (∑ c, Real.exp (sf c - M)) := by ring
    rw [if_pos rfl, zero_sub, ← EReal.coe_add, ← EReal.coe_sub, ← EReal.coe_sub, ← EReal.coe_sub, hr]
  · intro j _ hji
    rw [if_neg hji, neg_zero, ← EReal.coe_sub, ← EReal.coe_sub, zero_mul]
  · intro h
    exact absurd (Finset.mem_univ i) h

end OnlineSoftmax
-- ==== Proof.LibOnlineWeightedSum.lean ====
/-
  The weighted sum that rides along an online softmax, against the plain softmax-weighted sum.

  A row of real scores s and a row of real values v are walked in n blocks of B columns. Beside the online
  softmax's state (m, l) — the running maximum and the running sum of exp (s - m), see LibOnlineSoftmax — a
  running weighted sum a is kept: a new block moves it to exp (m - m') · a + Σ_q exp (s q - m') · v q, with m' the new
  maximum; before the first block it is 0. After the last block a = Σ_c exp (s c - M) · v c over all n · B columns,
  M the row's maximum, so a / l is the softmax-weighted average Σ_c v c · (exp (s c - M) / Σ_c' exp (s c' - M)):
  what a blocked attention kernel computes against a reference that materialises the softmax. Everything is
  stated over the extended reals with real scores and values (at an infinite score a difference of infinities
  is a convention, not a number).
-/
import proofs.«425971_j9947144257895_3_alg».proof.Proof.LibOnlineSoftmax

noncomputable section

namespace OnlineSoftmax

open Idealize.ShloMosaic

/-! ### The running weighted sum -/

/-- One step of the running weighted sum: the state (m, l) of the online softmax meets a block of B columns
    with scores row and values val; the old weighted sum a is rescaled by exp (m - m'), m' the new maximum,
    and the block's values weighted by the exponentials relative to m' are added. -/
def updA {B : ℕ} (row val : Fin B → EReal) (ml : EReal × EReal) (a : EReal) : EReal :=
  Ideal.exp (ml.1 - (upd row ml).1) * a + ∑ q, Ideal.exp (row q - (upd row ml).1) * val q

/-- The running weighted sum after the first k blocks; before the first block it is 0. -/
def accA {B : ℕ} (s v : ℕ → Fin B → EReal) : ℕ → EReal
  | 0 => 0
  | k + 1 => updA (s k) (v k) (acc s k) (accA s v k)

/-- Before the first block. -/
theorem accA_zero {B : ℕ} (s v : ℕ → Fin B → EReal) : accA s v 0 = 0 := rfl

/-- After one more block. -/
theorem accA_succ {B : ℕ} (s v : ℕ → Fin B → EReal) (k : ℕ) :
    accA s v (k + 1) = Ideal.exp ((acc s k).1 - (acc s (k + 1)).1) * accA s v k
      + ∑ q, Ideal.exp (s k q - (acc s (k + 1)).1) * v k q := rfl

/-- Block j of a row of n · B reals: column q of block j is column j · B + q (0 past the last block). -/
def blk {n B : ℕ} (f : Fin (n * B) → ℝ) : ℕ → Fin B → ℝ :=
  fun j q => if h : j < n then f ⟨j * B + q.val, blk_lt h q⟩ else 0

/-- The exponentials of a real block relative to a real maximum, times real values, sum to a real. -/
theorem sum_exp_mul_coe {B : ℕ} (row val : Fin B → ℝ) (M : ℝ) :
    ∑ q, Ideal.exp (((row q : ℝ) : EReal) - (M : EReal)) * ((val q : ℝ) : EReal)
      = ((∑ q, Real.exp (row q - M) * val q : ℝ) : EReal) := by
  rw [coe_sum]
  refine Finset.sum_congr rfl fun q _ => ?_
  rw [← EReal.coe_sub, Ideal.exp_coe, ← EReal.coe_mul]

/-- After k ≥ 1 blocks of real scores s and real values v the running weighted sum is
    Σ_{j < k} Σ_q exp (s j q - M) · v j q, M the running maximum after those blocks: the step multiplies the old sum
    by exp (M_old - M_new), and exp (M_old - M_new) · exp (s - M_old) = exp (s - M_new). -/
theorem accA_real {B : ℕ} (hB : 0 < B) (s v : ℕ → Fin B → ℝ) (k : ℕ) (hk : 0 < k) (M : ℝ)
    (hM : (acc (fun j q => ((s j q : ℝ) : EReal)) k).1 = (M : EReal)) :
    accA (fun j q => ((s j q : ℝ) : EReal)) (fun j q => ((v j q : ℝ) : EReal)) k
      = ((∑ j ∈ Finset.range k, ∑ q, Real.exp (s j q - M) * v j q : ℝ) : EReal) := by
  obtain ⟨k, rfl⟩ : ∃ k', k = k' + 1 := ⟨k - 1, by omega⟩
  clear hk
  induction k generalizing M with
  | zero =>
    rw [accA_succ, hM, accA_zero, mul_zero, zero_add, sum_exp_mul_coe, Finset.sum_range_one]
  | succ k ih =>
    obtain ⟨Mk, -, -, h1, -⟩ := acc_real hB s (k + 1) (Nat.succ_pos k)
    rw [accA_succ, hM, h1, ih Mk h1, sum_exp_mul_coe, ← EReal.coe_sub, Ideal.exp_coe, ← EReal.coe_mul,
      ← EReal.coe_add]
    congr 1
    rw [Finset.sum_range_succ _ (k + 1), Finset.mul_sum]
    congr 1
    refine Finset.sum_congr rfl fun j _ => ?_
    rw [Finset.mul_sum]
    refine Finset.sum_congr rfl fun q _ => ?_
    rw [← mul_assoc, ← Real.exp_add]
    congr 2
    ring

/-- A block-wise double sum of a function of a row's score and value is the sum over all the row's
    columns. -/
theorem sum_range_blocks2 {n B : ℕ} (sf vf : Fin (n * B) → ℝ) (F : ℝ → ℝ → ℝ) :
    ∑ j ∈ Finset.range n, ∑ q : Fin B, F (blk sf j q) (blk vf j q) = ∑ c : Fin (n * B), F (sf c) (vf c) := by
  rw [← sum_blocks (fun c => F (sf c) (vf c)),
    ← Fin.sum_univ_eq_sum_range (fun j => ∑ q : Fin B, F (blk sf j q) (blk vf j q)) n]
  refine Finset.sum_congr rfl fun j _ => Finset.sum_congr rfl fun q _ => ?_
  unfold blk
  rw [dif_pos j.isLt, dif_pos j.isLt]

/-- THE ROW: for a row of n · B real scores sf and real values vf, walked in n blocks of B columns, the
    final weighted sum divided by the final sum of exponentials is the plain softmax-weighted sum of the
    values over all columns, the plain softmax written as a host reference computes it (the row maximum folded
    from -∞ and once more against -∞, the exponentials divided by 0 + their sum). The law is
    (Σ_j e_j · v_j) / S = Σ_j v_j · (e_j / S), with S real and positive because every score is real. -/
theorem row_attn {n B : ℕ} (hn : 0 < n) (hB : 0 < B) (sf vf : Fin (n * B) → ℝ) :
    Ideal.div (accA (fun j q => ((blk sf j q : ℝ) : EReal)) (fun j q => ((blk vf j q : ℝ) : EReal)) n)
        (acc (fun j q => ((blk sf j q : ℝ) : EReal)) n).2
      = ∑ j : Fin (n * B), ((vf j : ℝ) : EReal) *
          Ideal.div (Ideal.exp (((sf j : ℝ) : EReal)
              - max ⊥ (Finset.univ.fold max (⊥ : EReal) (fun j => ((sf j : ℝ) : EReal)))))
            ((0 : EReal) + ∑ j' : Fin (n * B), Ideal.exp (((sf j' : ℝ) : EReal)
              - max ⊥ (Finset.univ.fold max (⊥ : EReal) (fun j => ((sf j : ℝ) : EReal))))) := by
  obtain ⟨M, -, -, hM, ha1, ha2⟩ := acc_row hn hB sf
  have ha1' : (acc (fun j q => ((blk sf j q : ℝ) : EReal)) n).1 = (M : EReal) := ha1
  have ha2' : (acc (fun j q => ((blk sf j q : ℝ) : EReal)) n).2
      = ((∑ c, Real.exp (sf c - M) : ℝ) : EReal) := ha2
  have hA := accA_real hB (blk sf) (blk vf) n hn M ha1'
  have hSpos : 0 < ∑ c, Real.exp (sf c - M) :=
    Finset.sum_pos (fun _ _ => Real.exp_pos _) ⟨⟨0, Nat.mul_pos hn hB⟩, Finset.mem_univ _⟩
  have hblocks := sum_range_blocks2 sf vf (fun x y => Real.exp (x - M) * y)
  have hL : Ideal.div (accA (fun j q => ((blk sf j q : ℝ) : EReal)) (fun j q => ((blk vf j q : ℝ) : EReal)) n)
        (acc (fun j q => ((blk sf j q : ℝ) : EReal)) n).2
      = ((∑ j, vf j * (Real.exp (sf j - M) * (1 / ∑ c, Real.exp (sf c - M))) : ℝ) : EReal) := by
    rw [hA, ha2', Ideal.div_coe hSpos.ne', ← EReal.coe_mul]
    congr 1
    rw [show (∑ j ∈ Finset.range n, ∑ q : Fin B, Real.exp (blk sf j q - M) * blk vf j q)
        = ∑ c : Fin (n * B), Real.exp (sf c - M) * vf c from hblocks, Finset.sum_mul]
    refine Finset.sum_congr rfl fun j _ => ?_
    ring
  rw [hL, coe_sum]
  refine Finset.sum_congr rfl fun j _ => ?_
  rw [hM, max_eq_right bot_le, zero_add, sum_exp_coe, ← EReal.coe_sub, Ideal.exp_coe,
    Ideal.div_coe hSpos.ne', ← EReal.coe_mul, ← EReal.coe_mul]

end OnlineSoftmax

end
-- ==== Proof.Tiles.lean ====
/-
  The sequence axis cut in four tiles of 512 rows: the running softmax state a tile-by-tile walk keeps, against the
  whole-row softmax of Spec.lean.

  For batch b, tile j holds rows 512·j … 512·j + 511. The walk keeps the running maximum and sum (m, l) of the scores seen so far
  and, per feature h, the running weighted sum of the projected rows; the scores are read as query times projected row.
  After the fourth tile exp (score - m) / l is the row's attention weight and (weighted sum) / l is the context: this
  needs every score to be a real number, which it is when the four arrays it is made of are real.
-/
import proofs.«425971_j9947144257895_3_alg».proof.Proof.Spec
import proofs.«425971_j9947144257895_3_alg».proof.Proof.LibOnlineSoftmax
import proofs.«425971_j9947144257895_3_alg».proof.Proof.LibOnlineWeightedSum

noncomputable section

namespace Cert.Attn

open Idealize.ShloMosaic Idealize.ShloMosaic.ValueIdx

/-- Tile j of a row of 2048 entries: entry q of tile j is entry 512·j + q (0 past the fourth tile). -/
def tile (f : Fin 2048 → EReal) : ℕ → Fin 512 → EReal :=
  fun j q => if h : j < 4 then f ⟨j * 512 + q.val, by have := q.isLt; omega⟩ else 0

theorem tile_of_lt (f : Fin 2048 → EReal) (j : ℕ) (h : j < 4) (q : Fin 512) :
    tile f j q = f ⟨j * 512 + q.val, by have := q.isLt; omega⟩ := dif_pos h

/-- Four tiles of 512 rows are the 2048 rows. -/
theorem four_tiles : 4 * 512 = 2048 := by norm_num

/-- A row of real numbers cut in tiles is the coercion of the same row cut in four blocks of 512 columns. -/
theorem tile_coe (f : Fin 2048 → ℝ) :
    tile (fun s => ((f s : ℝ) : EReal))
      = fun j q =>
          ((OnlineSoftmax.blk (n := 4) (B := 512) (fun c => f (Fin.cast four_tiles c)) j q : ℝ) : EReal) := by
  funext j q
  unfold tile OnlineSoftmax.blk
  by_cases hj : j < 4
  · rw [dif_pos hj, dif_pos hj]
    rfl
  · rw [dif_neg hj, dif_neg hj, EReal.coe_zero]

/-- The final state of the walk over n blocks of B columns, for a row whose length N is n · B only up to
    an equation: the running maximum is the row's maximum M, which is also the row's fold from -∞, and the
    running sum is Σ_s exp (sR s - M). -/
theorem acc_row_cast {N : ℕ} (n B : ℕ) (h : n * B = N) (hn : 0 < n) (hB : 0 < B) (sR : Fin N → ℝ) :
    ∃ M : ℝ, Finset.univ.fold max (⊥ : EReal) (fun s => ((sR s : ℝ) : EReal)) = (M : EReal) ∧
      (OnlineSoftmax.acc (fun j q =>
        ((OnlineSoftmax.blk (n := n) (B := B) (fun c => sR (Fin.cast h c)) j q : ℝ) : EReal)) n).1
          = (M : EReal) ∧
      (OnlineSoftmax.acc (fun j q =>
        ((OnlineSoftmax.blk (n := n) (B := B) (fun c => sR (Fin.cast h c)) j q : ℝ) : EReal)) n).2
          = ((∑ s, Real.exp (sR s - M) : ℝ) : EReal) := by
  subst h
  obtain ⟨M, -, -, hM, ha1, ha2⟩ := OnlineSoftmax.acc_row hn hB sR
  exact ⟨M, hM, ha1, ha2⟩

/-- The walk's weighted sum over its sum of exponentials is the softmax-weighted sum of the values, for a
    row whose length N is n · B only up to an equation. -/
theorem row_attn_cast {N : ℕ} (n B : ℕ) (h : n * B = N) (hn : 0 < n) (hB : 0 < B) (sR vR : Fin N → ℝ) :
    Ideal.div
        (OnlineSoftmax.accA
          (fun j q => ((OnlineSoftmax.blk (n := n) (B := B) (fun c => sR (Fin.cast h c)) j q : ℝ) : EReal))
          (fun j q => ((OnlineSoftmax.blk (n := n) (B := B) (fun c => vR (Fin.cast h c)) j q : ℝ) : EReal)) n)
        (OnlineSoftmax.acc
          (fun j q => ((OnlineSoftmax.blk (n := n) (B := B) (fun c => sR (Fin.cast h c)) j q : ℝ) : EReal)) n).2
      = ∑ s : Fin N, ((vR s : ℝ) : EReal) *
          Ideal.div (Ideal.exp (((sR s : ℝ) : EReal)
              - max ⊥ (Finset.univ.fold max (⊥ : EReal) (fun s => ((sR s : ℝ) : EReal)))))
            ((0 : EReal) + ∑ s' : Fin N, Ideal.exp (((sR s' : ℝ) : EReal)
              - max ⊥ (Finset.univ.fold max (⊥ : EReal) (fun s => ((sR s : ℝ) : EReal))))) := by
  subst h
  exact OnlineSoftmax.row_attn hn hB sR vR

/-- The weight a four-tile walk over real scores gives row s is the plain softmax weight. -/
theorem tiles_attn_real (sR : Fin 2048 → ℝ) (s : Fin 2048) :
    Ideal.div (Ideal.exp (((sR s : ℝ) : EReal)
          - (OnlineSoftmax.acc (tile (fun s => ((sR s : ℝ) : EReal))) 4).1))
        (OnlineSoftmax.acc (tile (fun s => ((sR s : ℝ) : EReal))) 4).2
      = Ideal.div (Ideal.exp (((sR s : ℝ) : EReal)
            - max ⊥ (Finset.univ.fold max (⊥ : EReal) (fun s => ((sR s : ℝ) : EReal)))))
          ((0 : EReal) + ∑ s' : Fin 2048, Ideal.exp (((sR s' : ℝ) : EReal)
            - max ⊥ (Finset.univ.fold max (⊥ : EReal) (fun s => ((sR s : ℝ) : EReal))))) := by
  obtain ⟨M, hM, ha1, ha2⟩ := acc_row_cast 4 512 four_tiles (by norm_num) (by norm_num) sR
  rw [tile_coe, ha1, ha2, hM, max_eq_right bot_le, zero_add, OnlineSoftmax.sum_exp_coe]

/-- The four-tile walk's weighted sum over its sum of exponentials is the softmax-weighted sum of the values. -/
theorem tiles_ctx_real (sR vR : Fin 2048 → ℝ) :
    Ideal.div (OnlineSoftmax.accA (tile (fun s => ((sR s : ℝ) : EReal))) (tile (fun s => ((vR s : ℝ) : EReal))) 4)
        (OnlineSoftmax.acc (tile (fun s => ((sR s : ℝ) : EReal))) 4).2
      = ∑ s : Fin 2048, ((vR s : ℝ) : EReal) *
          Ideal.div (Ideal.exp (((sR s : ℝ) : EReal)
              - max ⊥ (Finset.univ.fold max (⊥ : EReal) (fun s => ((sR s : ℝ) : EReal)))))
            ((0 : EReal) + ∑ s' : Fin 2048, Ideal.exp (((sR s' : ℝ) : EReal)
              - max ⊥ (Finset.univ.fold max (⊥ : EReal) (fun s => ((sR s : ℝ) : EReal))))) := by
  rw [tile_coe, tile_coe]
  exact row_attn_cast 4 512 four_tiles (by norm_num) (by norm_num) sR vR

section
variable (E : EncT) (D : DecT) (We : MatT) (be : BiasT)

/-- The score as the tile walk computes it: the query first, Σ_h D[0,b,h] · proj b s h. -/
def kscore (b : Fin 32) (s : Fin 2048) : EReal :=
  ∑ h : Fin 1024, D (ix3 0 b h) * proj E We be b s h

/-- Batch b's scores by tiles. -/
def ksc (b : Fin 32) : ℕ → Fin 512 → EReal := tile (fun s => kscore E D We be b s)

/-- Batch b's projected rows at feature h, by tiles. -/
def kval (b : Fin 32) (h : Fin 1024) : ℕ → Fin 512 → EReal := tile (fun s => proj E We be b s h)

/-- The two score forms differ by the order of a product. -/
theorem kscore_eq_score (b : Fin 32) (s : Fin 2048) : kscore E D We be b s = score E D We be b s := by
  unfold kscore score
  exact Finset.sum_congr rfl fun h _ => mul_comm _ _

/-- With real inputs the projected rows are real. -/
theorem proj_real (hE : ∀ i, ∃ r : ℝ, E i = (r : EReal)) (hWe : ∀ i, ∃ r : ℝ, We i = (r : EReal))
    (hbe : ∀ i, ∃ r : ℝ, be i = (r : EReal)) (b : Fin 32) :
    ∃ p : Fin 2048 → Fin 1024 → ℝ, ∀ s h, proj E We be b s h = ((p s h : ℝ) : EReal) := by
  choose ER hER using hE
  choose WR hWR using hWe
  choose bR hbR using hbe
  refine ⟨fun s h => (∑ f : Fin 2048, ER (ix3 b s f) * WR (ix2 f h)) + bR (ix1 h), fun s h => ?_⟩
  show proj E We be b s h = (((∑ f : Fin 2048, ER (ix3 b s f) * WR (ix2 f h)) + bR (ix1 h) : ℝ) : EReal)
  have hsum : ∑ f : Fin 2048, E (ix3 b s f) * We (ix2 f h)
      = ∑ f : Fin 2048, ((ER (ix3 b s f) * WR (ix2 f h) : ℝ) : EReal) :=
    Finset.sum_congr rfl fun f _ => by rw [hER, hWR, EReal.coe_mul]
  unfold proj
  rw [EReal.coe_add, OnlineSoftmax.coe_sum, hbR, hsum]

/-- With real inputs the scores are real. -/
theorem kscore_real (hE : ∀ i, ∃ r : ℝ, E i = (r : EReal)) (hD : ∀ i, ∃ r : ℝ, D i = (r : EReal))
    (hWe : ∀ i, ∃ r : ℝ, We i = (r : EReal)) (hbe : ∀ i, ∃ r : ℝ, be i = (r : EReal)) (b : Fin 32) :
    ∃ sR : Fin 2048 → ℝ, ∀ s, kscore E D We be b s = ((sR s : ℝ) : EReal) := by
  obtain ⟨p, hp⟩ := proj_real E We be hE hWe hbe b
  choose DR hDR using hD
  refine ⟨fun s => ∑ h : Fin 1024, DR (ix3 0 b h) * p s h, fun s => ?_⟩
  show kscore E D We be b s = ((∑ h : Fin 1024, DR (ix3 0 b h) * p s h : ℝ) : EReal)
  unfold kscore
  rw [OnlineSoftmax.coe_sum]
  refine Finset.sum_congr rfl fun h _ => ?_
  rw [hDR, hp, EReal.coe_mul]

/-- The attention weight over real scores, written out. -/
theorem attn_of_real (b : Fin 32) (sR : Fin 2048 → ℝ)
    (hsc : ∀ s, score E D We be b s = ((sR s : ℝ) : EReal)) (s : Fin 2048) :
    attn E D We be b s
      = Ideal.div (Ideal.exp (((sR s : ℝ) : EReal)
            - max ⊥ (Finset.univ.fold max (⊥ : EReal) (fun s => ((sR s : ℝ) : EReal)))))
          ((0 : EReal) + ∑ s' : Fin 2048, Ideal.exp (((sR s' : ℝ) : EReal)
            - max ⊥ (Finset.univ.fold max (⊥ : EReal) (fun s => ((sR s : ℝ) : EReal))))) := by
  simp only [attn, expo, den, rowmax, hsc]

/-- After the four tiles, with real inputs: exp (score - m) / l is the attention weight of row 512·j + q. -/
theorem attn_tiles (hE : ∀ i, ∃ r : ℝ, E i = (r : EReal)) (hD : ∀ i, ∃ r : ℝ, D i = (r : EReal))
    (hWe : ∀ i, ∃ r : ℝ, We i = (r : EReal)) (hbe : ∀ i, ∃ r : ℝ, be i = (r : EReal))
    (b : Fin 32) (s : Fin 2048) :
    Ideal.div (Ideal.exp (kscore E D We be b s - (OnlineSoftmax.acc (ksc E D We be b) 4).1))
        (OnlineSoftmax.acc (ksc E D We be b) 4).2
      = attn E D We be b s := by
  obtain ⟨sR, hsR⟩ := kscore_real E D We be hE hD hWe hbe b
  have hsc : ∀ s, score E D We be b s = ((sR s : ℝ) : EReal) := fun s => by
    rw [← kscore_eq_score, hsR]
  have hksc : ksc E D We be b = tile (fun s => ((sR s : ℝ) : EReal)) := by
    unfold ksc
    exact congrArg tile (funext hsR)
  rw [hksc, hsR s, attn_of_real E D We be b sR hsc s]
  exact tiles_attn_real sR s

/-- After the four tiles, with real inputs: the running weighted sum over the running sum is the context. -/
theorem ctx_tiles (hE : ∀ i, ∃ r : ℝ, E i = (r : EReal)) (hD : ∀ i, ∃ r : ℝ, D i = (r : EReal))
    (hWe : ∀ i, ∃ r : ℝ, We i = (r : EReal)) (hbe : ∀ i, ∃ r : ℝ, be i = (r : EReal))
    (b : Fin 32) (h : Fin 1024) :
    Ideal.div (OnlineSoftmax.accA (ksc E D We be b) (kval E We be b h) 4) (OnlineSoftmax.acc (ksc E D We be b) 4).2
      = ctx E D We be b h := by
  obtain ⟨sR, hsR⟩ := kscore_real E D We be hE hD hWe hbe b
  obtain ⟨p, hp⟩ := proj_real E We be hE hWe hbe b
  have hsc : ∀ s, score E D We be b s = ((sR s : ℝ) : EReal) := fun s => by
    rw [← kscore_eq_score, hsR]
  have hksc : ksc E D We be b = tile (fun s => ((sR s : ℝ) : EReal)) := by
    unfold ksc
    exact congrArg tile (funext hsR)
  have hkval : kval E We be b h = tile (fun s => ((p s h : ℝ) : EReal)) := by
    unfold kval
    exact congrArg tile (funext fun s => hp s h)
  rw [hksc, hkval, tiles_ctx_real sR (fun s => p s h)]
  unfold ctx
  refine Finset.sum_congr rfl fun s _ => ?_
  rw [attn_of_real E D We be b sR hsc s, hp s h, mul_comm]

end

end Cert.Attn

end
-- ==== Proof.KState.lean ====
/-
  The body's running state against the tile walk of Tiles.lean.

  Grid point n is tile n % 4 of batch n / 4. At each point the body reads the encoder tile, the batch's query, the
  projection matrix and its bias; it projects the tile's 512 rows, scores them against the query, and moves the running
  maximum m, the running sum l of exp (score - m) and, per feature, the running weighted sum of the projected rows: the
  step of the online softmax with the weighted sum that rides along it. Read at their entries, the three carried arrays
  after point n are that walk's state after n % 4 + 1 tiles of batch n / 4; at a batch's fourth tile the two stored
  results are therefore the attention weights and the result row of Spec.lean, once the inputs are real numbers.
-/
import proofs.«425971_j9947144257895_3_alg».proof.Proof.FrameKI.State
import proofs.«425971_j9947144257895_3_alg».proof.Proof.Pay
import proofs.«425971_j9947144257895_3_alg».proof.Proof.Tiles
import proofs.«425971_j9947144257895_3_alg».proof.Proof.Spec

noncomputable section

namespace Cert.KernelIdeal.KState

open Cert.KernelIdeal Cert.KernelIdeal.Gen Cert.KernelIdeal.Pay Cert.Attn Idealize.ShloMosaic
  Idealize.ShloMosaic.ValueIdx

/-! ## The walk's step, read by components -/

/-- The running maximum after one more block. -/
theorem acc_succ_fst {B : ℕ} (s : ℕ → Fin B → EReal) (k : ℕ) :
    (OnlineSoftmax.acc s (k + 1)).1
      = max (OnlineSoftmax.acc s k).1 (Finset.univ.fold max (⊥ : EReal) (s k)) := rfl

/-- The running sum after one more block. -/
theorem acc_succ_snd {B : ℕ} (s : ℕ → Fin B → EReal) (k : ℕ) :
    (OnlineSoftmax.acc s (k + 1)).2
      = Ideal.exp ((OnlineSoftmax.acc s k).1 - (OnlineSoftmax.acc s (k + 1)).1) * (OnlineSoftmax.acc s k).2
        + ∑ q, Ideal.exp (s k q - (OnlineSoftmax.acc s (k + 1)).1) := rfl

/-! ## One tile -/

section Tile
variable (E : EncT) (D : DecT) (We : MatT) (be : BiasT)
variable (x0 : Vec Ideal S1x512x2048 .f32) (x1 : Vec Ideal S1x1x1024 .f32) (x2 : Vec Ideal S2048x1024 .bf16)
  (x3 : Vec Ideal S1024 .f32)

/-- The projected tile is the projection of the batch's rows 512·t … 512·t + 511. -/
theorem pay9_proj (b : Fin 32) (t : ℕ) (ht : t < 4)
    (h0 : ∀ (r : Fin 512) (f : Fin 2048),
      x0 (ix3 0 r f) = E (ix3 b ⟨t * 512 + r.val, by have := r.isLt; omega⟩ f))
    (h2 : ∀ (f : Fin 2048) (h : Fin 1024), x2 (ix2 f h) = We (ix2 f h))
    (h3 : ∀ h : Fin 1024, x3 (ix1 h) = be (ix1 h)) (r : Fin 512) (h : Fin 1024) :
    k0_pay9 (F := Ideal) x0 x2 x3 (ix2 r h)
      = proj E We be b ⟨t * 512 + r.val, by have := r.isLt; omega⟩ h := by
  rw [pay9_apply, h3]
  unfold proj
  refine congrArg (fun z => z + be (ix1 h)) ?_
  exact Finset.sum_congr rfl fun f _ => by rw [h0, h2]

/-- The projected tile, as the walk's values. -/
theorem pay9_kval (b : Fin 32) (t : ℕ) (ht : t < 4)
    (h0 : ∀ (r : Fin 512) (f : Fin 2048),
      x0 (ix3 0 r f) = E (ix3 b ⟨t * 512 + r.val, by have := r.isLt; omega⟩ f))
    (h2 : ∀ (f : Fin 2048) (h : Fin 1024), x2 (ix2 f h) = We (ix2 f h))
    (h3 : ∀ h : Fin 1024, x3 (ix1 h) = be (ix1 h)) (r : Fin 512) (h : Fin 1024) :
    k0_pay9 (F := Ideal) x0 x2 x3 (ix2 r h) = kval E We be b h t r := by
  rw [pay9_proj E We be x0 x2 x3 b t ht h0 h2 h3 r h]
  unfold kval
  rw [tile_of_lt _ _ ht]

/-- The tile's scores, as the walk's scores. -/
theorem pay10_ksc (b : Fin 32) (t : ℕ) (ht : t < 4)
    (h0 : ∀ (r : Fin 512) (f : Fin 2048),
      x0 (ix3 0 r f) = E (ix3 b ⟨t * 512 + r.val, by have := r.isLt; omega⟩ f))
    (h1 : ∀ h : Fin 1024, x1 (ix3 0 0 h) = D (ix3 0 b h))
    (h2 : ∀ (f : Fin 2048) (h : Fin 1024), x2 (ix2 f h) = We (ix2 f h))
    (h3 : ∀ h : Fin 1024, x3 (ix1 h) = be (ix1 h)) (q : Fin 512) :
    k0_pay10 (F := Ideal) x0 x2 x3 x1 (ix2 0 q) = ksc E D We be b t q := by
  rw [pay10_apply]
  unfold ksc
  rw [tile_of_lt _ _ ht]
  unfold kscore
  exact Finset.sum_congr rfl fun h _ => by
    rw [h1, pay9_proj E We be x0 x2 x3 b t ht h0 h2 h3 q h]

/-- The walk's state after k tiles of batch b, read at the entries of the three carried arrays. -/
def Inv (b : Fin 32) (k : ℕ) (p : St Ideal) : Prop :=
  p.1 (ix2 0 0) = (OnlineSoftmax.acc (ksc E D We be b) k).1 ∧
  p.2.1 (ix2 0 0) = (OnlineSoftmax.acc (ksc E D We be b) k).2 ∧
  ∀ h : Fin 1024, p.2.2 (ix2 0 h) = OnlineSoftmax.accA (ksc E D We be b) (kval E We be b h) k

/-- One tile's step takes the walk's state after t tiles to the state after t + 1. -/
theorem step_inv (b : Fin 32) (t : ℕ) (ht : t < 4)
    (h0 : ∀ (r : Fin 512) (f : Fin 2048),
      x0 (ix3 0 r f) = E (ix3 b ⟨t * 512 + r.val, by have := r.isLt; omega⟩ f))
    (h1 : ∀ h : Fin 1024, x1 (ix3 0 0 h) = D (ix3 0 b h))
    (h2 : ∀ (f : Fin 2048) (h : Fin 1024), x2 (ix2 f h) = We (ix2 f h))
    (h3 : ∀ h : Fin 1024, x3 (ix1 h) = be (ix1 h)) (p : St Ideal) (hp : Inv E D We be b t p) :
    Inv E D We be b (t + 1) (stepSt x0 x1 x2 x3 p) := by
  obtain ⟨hp1, hp2, hp3⟩ := hp
  have hrow : (fun r : Fin 512 => k0_pay10 (F := Ideal) x0 x2 x3 x1 (ix2 0 r)) = ksc E D We be b t :=
    funext fun r => pay10_ksc E D We be x0 x1 x2 x3 b t ht h0 h1 h2 h3 r
  have h12 : k0_pay12 (F := Ideal) x0 x2 x3 x1 p.1 (ix2 0 0)
      = (OnlineSoftmax.acc (ksc E D We be b) (t + 1)).1 := by
    rw [pay12_apply, hrow, hp1, acc_succ_fst]
  have h13 : k0_pay13 (F := Ideal) x0 x2 x3 x1 p.1 (ix2 0 0)
      = Ideal.exp ((OnlineSoftmax.acc (ksc E D We be b) t).1
          - (OnlineSoftmax.acc (ksc E D We be b) (t + 1)).1) := by
    rw [pay13_apply, h12, hp1]
  have h14 : ∀ r : Fin 512, k0_pay14 (F := Ideal) x0 x2 x3 x1 p.1 (ix2 0 r)
      = Ideal.exp (ksc E D We be b t r - (OnlineSoftmax.acc (ksc E D We be b) (t + 1)).1) := fun r => by
    rw [pay14_apply, h12, pay10_ksc E D We be x0 x1 x2 x3 b t ht h0 h1 h2 h3 r]
  refine ⟨?_, ?_, fun h => ?_⟩
  · show k0_pay3 (F := Ideal) (k0_pay12 (F := Ideal) x0 x2 x3 x1 p.1) (ix2 0 0) = _
    rw [pay3_eq, h12]
  · show k0_pay1 (F := Ideal) (k0_pay14 (F := Ideal) x0 x2 x3 x1 p.1)
        (k0_pay15 (F := Ideal) x0 x2 x3 x1 p.1 p.2.1) (ix2 0 0) = _
    rw [pay1_apply, pay15_apply, h13, hp2, acc_succ_snd]
    refine congrArg (fun z => Ideal.exp ((OnlineSoftmax.acc (ksc E D We be b) t).1
      - (OnlineSoftmax.acc (ksc E D We be b) (t + 1)).1) * (OnlineSoftmax.acc (ksc E D We be b) t).2 + z) ?_
    exact Finset.sum_congr rfl fun r _ => h14 r
  · show k0_pay2 (F := Ideal) (k0_pay9 (F := Ideal) x0 x2 x3) (k0_pay13 (F := Ideal) x0 x2 x3 x1 p.1)
        (k0_pay14 (F := Ideal) x0 x2 x3 x1 p.1) p.2.2 (ix2 0 h) = _
    rw [pay2_apply, h13, hp3, OnlineSoftmax.accA_succ]
    refine congrArg (fun z => Ideal.exp ((OnlineSoftmax.acc (ksc E D We be b) t).1
      - (OnlineSoftmax.acc (ksc E D We be b) (t + 1)).1)
        * OnlineSoftmax.accA (ksc E D We be b) (kval E We be b h) t + z) ?_
    exact Finset.sum_congr rfl fun r _ => by
      rw [h14, pay9_kval E We be x0 x2 x3 b t ht h0 h2 h3 r h]

end Tile

/-! ## The grid's walk -/

section Walk
variable (X0 : ℕ → Vec Ideal S1x512x2048 .f32) (X1 : ℕ → Vec Ideal S1x1x1024 .f32)
  (X2 : ℕ → Vec Ideal S2048x1024 .bf16) (X3 : ℕ → Vec Ideal S1024 .f32)
  (X4 : ℕ → Vec Ideal S2048x1024 .bf16) (X5 : ℕ → Vec Ideal S1024 .f32)
  (E : EncT) (D : DecT) (We : MatT) (be : BiasT) (Wc : MatT) (bc : BiasT)

/-- What the four input blocks the walk reads hold at each grid point: point n is tile n % 4 of batch n / 4. -/
structure InBlocks : Prop where
  hX0 : ∀ n (hn : n < 128) (r : Fin 512) (f : Fin 2048),
    X0 n (ix3 0 r f) = E (ix3 ⟨n / 4, by omega⟩ ⟨(n % 4) * 512 + r.val, by have := r.isLt; omega⟩ f)
  hX1 : ∀ n (hn : n < 128) (h : Fin 1024), X1 n (ix3 0 0 h) = D (ix3 0 ⟨n / 4, by omega⟩ h)
  hX2 : ∀ n (hn : n < 128) (f : Fin 2048) (h : Fin 1024), X2 n (ix2 f h) = We (ix2 f h)
  hX3 : ∀ n (hn : n < 128) (h : Fin 1024), X3 n (ix1 h) = be (ix1 h)

/-- The tile's stored scores are the walk's scores of tile n % 4 of batch n / 4. -/
theorem scTile_apply (hB : InBlocks X0 X1 X2 X3 E D We be) (n : ℕ) (hn : n < 128) (q : Fin 512) :
    scTile X0 X1 X2 X3 n (ix2 0 q) = ksc E D We be ⟨n / 4, by omega⟩ (n % 4) q := by
  unfold scTile
  rw [pay11_eq]
  exact pay10_ksc E D We be (X0 n) (X1 n) (X2 n) (X3 n) _ _ (Nat.mod_lt _ (by norm_num))
    (hB.hX0 n hn) (hB.hX1 n hn) (hB.hX2 n hn) (hB.hX3 n hn) q

/-- The state after point n is the walk's state after n % 4 + 1 tiles of batch n / 4. -/
theorem stAt_inv (hB : InBlocks X0 X1 X2 X3 E D We be) (n : ℕ) :
    n < 128 → ∀ (b : Fin 32) (t : ℕ), b.val = n / 4 → t = n % 4 →
      Inv E D We be b (t + 1) (stAt X0 X1 X2 X3 n) := by
  induction n using Nat.strong_induction_on with
  | _ n ih =>
    intro hn
    have hq : n / 4 < 32 := by omega
    intro b t hb ht
    have ht4 : t < 4 := by omega
    have hstep : ∀ p : St Ideal, Inv E D We be b t p →
        Inv E D We be b (t + 1) (stepSt (X0 n) (X1 n) (X2 n) (X3 n) p) := by
      intro p hp
      obtain rfl : b = ⟨n / 4, hq⟩ := Fin.ext hb
      subst ht
      exact step_inv E D We be (X0 n) (X1 n) (X2 n) (X3 n) _ _ ht4
        (hB.hX0 n hn) (hB.hX1 n hn) (hB.hX2 n hn) (hB.hX3 n hn) p hp
    by_cases h0 : n % 4 = 0
    · rw [stAt_first X0 X1 X2 X3 n h0]
      apply hstep
      have ht0 : t = 0 := by omega
      subst ht0
      exact ⟨pay6_apply, pay7_apply, pay8_apply⟩
    · rw [stAt_next X0 X1 X2 X3 n h0]
      apply hstep
      have hprev := ih (n - 1) (by omega) (by omega) b (t - 1) (by omega) (by omega)
      rwa [show t - 1 + 1 = t by omega] at hprev

/-- The state after point n, by components. -/
theorem stAt_apply (hB : InBlocks X0 X1 X2 X3 E D We be) (n : ℕ) (hn : n < 128) :
    (stAt X0 X1 X2 X3 n).1 (ix2 0 0)
        = (OnlineSoftmax.acc (ksc E D We be ⟨n / 4, by omega⟩) (n % 4 + 1)).1 ∧
      (stAt X0 X1 X2 X3 n).2.1 (ix2 0 0)
        = (OnlineSoftmax.acc (ksc E D We be ⟨n / 4, by omega⟩) (n % 4 + 1)).2 ∧
      ∀ h : Fin 1024, (stAt X0 X1 X2 X3 n).2.2 (ix2 0 h)
        = OnlineSoftmax.accA (ksc E D We be ⟨n / 4, by omega⟩) (kval E We be ⟨n / 4, by omega⟩ h) (n % 4 + 1) :=
  stAt_inv X0 X1 X2 X3 E D We be hB n hn ⟨n / 4, by omega⟩ (n % 4) rfl rfl

/-- At a batch's last tile the stored weights are the attention weights. -/
theorem out7_apply (hB : InBlocks X0 X1 X2 X3 E D We be)
    (hE : ∀ i, ∃ r : ℝ, E i = (r : EReal)) (hD : ∀ i, ∃ r : ℝ, D i = (r : EReal))
    (hWe : ∀ i, ∃ r : ℝ, We i = (r : EReal)) (hbe : ∀ i, ∃ r : ℝ, be i = (r : EReal))
    (n : ℕ) (hn : n < 128) (h3 : n % 4 = 3) (sc : Vec Ideal S1x2048 .f32)
    (hsc : ∀ j : Fin 2048, sc (ix2 0 j) = kscore E D We be ⟨n / 4, by omega⟩ j) (j : Fin 2048) :
    out7At X0 X1 X2 X3 n sc (ix3 0 0 j) = attn E D We be ⟨n / 4, by omega⟩ j := by
  obtain ⟨s1, s2, -⟩ := stAt_apply X0 X1 X2 X3 E D We be hB n hn
  rw [h3] at s1 s2
  unfold out7At
  rw [pay4_apply, hsc, s1, s2]
  exact attn_tiles E D We be hE hD hWe hbe _ j

/-- At a batch's last tile the stored row is the result row. -/
theorem out6_apply (hB : InBlocks X0 X1 X2 X3 E D We be)
    (hX4 : ∀ n (hn : n < 128) (f : Fin 2048) (h : Fin 1024), X4 n (ix2 f h) = Wc (ix2 f h))
    (hX5 : ∀ n (hn : n < 128) (h : Fin 1024), X5 n (ix1 h) = bc (ix1 h))
    (hE : ∀ i, ∃ r : ℝ, E i = (r : EReal)) (hD : ∀ i, ∃ r : ℝ, D i = (r : EReal))
    (hWe : ∀ i, ∃ r : ℝ, We i = (r : EReal)) (hbe : ∀ i, ∃ r : ℝ, be i = (r : EReal))
    (n : ℕ) (hn : n < 128) (h3 : n % 4 = 3) (h : Fin 1024) :
    out6At X0 X1 X2 X3 X4 X5 n (ix3 0 0 h) = out E D We be Wc bc ⟨n / 4, by omega⟩ h := by
  obtain ⟨-, s2, s3⟩ := stAt_apply X0 X1 X2 X3 E D We be hB n hn
  rw [h3] at s2 s3
  unfold out6At
  rw [pay5_apply, hX5 n hn]
  unfold out
  refine congrArg Ideal.tanh (congrArg (fun z => z + bc (ix1 h)) ?_)
  refine Finset.sum_congr rfl fun f _ => ?_
  rw [hX4 n hn]
  refine congrArg (fun z => z * Wc (ix2 f h)) ?_
  unfold comb
  by_cases hf : f.val < 1024
  · rw [dif_pos hf, dif_pos hf, s3, s2]
    exact ctx_tiles E D We be hE hD hWe hbe _ _
  · rw [dif_neg hf, dif_neg hf]
    exact hB.hX1 n hn _

end Walk

end Cert.KernelIdeal.KState

end
-- ==== Proof.Finite.lean ====
/-
  Every float input finite, read back as: the first four arrays are real-valued entry by entry.

  The printed precondition is, for each of six f32 arrays, the reduction by `and` over all axes of the
  elementwise test `|x| < +∞`, the six results conjoined. On the extended reals `|x|` is `max x (-x)`, the
  pattern `0x7F800000` denotes `⊤`, and `max x (-x) < ⊤` fails at `⊥` and at `⊤`: what is left is a real.
-/
import proofs.«425971_j9947144257895_3_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

namespace Cert.Attn.Finite

open Idealize.ShloMosaic

/-- The rank-0 shape has one index. -/
instance : Subsingleton Cert.Pre_finite_inputs.S_.Idx := ⟨fun a b => funext fun d => d.elim0⟩

/-- The f32 pattern `0x7F800000` is `⊤`. -/
theorem ofBits_inf_f32 : Ideal.ofBits .f32 0x7F800000#32 = (⊤ : EReal) := by
  simp [Ideal.ofBits, Ideal.ieee]

/-- An extended real whose absolute value `max x (-x)` is below `⊤` is a real: at `⊥` and at `⊤` the
    absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One element: the test `|x| < +∞` coming out 1 says `x` is a real. -/
theorem real_of_test (x : Ideal .f32)
    (h : FloatOps.cmpf .olt (FloatOps.hostAbsf x) (Ideal.ofBits .f32 0x7F800000#32) = 1#1) :
    ∃ r : ℝ, x = (r : EReal) := by
  apply real_of_abs_lt_top
  rw [ofBits_inf_f32] at h
  change Ideal.cmp .olt (max (x : EReal) (-(x : EReal))) ⊤ = 1#1 at h
  unfold Ideal.cmp at h
  by_contra hn
  simp [hn] at h

/-- One array of any shape: the elementwise test against the broadcast scalar `+∞` coming out 1 at an index says
    the entry there is a real. -/
theorem real_of_test_at {T : Shape} (hb : Cert.Pre_finite_inputs.S_.BroadcastsInDim T ![]) (x : FVec Ideal T .f32)
    (i : T.Idx)
    (h : cmpf .olt (Host.absf x)
      (broadcastInDim T ![] hb (constant (F := Ideal) Cert.Pre_finite_inputs.S_ .f32 0x7F800000#32)) i = 1#1) :
    ∃ r : ℝ, x i = (r : EReal) := by
  rw [ValueIdx.cmpf_apply, ValueIdx.broadcastInDim_scalar_apply, ValueIdx.constant_apply] at h
  exact real_of_test (x i) h

/-- The printed precondition, holding, makes the first four arrays real-valued entry by entry. -/
theorem real_of_fn [Cert.Pre_finite_inputs.Facts]
    (x0 : FVec Ideal Cert.Pre_finite_inputs.S32x2048x2048 .f32)
    (x1 : FVec Ideal Cert.Pre_finite_inputs.S1x32x1024 .f32)
    (x2 : FVec Ideal Cert.Pre_finite_inputs.S2048x1024 .f32)
    (x3 : FVec Ideal Cert.Pre_finite_inputs.S1024 .f32)
    (x4 : FVec Ideal Cert.Pre_finite_inputs.S2048x1024 .f32)
    (x5 : FVec Ideal Cert.Pre_finite_inputs.S1024 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧
      (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1, andi] at h0
  -- the conjunction of the six reductions, split from the outside in
  obtain ⟨h0, -⟩ := IntOp.andi_eq_one.1 h0
  obtain ⟨h0, -⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_test_at _ x0 i (Host.reduce_andi_all _ _ _ _ _ e0 i),
    fun i => real_of_test_at _ x1 i (Host.reduce_andi_all _ _ _ _ _ e1 i),
    fun i => real_of_test_at _ x2 i (Host.reduce_andi_all _ _ _ _ _ e2 i),
    fun i => real_of_test_at _ x3 i (Host.reduce_andi_all _ _ _ _ _ e3 i)⟩

end Cert.Attn.Finite
-- ==== Proof.Values.lean ====
/-
  The kernel's two result arrays, read off a run of the pipeline.

  Grid point n is sequence tile n % 4 of batch n / 4. The blocks the body reads at point n are rows of the six launched
  arrays; so the scores kept for a batch are the batch's scores, the running state after the batch's fourth tile is the
  tile walk's final state, and what the body stores there is the batch's row of attention weights and its result row,
  once the first four arrays are real numbers. Assembled over the 32 batches, the first result array is the result of
  Spec.lean and the second, after the host's final exchange of its last two axes, the attention weights.
-/
import proofs.«425971_j9947144257895_3_alg».proof.Proof.FrameKI.Dats
import proofs.«425971_j9947144257895_3_alg».proof.Proof.Blocks
import proofs.«425971_j9947144257895_3_alg».proof.Proof.KState
import proofs.«425971_j9947144257895_3_alg».proof.Proof.Finite
import proofs.«425971_j9947144257895_3_alg».proof.Defs
import proofs.«425971_j9947144257895_3_alg».proof.Proof.Tiles
import proofs.«425971_j9947144257895_3_alg».proof.Proof.Spec

noncomputable section

namespace Cert.KernelIdeal.Values

open Cert.KernelIdeal Cert.KernelIdeal.Gen Cert.Attn Idealize.ShloMosaic Idealize.ShloMosaic.ValueIdx Idealize.SL.Sem

variable (m : (ℓ : Loc nD τ sig) → Buf (Elt Ideal) ℓ) (c : Dev nD)

/-! ## The six launched arrays -/

/-- The encoder outputs as launched. -/
abbrev a0 : EncT := m ((c.tc : Thread nD τ).loc main_arg0)
/-- The decoder query as launched. -/
abbrev a1 : DecT := m ((c.tc : Thread nD τ).loc main_arg1)
/-- The projection matrix as launched. -/
abbrev a2 : MatT := m ((c.tc : Thread nD τ).loc main_arg2)
/-- The projection bias as launched. -/
abbrev a3 : BiasT := m ((c.tc : Thread nD τ).loc main_arg3)
/-- The output matrix as launched. -/
abbrev a4 : MatT := m ((c.tc : Thread nD τ).loc main_arg4)
/-- The output bias as launched. -/
abbrev a5 : BiasT := m ((c.tc : Thread nD τ).loc main_arg5)

/-- The first four arrays are real numbers entry by entry. -/
def RealInputs : Prop :=
  (∀ i, ∃ r : ℝ, a0 m c i = (r : EReal)) ∧ (∀ i, ∃ r : ℝ, a1 m c i = (r : EReal)) ∧
    (∀ i, ∃ r : ℝ, a2 m c i = (r : EReal)) ∧ (∀ i, ∃ r : ℝ, a3 m c i = (r : EReal))

/-! ## The blocks by point number -/

/-- A point below 128 is a point of the grid. -/
theorem pt_lt (n : ℕ) (hn : n < 128) : n < cfg0.N := by have := N128; omega

theorem hXB0 (n : ℕ) (hn : n < 128) (r : Fin 512) (f : Fin 2048) :
    XB0 m c n (ix3 0 r f)
      = a0 m c (ix3 ⟨n / 4, by omega⟩ ⟨(n % 4) * 512 + r.val, by have := r.isLt; omega⟩ f) := by
  rw [show XB0 m c n = iblk m c 0 ⟨n, pt_lt n hn⟩ from XB0_at m c ⟨n, pt_lt n hn⟩]
  exact Blocks.blk0 m c ⟨n, pt_lt n hn⟩ r f

theorem hXB1 (n : ℕ) (hn : n < 128) (h : Fin 1024) :
    XB1 m c n (ix3 0 0 h) = a1 m c (ix3 0 ⟨n / 4, by omega⟩ h) := by
  rw [show XB1 m c n = iblk m c 1 ⟨n, pt_lt n hn⟩ from XB1_at m c ⟨n, pt_lt n hn⟩]
  exact Blocks.blk1 m c ⟨n, pt_lt n hn⟩ h

theorem hXB2 (n : ℕ) (hn : n < 128) (f : Fin 2048) (h : Fin 1024) :
    XB2 m c n (ix2 f h) = a2 m c (ix2 f h) := by
  rw [show XB2 m c n = iblk m c 2 ⟨n, pt_lt n hn⟩ from XB2_at m c ⟨n, pt_lt n hn⟩]
  exact Blocks.blk2 m c ⟨n, pt_lt n hn⟩ f h

theorem hXB3 (n : ℕ) (hn : n < 128) (h : Fin 1024) :
    XB3 m c n (ix1 h) = a3 m c (ix1 h) := by
  rw [show XB3 m c n = iblk m c 3 ⟨n, pt_lt n hn⟩ from XB3_at m c ⟨n, pt_lt n hn⟩]
  exact Blocks.blk3 m c ⟨n, pt_lt n hn⟩ h

theorem hXB4 (n : ℕ) (hn : n < 128) (f : Fin 2048) (h : Fin 1024) :
    XB4 m c n (ix2 f h) = a4 m c (ix2 f h) := by
  rw [show XB4 m c n = iblk m c 4 ⟨n, pt_lt n hn⟩ from XB4_at m c ⟨n, pt_lt n hn⟩]
  exact Blocks.blk4 m c ⟨n, pt_lt n hn⟩ f h

theorem hXB5 (n : ℕ) (hn : n < 128) (h : Fin 1024) :
    XB5 m c n (ix1 h) = a5 m c (ix1 h) := by
  rw [show XB5 m c n = iblk m c 5 ⟨n, pt_lt n hn⟩ from XB5_at m c ⟨n, pt_lt n hn⟩]
  exact Blocks.blk5 m c ⟨n, pt_lt n hn⟩ h

/-- The four blocks the walk reads, bundled. -/
theorem inBlocks :
    KState.InBlocks (XB0 m c) (XB1 m c) (XB2 m c) (XB3 m c) (a0 m c) (a1 m c) (a2 m c) (a3 m c) :=
  ⟨hXB0 m c, hXB1 m c, hXB2 m c, hXB3 m c⟩

/-! ## The batch's scores, and the two stored rows at a batch's last tile -/

/-- Entry j of the scores kept for point n's batch is the batch's score of row j: it comes from tile j / 512, the
    point n - n % 4 + j / 512 of the same batch, at entry j % 512. -/
theorem scAll_apply (n : ℕ) (hn : n < 128) (j : Fin 2048) :
    scAll m c n (ix2 0 j) = kscore (a0 m c) (a1 m c) (a2 m c) (a3 m c) ⟨n / 4, by omega⟩ j := by
  have hj : j.val < 2048 := j.isLt
  have hp : n - n % 4 + j.val / 512 < 128 := by omega
  have hb : (n - n % 4 + j.val / 512) / 4 = n / 4 := by omega
  have ht : (n - n % 4 + j.val / 512) % 4 = j.val / 512 := by omega
  have hT : (n - n % 4 + j.val / 512) % 4 < 4 := Nat.mod_lt _ (by norm_num)
  show scTile (XB0 m c) (XB1 m c) (XB2 m c) (XB3 m c) (n - n % 4 + j.val / 512)
      (ix2 (0 : Fin 1) (⟨j.val % 512, Nat.mod_lt _ (by norm_num)⟩ : Fin 512)) = _
  rw [KState.scTile_apply (XB0 m c) (XB1 m c) (XB2 m c) (XB3 m c) (a0 m c) (a1 m c) (a2 m c) (a3 m c)
    (inBlocks m c) _ hp]
  unfold ksc
  rw [tile_of_lt _ _ hT]
  exact congrArg₂ (kscore (a0 m c) (a1 m c) (a2 m c) (a3 m c)) (Fin.ext hb)
    (Fin.ext (by show (n - n % 4 + j.val / 512) % 4 * 512 + j.val % 512 = j.val; omega))

/-- At a batch's last tile the stored weights are the batch's attention weights. -/
theorem o7_apply (hreal : RealInputs m c) (n : ℕ) (hn : n < 128) (h3 : n % 4 = 3) (j : Fin 2048) :
    o7At m c n (ix3 0 0 j) = attn (a0 m c) (a1 m c) (a2 m c) (a3 m c) ⟨n / 4, by omega⟩ j := by
  unfold o7At
  exact KState.out7_apply (XB0 m c) (XB1 m c) (XB2 m c) (XB3 m c) (a0 m c) (a1 m c) (a2 m c) (a3 m c)
    (inBlocks m c) hreal.1 hreal.2.1 hreal.2.2.1 hreal.2.2.2 n hn h3 (scAll m c n)
    (fun j => scAll_apply m c n hn j) j

/-- At a batch's last tile the stored row is the batch's result row. -/
theorem o6_apply (hreal : RealInputs m c) (n : ℕ) (hn : n < 128) (h3 : n % 4 = 3) (h : Fin 1024) :
    o6At m c n (ix3 0 0 h)
      = out (a0 m c) (a1 m c) (a2 m c) (a3 m c) (a4 m c) (a5 m c) ⟨n / 4, by omega⟩ h := by
  unfold o6At
  exact KState.out6_apply (XB0 m c) (XB1 m c) (XB2 m c) (XB3 m c) (XB4 m c) (XB5 m c)
    (a0 m c) (a1 m c) (a2 m c) (a3 m c) (a4 m c) (a5 m c)
    (inBlocks m c) (hXB4 m c) (hXB5 m c) hreal.1 hreal.2.1 hreal.2.2.1 hreal.2.2.2 n hn h3 h

/-! ## The two arrays after the last point -/

/-- The attention weights laid out as the second result window's array: (batch, 0, row). -/
def G7 : S32x1x2048.Idx → EReal :=
  fun idx => attn (a0 m c) (a1 m c) (a2 m c) (a3 m c) ⟨(idx 0).val, (idx 0).isLt⟩ ⟨(idx 2).val, (idx 2).isLt⟩

/-- The first result window's array ends holding the result. -/
theorem final6 (hreal : RealInputs m c) :
    (dats m 0 c).arrAt 6 cfg0.N = Gout (a0 m c) (a1 m c) (a2 m c) (a3 m c) (a4 m c) (a5 m c) := by
  refine Blocks.final6_of (dats m 0 c) (Gout (a0 m c) (a1 m c) (a2 m c) (a3 m c) (a4 m c) (a5 m c))
    (fun t ht hh => ?_)
  have hn : t.val < 128 := by have := t.isLt; have := N128; omega
  rw [after0_6, Gout_ix3]
  exact o6_apply m c hreal t.val hn ht hh

/-- The second result window's array ends holding the attention weights, (batch, 0, row). -/
theorem final7 (hreal : RealInputs m c) : (dats m 0 c).arrAt 7 cfg0.N = G7 m c := by
  refine Blocks.final7_of (dats m 0 c) (G7 m c) (fun t ht s => ?_)
  have hn : t.val < 128 := by have := t.isLt; have := N128; omega
  rw [after0_7]
  exact o7_apply m c hreal t.val hn ht s

/-- After the host's last line the second result buffer holds the attention weights, (batch, row, 0). -/
theorem tail_Gattn (hreal : RealInputs m c) :
    (Pipeline.afterTail₀ cfgs (dats m) 0 (V0 m) [hostOps1] c main_v4 : S32x2048x1.Idx → EReal)
      = Gattn (a0 m c) (a1 m c) (a2 m c) (a3 m c) := by
  funext idx
  obtain ⟨b, s, q, rfl⟩ : ∃ (b : Fin 32) (s : Fin 2048) (q : Fin 1), idx = ix3 b s q :=
    ⟨idx 0, idx 1, idx 2, eq_ix3 idx⟩
  obtain rfl : q = 0 := Subsingleton.elim _ _
  rw [Blocks.tail_v4 m (dats m) c (G7 m c) (final7 m c hreal) b s]
  rfl

/-! ## The run -/

/-- The precondition makes the first four arrays of every core real. -/
theorem real_of_pre [Cert.Pre_finite_inputs.Facts] (hpre : Cert.Pre_KernelIdeal m) : RealInputs m c :=
  Cert.Attn.Finite.real_of_fn _ _ _ _ _ _ (hpre c)

/-- From a run to the pipeline's post: the two results are the result and the attention weights of Spec.lean, and the
    six arguments end as launched. -/
theorem value_run [Cert.Pre_finite_inputs.Facts] (ρ : Dev nD → PrngReg) (hpre : Cert.Pre_KernelIdeal m)
    (hrun : θ_run defs (onTc (τ := τ) (main (F := Ideal))) (s₀ m ρ)
      (Pipeline.FramePost cfgs (dats m) 0 (Pipeline.afterTail₀ cfgs (dats m) 0 (V0 m) [hostOps1]))) :
    θ_run defs (onTc (τ := τ) (main (F := Ideal))) ⟨m, fun _ => 0, ρ⟩ (fun r => ∀ c : Dev nD,
      r.2.mem ((c.tc : Thread nD τ).loc main_v3_0) = Gout (a0 m c) (a1 m c) (a2 m c) (a3 m c) (a4 m c) (a5 m c)
      ∧ r.2.mem ((c.tc : Thread nD τ).loc main_v4) = Gattn (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 6).trans (final6 m c (real_of_pre m c hpre)),
      ((h c).2 main_v4 (Pipeline.mem_restRefs_of main_v4 (by decide) (by decide))).trans
        (tail_Gattn m c (real_of_pre m c hpre)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩) hrun

end Cert.KernelIdeal.Values

end
-- ==== Proof.RefValue.lean ====
/-
  The reference program, stage by stage, computes the quantities of the specification. Each stage of the
  reference is read at an index whose coordinates are named: the projection proj, the scores, the row maximum
  (a fold of max from -∞, met with -∞ once more), the exponentials, the denominator 0 + Σ, the attention
  weights, the context Σ_s attn · proj, the context joined with the query, and the result tanh (Σ_f comb · Wc + bc).
  The two results of the reference are therefore the specification's two arrays.
-/
import proofs.«425971_j9947144257895_3_alg».proof.Proof.Spec
import proofs.«425971_j9947144257895_3_alg».proof.Proof.Gen.ReferenceIdeal.Read
import Idealize.ShloMosaic.PureOps.Reduce
import Idealize.ShloMosaic.PureOps.Ideal.Laws
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic
  Idealize.ShloMosaic.ValueIdx Idealize.ShloMosaic.StableHlo Cert.Attn

variable (x0 : (⟨S32x2048x2048, .f32⟩ : BufTy).Contents (Elt Ideal)) (x1 : (⟨S1x32x1024, .f32⟩ : BufTy).Contents (Elt Ideal))
  (x2 : (⟨S2048x1024, .f32⟩ : BufTy).Contents (Elt Ideal)) (x3 : (⟨S1024, .f32⟩ : BufTy).Contents (Elt Ideal))
  (x4 : (⟨S2048x1024, .f32⟩ : BufTy).Contents (Elt Ideal)) (x5 : (⟨S1024, .f32⟩ : BufTy).Contents (Elt Ideal))

/-! ### The projection: Σ_f E[b,s,f] · We[f,h] + be[h] -/

theorem lidx0_eq (b : Fin 32) (s : Fin 2048) (h : Fin 1024) (k : Fin 2048) :
    lidx_main_v0 (ix3 b s h) k = ix3 b s k :=
  funext fun a => match a with | ⟨0, _⟩ => rfl | ⟨1, _⟩ => rfl | ⟨2, _⟩ => rfl

theorem ridx0_eq (b : Fin 32) (s : Fin 2048) (h : Fin 1024) (k : Fin 2048) :
    ridx_main_v0 (ix3 b s h) k = ix2 k h :=
  funext fun a => match a with | ⟨0, _⟩ => rfl | ⟨1, _⟩ => rfl

theorem idx12_eq (b : Fin 32) (s : Fin 2048) (h : Fin 1024) :
    idx_main_v1 (idx_main_v2 (ix3 b s h)) = ix1 h :=
  funext fun a => match a with | ⟨0, _⟩ => rfl

theorem v3_ix3 (b : Fin 32) (s : Fin 2048) (h : Fin 1024) :
    val_main_v3 (F := Ideal) x0 x2 x3 (ix3 b s h) = proj x0 x2 x3 b s h := by
  rw [val_main_v3_apply, val_main_v0_apply, val_main_v2_apply, val_main_v1_apply, idx12_eq]
  simp only [lidx0_eq, ridx0_eq, Ideal.addf_def]
  rfl

/-! ### The query, batch axis first -/

theorem v4_ix3 (b : Fin 32) (q : Fin 1) (h : Fin 1024) :
    val_main_v4 (F := Ideal) x1 (ix3 b q h) = x1 (ix3 0 b h) := by
  rw [val_main_v4_apply]
  exact congrArg x1 (funext fun a => match a with
    | ⟨0, _⟩ => Fin.ext (Nat.lt_one_iff.mp q.isLt)
    | ⟨1, _⟩ => rfl
    | ⟨2, _⟩ => rfl)

/-! ### The scores: Σ_h proj b s h · D[0,b,h] -/

theorem lidx5_eq (b : Fin 32) (s : Fin 2048) (q : Fin 1) (k : Fin 1024) :
    lidx_main_v5 (ix3 b s q) k = ix3 b s k :=
  funext fun a => match a with | ⟨0, _⟩ => rfl | ⟨1, _⟩ => rfl | ⟨2, _⟩ => rfl

theorem ridx5_eq (b : Fin 32) (s : Fin 2048) (q : Fin 1) (k : Fin 1024) :
    ridx_main_v5 (ix3 b s q) k = ix3 b q k :=
  funext fun a => match a with | ⟨0, _⟩ => rfl | ⟨1, _⟩ => rfl | ⟨2, _⟩ => rfl

theorem v5_ix3 (b : Fin 32) (s : Fin 2048) (q : Fin 1) :
    val_main_v5 (F := Ideal) x0 x1 x2 x3 (ix3 b s q) = score x0 x1 x2 x3 b s := by
  rw [val_main_v5_apply]
  unfold score
  refine Finset.sum_congr rfl fun k _ => ?_
  rw [lidx5_eq, ridx5_eq, v3_ix3, v4_ix3]

/-! ### The row maximum: the fold of max from -∞ over the row's scores, met with -∞ once more -/

theorem ofBits_ninf : Ideal.ofBits .f32 0xFF800000#32 = (⊥ : EReal) := by simp [Ideal.ofBits, Ideal.ieee]

theorem lift6_eq (hR : S32x2048x1.Reduces [1] S32x1) (b : Fin 32) (q : Fin 1) (k : Fin (S32x2048x1.size 1)) :
    hR.lift (ix2 b q) k = ix3 b (⟨k.val, k.isLt⟩ : Fin 2048) q :=
  funext fun c => Fin.ext (match c with | ⟨0, _⟩ => rfl | ⟨1, _⟩ => rfl | ⟨2, _⟩ => rfl)

theorem v6_ix2 (b : Fin 32) (q : Fin 1) :
    val_main_v6 (F := Ideal) x0 x1 x2 x3 (ix2 b q)
      = Finset.univ.fold max (⊥ : EReal) (fun s : Fin 2048 => score x0 x1 x2 x3 b s) := by
  have hR : S32x2048x1.Reduces [1] S32x1 := by decide
  unfold val_main_v6
  rw [Host.reduce_eq_fold_single FloatOps.maximumf _ _ reducesTo_S32x2048x1_S32x1_d1 hR h_S_, val_main_cst_apply]
  have hf : (val_main_v5 (F := Ideal) x0 x1 x2 x3 ∘ hR.lift (ix2 b q)) = fun s : Fin 2048 => score x0 x1 x2 x3 b s :=
    funext fun k => by
      show val_main_v5 (F := Ideal) x0 x1 x2 x3 (hR.lift (ix2 b q) k) = _
      rw [lift6_eq, v5_ix3]
      rfl
  rw [hf]
  show Finset.fold max (Ideal.ofBits .f32 0xFF800000#32) _ _ = _
  rw [ofBits_ninf]
  rfl

theorem v8_ix2 (b : Fin 32) (q : Fin 1) :
    val_main_v8 (F := Ideal) x0 x1 x2 x3 (ix2 b q) = rowmax x0 x1 x2 x3 b := by
  unfold rowmax
  rw [val_main_v8_apply, val_main_v7_apply, val_main_cst_0_apply, v6_ix2]
  show max (Ideal.ofBits .f32 0xFF800000#32) _ = max ⊥ _
  rw [ofBits_ninf]

theorem idx910_eq (b : Fin 32) (s : Fin 2048) (q : Fin 1) :
    idx_main_v9 (idx_main_v10 (ix3 b s q)) = ix2 b (0 : Fin 1) :=
  funext fun a => match a with | ⟨0, _⟩ => rfl | ⟨1, _⟩ => rfl

theorem v10_ix3 (b : Fin 32) (s : Fin 2048) (q : Fin 1) :
    val_main_v10 (F := Ideal) x0 x1 x2 x3 (ix3 b s q) = rowmax x0 x1 x2 x3 b := by
  rw [val_main_v10_apply, val_main_v9_apply, idx910_eq, v8_ix2]

/-! ### The exponentials, their sum, the weights -/

theorem v12_ix3 (b : Fin 32) (s : Fin 2048) (q : Fin 1) :
    val_main_v12 (F := Ideal) x0 x1 x2 x3 (ix3 b s q) = expo x0 x1 x2 x3 b s := by
  rw [val_main_v12_apply, val_main_v11_apply, v5_ix3, v10_ix3]
  rfl

theorem idx13_eq (b : Fin 32) (q : Fin 1) (k : Fin 2048) : idx_main_v13 (ix2 b q) k = ix3 b k q :=
  funext fun a => match a with | ⟨0, _⟩ => rfl | ⟨1, _⟩ => rfl | ⟨2, _⟩ => rfl

theorem v13_ix2 (b : Fin 32) (q : Fin 1) :
    val_main_v13 (F := Ideal) x0 x1 x2 x3 (ix2 b q) = den x0 x1 x2 x3 b := by
  rw [val_main_v13_apply, val_main_cst_1_apply]
  unfold den
  simp only [idx13_eq, v12_ix3, Ideal.ofBits_def, Ideal.ofBits_zero_f32]

theorem idx1415_eq (b : Fin 32) (s : Fin 2048) (q : Fin 1) :
    idx_main_v14 (idx_main_v15 (ix3 b s q)) = ix2 b (0 : Fin 1) :=
  funext fun a => match a with | ⟨0, _⟩ => rfl | ⟨1, _⟩ => rfl

theorem v15_ix3 (b : Fin 32) (s : Fin 2048) (q : Fin 1) :
    val_main_v15 (F := Ideal) x0 x1 x2 x3 (ix3 b s q) = den x0 x1 x2 x3 b := by
  rw [val_main_v15_apply, val_main_v14_apply, idx1415_eq, v13_ix2]

theorem v16_ix3 (b : Fin 32) (s : Fin 2048) (q : Fin 1) :
    val_main_v16 (F := Ideal) x0 x1 x2 x3 (ix3 b s q) = attn x0 x1 x2 x3 b s := by
  rw [val_main_v16_apply, v12_ix3, v15_ix3]
  rfl

/-- The reference's second result is the specification's attention weights. -/
theorem attn_eq : val_main_v16 (F := Ideal) x0 x1 x2 x3 = Gattn x0 x1 x2 x3 := by
  funext i
  obtain ⟨b, s, q, rfl⟩ : ∃ (b : Fin 32) (s : Fin 2048) (q : Fin 1), i = ix3 b s q := ⟨i 0, i 1, i 2, eq_ix3 i⟩
  rw [v16_ix3, Gattn_ix3]

/-! ### The context: Σ_s attn b s · proj b s h -/

theorem lidx17_eq (b : Fin 32) (q : Fin 1) (h : Fin 1024) (k : Fin 2048) :
    lidx_main_v17 (ix3 b q h) k = ix3 b k q :=
  funext fun a => match a with | ⟨0, _⟩ => rfl | ⟨1, _⟩ => rfl | ⟨2, _⟩ => rfl

theorem ridx17_eq (b : Fin 32) (q : Fin 1) (h : Fin 1024) (k : Fin 2048) :
    ridx_main_v17 (ix3 b q h) k = ix3 b k h :=
  funext fun a => match a with | ⟨0, _⟩ => rfl | ⟨1, _⟩ => rfl | ⟨2, _⟩ => rfl

theorem v17_ix3 (b : Fin 32) (q : Fin 1) (h : Fin 1024) :
    val_main_v17 (F := Ideal) x0 x1 x2 x3 (ix3 b q h) = ctx x0 x1 x2 x3 b h := by
  rw [val_main_v17_apply]
  unfold ctx
  refine Finset.sum_congr rfl fun k _ => ?_
  rw [lidx17_eq, ridx17_eq, v16_ix3, v3_ix3]

/-! ### The context joined with the query along the last axis -/

theorem v18_ix3 (b : Fin 32) (q : Fin 1) (f : Fin 2048) :
    val_main_v18 (F := Ideal) x0 x1 x2 x3 (ix3 b q f) = comb x0 x1 x2 x3 b f := by
  unfold val_main_v18 comb
  by_cases hf : f.val < 1024
  · rw [dif_pos hf,
      concatenate_pair_apply_left (2 : Fin S32x1x2048.rank) _ _ concatenates_S32x1x1024_S32x1x1024_S32x1x2048_d2
        (ix3 b q f) rfl (ix3 b q (⟨f.val, hf⟩ : Fin 1024))
        (fun c => match c with | ⟨0, _⟩ => rfl | ⟨1, _⟩ => rfl | ⟨2, _⟩ => rfl)]
    exact v17_ix3 x0 x1 x2 x3 b q ⟨f.val, hf⟩
  · rw [dif_neg hf,
      concatenate_pair_apply_right (2 : Fin S32x1x2048.rank) _ _ concatenates_S32x1x1024_S32x1x1024_S32x1x2048_d2
        (ix3 b q f) rfl rfl (ix3 b q (⟨f.val - 1024, by omega⟩ : Fin 1024))
        (fun c hc => match c, hc with
          | ⟨0, _⟩, _ => rfl
          | ⟨1, _⟩, _ => rfl
          | ⟨2, _⟩, hc => absurd rfl hc)
        (by show f.val - 1024 + 1024 = f.val; omega)]
    exact v4_ix3 x1 b q ⟨f.val - 1024, by omega⟩

/-! ### The result: tanh (Σ_f comb b f · Wc[f,h] + bc[h]) -/

theorem lidx19_eq (b : Fin 32) (q : Fin 1) (h : Fin 1024) (k : Fin 2048) :
    lidx_main_v19 (ix3 b q h) k = ix3 b q k :=
  funext fun a => match a with | ⟨0, _⟩ => rfl | ⟨1, _⟩ => rfl | ⟨2, _⟩ => rfl

theorem ridx19_eq (b : Fin 32) (q : Fin 1) (h : Fin 1024) (k : Fin 2048) :
    ridx_main_v19 (ix3 b q h) k = ix2 k h :=
  funext fun a => match a with | ⟨0, _⟩ => rfl | ⟨1, _⟩ => rfl

theorem idx2021_eq (b : Fin 32) (q : Fin 1) (h : Fin 1024) :
    idx_main_v20 (idx_main_v21 (ix3 b q h)) = ix1 h :=
  funext fun a => match a with | ⟨0, _⟩ => rfl

theorem v23_ix3 (b : Fin 32) (q : Fin 1) (h : Fin 1024) :
    val_main_v23 (F := Ideal) x0 x1 x2 x3 x4 x5 (ix3 b q h) = out x0 x1 x2 x3 x4 x5 b h := by
  rw [val_main_v23_apply, val_main_v22_apply, val_main_v19_apply, val_main_v21_apply, val_main_v20_apply, idx2021_eq]
  simp only [lidx19_eq, ridx19_eq, v18_ix3]
  rfl

/-- The reference's first result is the specification's result array. -/
theorem out_eq : val_main_v23 (F := Ideal) x0 x1 x2 x3 x4 x5 = Gout x0 x1 x2 x3 x4 x5 := by
  funext i
  obtain ⟨b, q, h, rfl⟩ : ∃ (b : Fin 32) (q : Fin 1) (h : Fin 1024), i = ix3 b q h := ⟨i 0, i 1, i 2, eq_ix3 i⟩
  rw [v23_ix3, Gout_ix3]

end Cert.ReferenceIdeal.RefValue

end
-- ==== Proof.lean ====
/-
  The five claims of this certificate, and by what each holds.

  The kernel computes single-query attention over a learned projection by walking each batch's 2048 encoder rows in four
  tiles of 512 with a running maximum, a running sum of exponentials and a running weighted sum of the projected rows;
  the reference computes the same quantities with a whole-row softmax.

  1. The kernel as printed runs and leaves its six argument arrays unchanged: between grid points its pipeline's body keeps
     an invariant on the carried arrays, stated over the body's own arithmetic and so the same however a float is read,
     and the arguments are read only.
  2. The kernel read over the extended reals does the same, by the same invariant: after point n the three carried
     arrays are the walk's state after n % 4 + 1 tiles of batch n / 4, and the scores array agrees with the batch's
     scores on the tiles walked so far.
  3. The reference read over the extended reals runs and leaves its arguments unchanged: it is a straight line of array
     operations, each writing its own result.
  4. The kernel over the extended reals is the printed kernel with no operation rewritten, so nothing is to be preserved.
  5. Over the extended reals, from memories that agree on the six arguments and whose first four arrays are finite, both
     programs end with the same two results: the result array tanh (Σ_f comb · Wc + bc) and the attention weights of the
     specification. For the kernel the fourth tile's state is the whole row's maximum and sum, since every score is a
     real number; for the reference each stage read at an index is the specification's quantity of that name.
-/
import proofs.«425971_j9947144257895_3_alg».proof.Defs
import proofs.«425971_j9947144257895_3_alg».proof.Proof.Gen.Kernel
import proofs.«425971_j9947144257895_3_alg».proof.Proof.Gen.Kernel.Skeleton
import proofs.«425971_j9947144257895_3_alg».proof.Proof.Gen.Kernel.Launch
import proofs.«425971_j9947144257895_3_alg».proof.Proof.Gen.Kernel.Points
import proofs.«425971_j9947144257895_3_alg».proof.Proof.Gen.Kernel.Frame
import proofs.«425971_j9947144257895_3_alg».proof.Proof.Gen.KernelIdeal
import proofs.«425971_j9947144257895_3_alg».proof.Proof.Gen.KernelIdeal.Skeleton
import proofs.«425971_j9947144257895_3_alg».proof.Proof.Gen.KernelIdeal.Launch
import proofs.«425971_j9947144257895_3_alg».proof.Proof.Gen.KernelIdeal.Points
import proofs.«425971_j9947144257895_3_alg».proof.Proof.Gen.KernelIdeal.Frame
import proofs.«425971_j9947144257895_3_alg».proof.Proof.Gen.ReferenceIdeal
import proofs.«425971_j9947144257895_3_alg».proof.Proof.Gen.Pre_finite_inputs
import proofs.«425971_j9947144257895_3_alg».proof.Proof.Gen.ReferenceIdeal.Run
import proofs.«425971_j9947144257895_3_alg».proof.Proof.Gen.ReferenceIdeal.Read
import proofs.«425971_j9947144257895_3_alg».proof.Proof.FrameKI.Body
import proofs.«425971_j9947144257895_3_alg».proof.Proof.FrameK.Body
import proofs.«425971_j9947144257895_3_alg».proof.Proof.Values
import proofs.«425971_j9947144257895_3_alg».proof.Proof.RefValue
import Idealize.ShloMosaic.Adequacy
import Idealize.ShloMosaic.Init

noncomputable section

namespace Cert.Proof

open Idealize.ShloMosaic Idealize.SL.Sem

/-- The printed kernel runs and its six arguments end as launched. -/
theorem frame_k :
    Cert.frame_Kernel (hKernel := Cert.Kernel.Gen.facts) (hPre_finite_inputs := Cert.Pre_finite_inputs.Gen.facts) :=
  fun m ρ _ => Cert.Kernel.Gen.frame (F := Bits) m ρ

/-- The kernel over the extended reals runs and its six arguments end as launched. -/
theorem frame_ki :
    Cert.frame_KernelIdeal (hKernelIdeal := Cert.KernelIdeal.Gen.facts)
      (hPre_finite_inputs := Cert.Pre_finite_inputs.Gen.facts) :=
  fun m ρ _ => Cert.KernelIdeal.Gen.frame (F := Ideal) m ρ

/-- The reference over the extended reals runs and its six arguments end as launched: the run's post without its two
    results. -/
theorem frame_ri :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- No operation was rewritten between the two kernels. -/
theorem preserves : Cert.preserves_Kernel_KernelIdeal := trivial

/-- Both programs end with the specification's two arrays of the kernel's arguments: the kernel by the tile walk, the
    reference stage by stage, its arguments being the kernel's. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.Attn.Gout (Cert.KernelIdeal.Values.a0 m c) (Cert.KernelIdeal.Values.a1 m c)
      (Cert.KernelIdeal.Values.a2 m c) (Cert.KernelIdeal.Values.a3 m c) (Cert.KernelIdeal.Values.a4 m c)
      (Cert.KernelIdeal.Values.a5 m c),
    fun c => Cert.Attn.Gattn (Cert.KernelIdeal.Values.a0 m c) (Cert.KernelIdeal.Values.a1 m c)
      (Cert.KernelIdeal.Values.a2 m c) (Cert.KernelIdeal.Values.a3 m c),
    Cert.KernelIdeal.Values.value_run m ρ hpre (Cert.KernelIdeal.Gen.run_main (F := Ideal) m ρ), ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · refine (Cert.ReferenceIdeal.Read.val_main_v23_eq _ _ _ _ _ _).trans ?_
    rw [Cert.ReferenceIdeal.RefValue.out_eq, (hagree c).1, (hagree c).2.1, (hagree c).2.2.1, (hagree c).2.2.2.1,
      (hagree c).2.2.2.2.1, (hagree c).2.2.2.2.2]
  · refine (Cert.ReferenceIdeal.Read.val_main_v16_eq _ _ _ _).trans ?_
    rw [Cert.ReferenceIdeal.RefValue.attn_eq, (hagree c).1, (hagree c).2.1, (hagree c).2.2.1, (hagree c).2.2.2.1]

/-- The certificate's claim: the five, under the four witnesses of the programs' stated side conditions. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
